-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S1024x256 : Shape := ⟨2, ![1024, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S10000x256 .f32) (main_arg1 : FVec F S10000x10000 .f32) (main_arg2 : FVec F S1024x256 .f32) (main_arg3 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S10000x256 : Shape := ⟨2, ![10000, 256]⟩
abbrev S10000x10000 : Shape := ⟨2, ![10000, 10000]⟩
abbrev S1024x256 : Shape := ⟨2, ![1024, 256]⟩
abbrev S256 : Shape := ⟨1, ![256]⟩
abbrev S4x256x256 : Shape := ⟨3, ![4, 256, 256]⟩
abbrev S1x256 : Shape := ⟨2, ![1, 256]⟩
abbrev S400x10000 : Shape := ⟨2, ![400, 10000]⟩
abbrev S400x256 : Shape := ⟨2, ![400, 256]⟩
abbrev S1x256x256 : Shape := ⟨3, ![1, 256, 256]⟩
abbrev S256x256 : Shape := ⟨2, ![256, 256]⟩

abbrev nBuf : Space → Nat
  | .hbm => 13
  | .vmem => 23
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S1024x256, .f32⟩
  | .hbm, ⟨3, _⟩ => ⟨S256, .f32⟩
  | .hbm, ⟨4, _⟩ => ⟨S10000x256, .bf16⟩
  | .hbm, ⟨5, _⟩ => ⟨S4x256x256, .f32⟩
  | .hbm, ⟨6, _⟩ => ⟨S4x256x256, .bf16⟩
  | .hbm, ⟨7, _⟩ => ⟨S1x256, .f32⟩
  | .hbm, ⟨8, _⟩ => ⟨S10000x256, .bf16⟩
  | .hbm, ⟨9, _⟩ => ⟨S10000x10000, .bf16⟩
  | .hbm, ⟨10, _⟩ => ⟨S10000x256, .bf16⟩
  | .hbm, ⟨11, _⟩ => ⟨S10000x256, .f32⟩
  | .hbm, ⟨12, _⟩ => ⟨S10000x256, .f32⟩
  | .local _ .vmem, ⟨0, _⟩ => ⟨S400x10000, .f32⟩
  | .local _ .vmem, ⟨1, _⟩ => ⟨S400x10000, .f32⟩
  | .local _ .vmem, ⟨2, _⟩ => ⟨S10000x256, .bf16⟩
  | .local _ .vmem, ⟨3, _⟩ => ⟨S4x256x256, .bf16⟩
  | .local _ .vmem, ⟨4, _⟩ => ⟨S1x256, .f32⟩
  | .local _ .vmem, ⟨5, _⟩ => ⟨S400x256, .bf16⟩
  | .local _ .vmem, ⟨6, _⟩ => ⟨S400x256, .bf16⟩
  | .local _ .vmem, ⟨7, _⟩ => ⟨S400x10000, .bf16⟩
  | .local _ .vmem, ⟨8, _⟩ => ⟨S400x10000, .bf16⟩
  | .local _ .vmem, ⟨9, _⟩ => ⟨S400x256, .bf16⟩
  | .local _ .vmem, ⟨10, _⟩ => ⟨S400x256, .bf16⟩
  | .local _ .vmem, ⟨11, _⟩ => ⟨S400x256, .f32⟩
  | .local _ .vmem, ⟨12, _⟩ => ⟨S400x256, .f32⟩
  | .local _ .vmem, ⟨13, _⟩ => ⟨S400x10000, .bf16⟩
  | .local _ .vmem, ⟨14, _⟩ => ⟨S400x10000, .bf16⟩
  | .local _ .vmem, ⟨15, _⟩ => ⟨S10000x256, .bf16⟩
  | .local _ .vmem, ⟨16, _⟩ => ⟨S400x256, .bf16⟩
  | .local _ .vmem, ⟨17, _⟩ => ⟨S400x256, .bf16⟩
  | .local _ .vmem, ⟨18, _⟩ => ⟨S400x256, .f32⟩
  | .local _ .vmem, ⟨19, _⟩ => ⟨S400x256, .f32⟩
  | .local _ .vmem, ⟨20, _⟩ => ⟨S400x256, .f32⟩
  | .local _ .vmem, ⟨21, _⟩ => ⟨S400x256, .f32⟩
  | .local _ .vmem, ⟨22, _⟩ => ⟨S10000x256, .bf16⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v6 : BitVec 32 := Scalar.muli arg0 c400_i32
  let v7 : Index := Scalar.indexCast v6
  let c0_5 : Index := 0#32
  ![v7.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x10000 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 25], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_off1 (i : grid1.Coords) : Fin 2 → Nat :=
  let arg1 : BitVec 32 := BitVec.ofNat 32 (i 1).val
  let c400_i32 : BitVec 32 := 400#32
  let v16 : BitVec 32 := Scalar.muli arg1 c400_i32
  let v17 : Index := Scalar.indexCast v16
  let c0_7 : Index := 0#32
  ![v17.toNat, 0]
def k1_cond2 (i : grid1.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage1_0 : Fin 2 → Memref sig .tc .vmem S400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S400x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S400x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S400x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  bitsLt_bf16_f32 : FTy.bits .bf16 < FTy.bits .f32
  shapeCasts_S1024x256_S4x256x256 : S1024x256.ShapeCasts S4x256x256
  shapeCasts_S256_S1x256 : S256.ShapeCasts S1x256
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  h_S400x256 : 0 < S400x256.numel
  shapeCasts_S400x256_S400x256 : S400x256.ShapeCasts S400x256
  inb_S4x256x256_S1x256x256_3_0_0 : ∀ a, (![3, 0, 0] : Fin 3 → Nat) a + S1x256x256.size a ≤ S4x256x256.size a
  h_S1x256x256 : 0 < S1x256x256.numel
  shapeCasts_S1x256x256_S256x256 : S1x256x256.ShapeCasts S256x256
  inb_S4x256x256_S1x256x256_2_0_0 : ∀ a, (![2, 0, 0] : Fin 3 → Nat) a + S1x256x256.size a ≤ S4x256x256.size a
  inb_S400x256_S400x256_0_0 : ∀ a, (![0, 0] : Fin 2 → Nat) a + S400x256.size a ≤ S400x256.size a
  packedbf16_S400x256_S400x256_0_0 : (Rect.unit (s := S400x256) ![0, 0] S400x256.size inb_S400x256_S400x256_0_0).PackedRows (EltTy.packing .bf16)
  inb_S4x256x256_S1x256x256_1_0_0 : ∀ a, (![1, 0, 0] : Fin 3 → Nat) a + S1x256x256.size a ≤ S4x256x256.size a
  inb_S4x256x256_S1x256x256_0_0_0 : ∀ a, (![0, 0, 0] : Fin 3 → Nat) a + S1x256x256.size a ≤ S4x256x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  shapeCasts_S400x10000_S400x10000 : S400x10000.ShapeCasts S400x10000
  dot_S400x10000_S10000x256_S400x256_1_0_0_1_n_n_wf : DotDims.WF S400x10000 S10000x256 S400x256 [1] [0] [0] [1] [] []
  dot_S400x256_S256x256_S400x256_1_0_0_1_n_n_wf : DotDims.WF S400x256 S256x256 S400x256 [1] [0] [0] [1] [] []
  hrank0 : 0 < grid0.rank
  k0_off1_inb : ∀ i : grid0.Coords, ∀ a, (k0_off1 i) a + S400x256.size a ≤ S10000x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .bf16 = 32 ∨ (Rect.block (s := S10000x256) S10000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x256x256.size a ≤ S4x256x256.size a
  hwx0_2 : ∀ i : grid0.Coords, EltTy.bits .bf16 = 32 ∨ (Rect.block (s := S4x256x256) S4x256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x256.size a ≤ S10000x256.size a
  hwx0_4 : ∀ i : grid0.Coords, EltTy.bits .bf16 = 32 ∨ (Rect.block (s := S10000x256) S400x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x10000.size a ≤ S10000x10000.size a
  hwx0_5 : ∀ i : grid0.Coords, EltTy.bits .bf16 = 32 ∨ (Rect.block (s := S10000x10000) S400x10000.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x256.size a ≤ S10000x256.size a
  hwx0_6 : ∀ i : grid0.Coords, EltTy.bits .bf16 = 32 ∨ (Rect.block (s := S10000x256) S400x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x256.size a ≤ S10000x256.size a
  hwx0_7 : ∀ i : grid0.Coords, EltTy.bits .f32 = 32 ∨ (Rect.block (s := S10000x256) S400x256.size (cc0_transform_7 i) (hinb0_7 i)).WholeWords (EltTy.packing .f32)
  hrank1 : 0 < grid1.rank
  k1_off1_inb : ∀ i : grid1.Coords, ∀ (k1_h1 : k1_cond1 i = 1#1), ∀ a, (k1_off1 i) a + S400x256.size a ≤ S10000x256.size a
  k1_off1_packedbf16 : ∀ i : grid1.Coords, ∀ (k1_h1 : k1_cond1 i = 1#1), (Rect.unit (s := S10000x256) (k1_off1 i) S400x256.size (k1_off1_inb i k1_h1)).PackedRows (EltTy.packing .bf16)
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .bf16 = 32 ∨ (Rect.block (s := S10000x10000) S400x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x256.size a ≤ S10000x256.size a
  hwx1_2 : ∀ i : grid1.Coords, EltTy.bits .bf16 = 32 ∨ (Rect.block (s := S10000x256) S400x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x256.size a ≤ S10000x256.size a
  hwx1_3 : ∀ i : grid1.Coords, EltTy.bits .f32 = 32 ∨ (Rect.block (s := S10000x256) S400x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x256.size a ≤ S10000x256.size a
  hwx1_4 : ∀ i : grid1.Coords, EltTy.bits .f32 = 32 ∨ (Rect.block (s := S10000x256) S400x256.size (cc1_transform_4 i) (hinb1_4 i)).WholeWords (EltTy.packing .f32)

variable [Facts₀]

def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4x256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S400x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S400x10000.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S400x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_3) S400x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v4_1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_0) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4_2) S400x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4_3) S400x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S400x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S10000x256 : Shape := ⟨2, ![10000, 256]⟩
abbrev S10000x10000 : Shape := ⟨2, ![10000, 10000]⟩
abbrev S1024x256 : Shape := ⟨2, ![1024, 256]⟩
abbrev S256 : Shape := ⟨1, ![256]⟩
abbrev S10000x1024 : Shape := ⟨2, ![10000, 1024]⟩
abbrev S1x256 : Shape := ⟨2, ![1, 256]⟩

abbrev nBuf : Space → Nat
  | .hbm => 12
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S1024x256, .f32⟩
  | .hbm, ⟨3, _⟩ => ⟨S256, .f32⟩
  | .hbm, ⟨4, _⟩ => ⟨S10000x256, .f32⟩
  | .hbm, ⟨5, _⟩ => ⟨S10000x256, .f32⟩
  | .hbm, ⟨6, _⟩ => ⟨S10000x256, .f32⟩
  | .hbm, ⟨7, _⟩ => ⟨S10000x1024, .f32⟩
  | .hbm, ⟨8, _⟩ => ⟨S10000x256, .f32⟩
  | .hbm, ⟨9, _⟩ => ⟨S1x256, .f32⟩
  | .hbm, ⟨10, _⟩ => ⟨S10000x256, .f32⟩
  | .hbm, ⟨11, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  concatenates_S10000x256_S10000x256_S10000x256_S10000x256_S10000x1024_d1 : Shape.Concatenates [S10000x256, S10000x256, S10000x256, S10000x256] S10000x1024 1
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  dot_S10000x10000_S10000x256_S10000x256_1_0_0_1_n_n_wf : DotDims.WF S10000x10000 S10000x256 S10000x256 [1] [0] [0] [1] [] []
  dot_S10000x1024_S1024x256_S10000x256_1_0_0_1_n_n_wf : DotDims.WF S10000x1024 S1024x256 S10000x256 [1] [0] [0] [1] [] []

variable [Facts₀]

def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x1024_S1024x256_S10000x256_1_0_0_1_n_n : DotDims S10000x1024 S1024x256 S10000x256 where
  lhsContracting := [1]
  rhsContracting := [0]
  lhsNonContracting := [0]
  rhsNonContracting := [1]
  lhsBatch := []
  rhsBatch := []
  wf := dot_S10000x1024_S1024x256_S10000x256_1_0_0_1_n_n_wf

class Facts : Prop extends Facts₀ where

variable [Facts]
-- ==== Proof.Kernel.Blocks.lean ====
/-
  The two kernels' work per grid point, as functions of the blocks the pipeline stages.

  First sweep, row panel i (400 rows of the adjacency matrix A, all of X, the four weight slices, the bias):
    the panel cast to the narrow format; (A_i · X) · W₃ + X_i · W₂; X_i · W₁; X_i · W₀ + b, X_i being rows
    400 i … 400 i + 399 of X.
  Second and third sweep, row panel i: A_i · U + C_i, for U the whole previous result and C_i the panel's
  correction block.
-/
import proofs.«104507_g34883724378360_cont_8to1_b_1789_9_alg».proof.Proof.Gen.Kernel.Skeleton
import Idealize.ShloMosaic.Lib.Pipeline.FrameBody
import Idealize.ShloMosaic.Lib.ValueIdx

noncomputable section

namespace Cert.Kernel.Sweep

open Idealize.ShloMosaic Idealize.ShloMosaic.TcCoe Idealize.SL.Sem
open Cert.Kernel Cert.Kernel.Gen

variable {F : FTy → Type} [FloatOps F]

/-- Rows 400 i … 400 i + 399 of a 10000-row array, i the first sweep's grid point. -/
abbrev slab0 (i : grid0.Coords) : Rect S10000x256 :=
  Rect.unit (s := S10000x256) (k0_off1 i) S400x256.size (k0_off1_inb i)

/-- Weight slice j (a 256 × 256 matrix) of the four stacked ones. -/
abbrev wslice3 : Rect S4x256x256 := Rect.unit (s := S4x256x256) ![3, 0, 0] S1x256x256.size inb_S4x256x256_S1x256x256_3_0_0
abbrev wslice2 : Rect S4x256x256 := Rect.unit (s := S4x256x256) ![2, 0, 0] S1x256x256.size inb_S4x256x256_S1x256x256_2_0_0
abbrev wslice1 : Rect S4x256x256 := Rect.unit (s := S4x256x256) ![1, 0, 0] S1x256x256.size inb_S4x256x256_S1x256x256_1_0_0
abbrev wslice0 : Rect S4x256x256 := Rect.unit (s := S4x256x256) ![0, 0, 0] S1x256x256.size inb_S4x256x256_S1x256x256_0_0_0

/-- The panel of A in the narrow format. -/
def a16blk (a : Vec F S400x10000 .f32) : FVec F S400x10000 .bf16 := k0_pay2 a

/-- (A_i · X) · W₃ + X_i · W₂. -/
def u1blk (i : grid0.Coords) (a : Vec F S400x10000 .f32) (x : Vec F S10000x256 .bf16) (w : Vec F S4x256x256 .bf16) :
    FVec F S400x256 .bf16 :=
  k0_pay4 a x (View.ld x (slab0 i)) (View.ld w wslice3) (View.ld w wslice2)

/-- X_i · W₁. -/
def c1blk (i : grid0.Coords) (x : Vec F S10000x256 .bf16) (w : Vec F S4x256x256 .bf16) : FVec F S400x256 .bf16 :=
  k0_pay5 (View.ld x (slab0 i)) (View.ld w wslice1)

/-- X_i · W₀ + b. -/
def c0blk (i : grid0.Coords) (x : Vec F S10000x256 .bf16) (w : Vec F S4x256x256 .bf16) (b : Vec F S1x256 .f32) :
    FVec F S400x256 .f32 :=
  k0_pay1 (k0_pay3 (View.ld x (slab0 i))) (k0_pay6 (View.ld w wslice0)) (constant S400x256 .f32 0x00000000#32) b

/-- A_i · U₁ + C₁,i : a panel of the second sweep's result. -/
def u2blk (a : Vec F S400x10000 .bf16) (u1 : Vec F S10000x256 .bf16) (c1 : Vec F S400x256 .bf16) : FVec F S400x256 .bf16 :=
  k1_pay1 a u1 c1

/-- A_i · U₂ + C₀,i : a panel of the result. -/
def outblk (a : Vec F S400x10000 .bf16) (u2 : Vec F S10000x256 .bf16) (c0 : Vec F S400x256 .f32) : FVec F S400x256 .f32 :=
  k1_pay2 a u2 c0

section Blocks

variable (V : (c : Dev nD) → (b : Ref sig .tc) → Buf (Elt F) ((c : Thread nD τ).loc b))

/-- Window w's block at point t of the first sweep, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window w's block at point t of the second call, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What point t of the first sweep leaves in each output window's buffer. -/
abbrev o0_4 (c : Dev nD) (t : Fin cfg0.N) : FVec F S400x256 .bf16 := u1blk (grid0.coords t) (iblk0 V c 0 t) (iblk0 V c 1 t) (iblk0 V c 2 t)
abbrev o0_5 (c : Dev nD) (t : Fin cfg0.N) : FVec F S400x10000 .bf16 := a16blk (iblk0 V c 0 t)
abbrev o0_6 (c : Dev nD) (t : Fin cfg0.N) : FVec F S400x256 .bf16 := c1blk (grid0.coords t) (iblk0 V c 1 t) (iblk0 V c 2 t)
abbrev o0_7 (c : Dev nD) (t : Fin cfg0.N) : FVec F S400x256 .f32 := c0blk (grid0.coords t) (iblk0 V c 1 t) (iblk0 V c 2 t) (iblk0 V c 3 t)

/-- The panel of the second sweep's result that point s of the second call computes (s one of its first 25). -/
abbrev u2At (c : Dev nD) (s : Fin cfg1.N) : FVec F S400x256 .bf16 := u2blk (iblk1 V c 0 s) (iblk1 V c 1 s) (iblk1 V c 2 s)

end Blocks

/-! ## Rows and the points that compute them -/

theorem row_lt (y : S10000x256.Idx) : (y 0).val < 10000 := (y 0).isLt
theorem rowA_lt (y : S10000x10000.Idx) : (y 0).val < 10000 := (y 0).isLt

/-- The first sweep's point that computes row r: r / 400. -/
def pt0 (r : Nat) (h : r < 10000) : Fin cfg0.N := ⟨r / 400, by show r / 400 < 25; omega⟩
/-- The second call's point that computes row r in its first pass (r / 400) and in its second (25 + r / 400). -/
def pt1a (r : Nat) (h : r < 10000) : Fin cfg1.N := ⟨r / 400, by show r / 400 < 50; omega⟩
def pt1b (r : Nat) (h : r < 10000) : Fin cfg1.N := ⟨25 + r / 400, by show 25 + r / 400 < 50; omega⟩
/-- Row r's place inside its 400-row panel. -/
def inPanel (r : Nat) (q : Fin 256) : S400x256.Idx := ValueIdx.ix2 (⟨r % 400, Nat.mod_lt _ (by decide)⟩ : Fin 400) q
def inPanelA (r : Nat) (k : Fin 10000) : S400x10000.Idx := ValueIdx.ix2 (⟨r % 400, Nat.mod_lt _ (by decide)⟩ : Fin 400) k

section Arrays

variable (V : (c : Dev nD) → (b : Ref sig .tc) → Buf (Elt F) ((c : Thread nD τ).loc b))

/-! ## The arrays the first sweep leaves, whole, as functions of what it found -/

def U1arr (c : Dev nD) : Vec F S10000x256 .bf16 := fun y => o0_4 V c (pt0 (y 0).val (row_lt y)) (inPanel (y 0).val (y 1))
def A16arr (c : Dev nD) : Vec F S10000x10000 .bf16 := fun y => o0_5 V c (pt0 (y 0).val (rowA_lt y)) (inPanelA (y 0).val (y 1))
def C1arr (c : Dev nD) : Vec F S10000x256 .bf16 := fun y => o0_6 V c (pt0 (y 0).val (row_lt y)) (inPanel (y 0).val (y 1))
def C0arr (c : Dev nD) : Vec F S10000x256 .f32 := fun y => o0_7 V c (pt0 (y 0).val (row_lt y)) (inPanel (y 0).val (y 1))

/-! ## What the second call computes, whole, as functions of what it found -/

/-- The second sweep's whole result (what the scratch buffer holds throughout the third sweep). -/
def U2full (c : Dev nD) : Vec F S10000x256 .bf16 := fun y => u2At V c (pt1a (y 0).val (row_lt y)) (inPanel (y 0).val (y 1))

/-- What point t of the third sweep (t ≥ 25) leaves in the output window's buffer. -/
abbrev o1_4 (c : Dev nD) (t : Fin cfg1.N) : FVec F S400x256 .f32 := outblk (iblk1 V c 0 t) (U2full V c) (iblk1 V c 3 t)

/-- The result array after the second call. -/
def OutArr (c : Dev nD) : Vec F S10000x256 .f32 := fun y => o1_4 V c (pt1b (y 0).val (row_lt y)) (inPanel (y 0).val (y 1))

end Arrays

end Cert.Kernel.Sweep

end
-- ==== Proof.Kernel.Region0.lean ====
/-
  The first sweep (25 row panels of A): what the body leaves at each point, and that it runs there.

  At point i the body reads the panel A_i, all of X, the four weight slices and the bias, and stores four blocks:
  the panel in the narrow format, (A_i · X) · W₃ + X_i · W₂, X_i · W₁ and X_i · W₀ + b. It keeps nothing between
  points and reads no output buffer's earlier contents into what it stores.
-/
import proofs.«104507_g34883724378360_cont_8to1_b_1789_9_alg».proof.Proof.Kernel.Blocks
import proofs.«104507_g34883724378360_cont_8to1_b_1789_9_alg».proof.Proof.Gen.Kernel.Launch
import proofs.«104507_g34883724378360_cont_8to1_b_1789_9_alg».proof.Proof.Gen.Kernel.Skeleton
import proofs.«104507_g34883724378360_cont_8to1_b_1789_9_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Sweep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- The first sweep's proof data on core c: the arrays as the region finds them; after the body at point t each
    input's buffer at its block and each output's at the block the point computes; nothing of the kernel's own kept
    between points; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => o0_4 V c t
    | ⟨5, _⟩ => o0_5 V c t
    | ⟨6, _⟩ => o0_6 V c t
    | ⟨7, _⟩ => o0_7 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = o0_4 V c t := by dsimp only [dat0]
theorem after0_5 (c : Dev nD) (t : Fin cfg0.N) : (dat0 V c).after 5 t = o0_5 V c t := by dsimp only [dat0]
theorem after0_6 (c : Dev nD) (t : Fin cfg0.N) : (dat0 V c).after 6 t = o0_6 V c t := by dsimp only [dat0]
theorem after0_7 (c : Dev nD) (t : Fin cfg0.N) : (dat0 V c).after 7 t = o0_7 V c t := by dsimp only [dat0]

/-- The offsets (0, 0) are the constant zero. -/
theorem offs_zero0 : (![0, 0] : Fin 2 → ℕ) = fun _ => 0 := by
  funext a; fin_cases a <;> rfl

/-- Each input's current staging buffer holds its block at every point, fetched there or not. -/
theorem before0_0 (c : Dev nD) (t : Fin cfg0.N) (d) : (dat0 V c).before 0 t d = iblk0 V c 0 t := by
  have hkeep : ∀ s, (cfg0.win 0).cut (cfg0.grid.coords s) ((dat0 V c).after 0 s) = (dat0 V c).blockOf 0 s := by
    intro s; rw [after0_0]; unfold Dat.blockOf iblk0; rw [A_eq0]; try rfl
  rw [(dat0 V c).before_in_eq_fetched 0 rfl (fun _ => rfl) (fun _ _ _ => rfl) hkeep t d]
  unfold Dat.fetched Dat.blockOf iblk0; rw [A_eq0]; try rfl
theorem before0_1 (c : Dev nD) (t : Fin cfg0.N) (d) : (dat0 V c).before 1 t d = iblk0 V c 1 t := by
  have hkeep : ∀ s, (cfg0.win 1).cut (cfg0.grid.coords s) ((dat0 V c).after 1 s) = (dat0 V c).blockOf 1 s := by
    intro s; rw [after0_1]; unfold Dat.blockOf iblk0; rw [A_eq0]; try rfl
  rw [(dat0 V c).before_in_eq_fetched 1 rfl (fun _ => rfl) (fun _ _ _ => rfl) hkeep t d]
  unfold Dat.fetched Dat.blockOf iblk0; rw [A_eq0]; try rfl
theorem before0_2 (c : Dev nD) (t : Fin cfg0.N) (d) : (dat0 V c).before 2 t d = iblk0 V c 2 t := by
  have hkeep : ∀ s, (cfg0.win 2).cut (cfg0.grid.coords s) ((dat0 V c).after 2 s) = (dat0 V c).blockOf 2 s := by
    intro s; rw [after0_2]; unfold Dat.blockOf iblk0; rw [A_eq0]; try rfl
  rw [(dat0 V c).before_in_eq_fetched 2 rfl (fun _ => rfl) (fun _ _ _ => rfl) hkeep t d]
  unfold Dat.fetched Dat.blockOf iblk0; rw [A_eq0]; try rfl
theorem before0_3 (c : Dev nD) (t : Fin cfg0.N) (d) : (dat0 V c).before 3 t d = iblk0 V c 3 t := by
  have hkeep : ∀ s, (cfg0.win 3).cut (cfg0.grid.coords s) ((dat0 V c).after 3 s) = (dat0 V c).blockOf 3 s := by
    intro s; rw [after0_3]; unfold Dat.blockOf iblk0; rw [A_eq0]; try rfl
  rw [(dat0 V c).before_in_eq_fetched 3 rfl (fun _ => rfl) (fun _ _ _ => rfl) hkeep t d]
  unfold Dat.fetched Dat.blockOf iblk0; rw [A_eq0]; try rfl

/-! ## One store through the whole of a buffer -/

/-- A single piece whose rectangle is the whole shape covers every index. -/
theorem cover_whole0 {S : Shape} {e : EltTy} {off : Fin S.rank → ℕ} (hz : off = fun _ => 0)
    (inb : ∀ a, off a + S.size a ≤ S.size a) (p : S.Idx → Elt F e) (y : S.Idx) :
    ∃ pc ∈ ([⟨Rect.unit off S.size inb, p⟩] : List (View.Piece (Elt F) S e)), y ∈ pc.1.set :=
  ⟨_, List.mem_singleton.mpr rfl, View.mem_set_unit_zero hz inb y⟩

/-- After one store through the whole of a buffer, the buffer reads as the stored value, whatever it held. -/
theorem read_whole_store0 {κ : Kind} {sp : Space} {S : Shape} {e : EltTy} (v : View sig κ sp S e)
    (f : v.ty.Contents (Elt F)) {off : Fin S.rank → ℕ} (hz : off = fun _ => 0)
    (inb : ∀ a, off a + S.size a ≤ S.size a) (p : S.Idx → Elt F e) :
    v.read (Elt F) (v.writes (Elt F) f [⟨Rect.unit off S.size inb, p⟩]) = p := by
  rw [View.read_writes_eq_canon _ _ _ (cover_whole0 hz inb p), View.canon_unit_zero hz]

/-! ## The body's triple -/

set_option maxHeartbeats 2000000 in
/-- The body on whole staging memrefs: the inputs' at contents a, x, w, b and the outputs' at anything. It runs to the
    continuation holding the inputs' as they were and each output's at the block the point computes from them. -/
theorem sound_kernel0 (c : Dev nD) (E : Set ℕ) (i : grid0.Coords)
    (arg1 : Memref sig .tc .vmem S400x10000 .f32) (harg1 : arg1.IsWhole)
    (arg2 : Memref sig .tc .vmem S10000x256 .bf16) (harg2 : arg2.IsWhole)
    (arg3 : Memref sig .tc .vmem S4x256x256 .bf16) (harg3 : arg3.IsWhole)
    (arg4 : Memref sig .tc .vmem S1x256 .f32) (harg4 : arg4.IsWhole)
    (arg5 : Memref sig .tc .vmem S400x256 .bf16) (harg5 : arg5.IsWhole)
    (arg6 : Memref sig .tc .vmem S400x10000 .bf16) (harg6 : arg6.IsWhole)
    (arg7 : Memref sig .tc .vmem S400x256 .bf16) (harg7 : arg7.IsWhole)
    (arg8 : Memref sig .tc .vmem S400x256 .f32) (harg8 : arg8.IsWhole)
    (a : Vec F S400x10000 .f32) (x : Vec F S10000x256 .bf16) (w : Vec F S4x256x256 .bf16) (b : Vec F S1x256 .f32)
    (K : PUnit → sProp 𝕄) :
    iprop(owns (c : Thread nD τ) arg1 fullShare a ∗ owns (c : Thread nD τ) arg2 fullShare x
        ∗ owns (c : Thread nD τ) arg3 fullShare w ∗ owns (c : Thread nD τ) arg4 fullShare b
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare a ∗ owns (c : Thread nD τ) arg2 fullShare x
            ∗ owns (c : Thread nD τ) arg3 fullShare w ∗ owns (c : Thread nD τ) arg4 fullShare b
            ∗ owns (c : Thread nD τ) arg5 fullShare (u1blk i a x w) ∗ owns (c : Thread nD τ) arg6 fullShare (a16blk a)
            ∗ owns (c : Thread nD τ) arg7 fullShare (c1blk i x w) ∗ owns (c : Thread nD τ) arg8 fullShare (c0blk i x w b)) -∗ K ⟨⟩))
      ⊢ wp frame (wpE (defs₀ (F := F)) Variants.none c none) E
          (cc0__sweep1_body i arg1 harg1 arg2 harg2 arg3 harg3 arg4 harg4 arg5 harg5 arg6 harg6 arg7 harg7 arg8 harg8) K := by
  simp only [cc0__sweep1_body_eq_skeleton]; unfold cc0__sweep1_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf1 hf2 hf3 hf4
  sl_exec
  sl_step
  iapply Hk
  -- the inputs are as they were
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  -- each output was stored whole once: it reads as its payload, whose whole-buffer loads are the buffers' contents
  isplitl [H5]
  · iexists _; isplitr
    swap; · iexact H5
    ipureintro
    refine (read_whole_store0 _ _ offs_zero0 _ _).trans ?_
    unfold u1blk
    simp only [View.readAt_eq_ld, View.ld_unit_zero (S := S400x10000) offs_zero0, View.ld_unit_zero (S := S10000x256) offs_zero0]
  isplitl [H6]
  · iexists _; isplitr
    swap; · iexact H6
    ipureintro
    refine (read_whole_store0 _ _ offs_zero0 _ _).trans ?_
    unfold a16blk
    simp only [View.readAt_eq_ld, View.ld_unit_zero (S := S400x10000) offs_zero0]
  isplitl [H7]
  · iexists _; isplitr
    swap; · iexact H7
    ipureintro
    refine (read_whole_store0 _ _ offs_zero0 _ _).trans ?_
    unfold c1blk
    simp only [View.readAt_eq_ld]
  · iexists _; isplitr
    swap; · iexact H8
    ipureintro
    refine (read_whole_store0 _ _ offs_zero0 _ _).trans ?_
    unfold c0blk
    sl_unfold_run_names
    simp only [View.readAt_eq_ld, View.ld_unit_zero (S := S1x256) offs_zero0]

/-! ## The body obligation, at a generic point -/

/-- What the body is called with at point t: the invariant, what the core owes, and each window's current staging
    buffer, whole, at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns: the same, each buffer at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so the triple applies at those blocks; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body runs at every point of the first sweep, from the blocks staged there to the blocks `dat0` names. -/
theorem body_obligation0 (c : Dev nD) : BodyObligation (dat0 (F := F) V c) (defs₀ (F := F)) Variants.none () Set.univ := by
  intro t
  rw [bigSep_W0, bigSep_W0]
  exact sound_body0 V c t

end Region0

end Cert.Kernel.Sweep

end
-- ==== Proof.Kernel.Region1.lean ====
/-
  The second call (2 × 25 points: two more sweeps over the panels of A in the narrow format), what its body leaves at
  each point, and that it runs there.

  First pass (points 0 … 24), panel i: A_i · U₁ + C₁,i is stored into rows 400 i … 400 i + 399 of a scratch buffer
  the kernel keeps between points; the output window's buffer is left as found. Second pass (points 25 … 49), panel i:
  the whole scratch buffer U₂ is read and A_i · U₂ + C₀,i stored into the output block. The invariant between points
  says which panels of the scratch buffer already hold their final contents: those of the points below t.
-/
import proofs.«104507_g34883724378360_cont_8to1_b_1789_9_alg».proof.Proof.Kernel.Blocks
import proofs.«104507_g34883724378360_cont_8to1_b_1789_9_alg».proof.Proof.Gen.Kernel.Launch
import proofs.«104507_g34883724378360_cont_8to1_b_1789_9_alg».proof.Proof.Gen.Kernel.Skeleton
import proofs.«104507_g34883724378360_cont_8to1_b_1789_9_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Sweep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Rows 400 i … 400 i + 399 of the scratch buffer, i the panel of a first-pass point. -/
abbrev slab1 (i : grid1.Coords) (h : k1_cond1 i = 1#1) : Rect S10000x256 :=
  Rect.unit (s := S10000x256) (k1_off1 i) S400x256.size (k1_off1_inb i h)

/-- Before point t the scratch buffer holds, in the panel of every first-pass point below t, what that point computed. -/
def scratchInv (c : Dev nD) (t : Nat) (X : Vec F S10000x256 .bf16) : Prop :=
  ∀ s : Fin cfg1.N, s.val < t → ∀ h : k1_cond1 (grid1.coords s) = 1#1, View.ld X (slab1 (grid1.coords s) h) = u2At V c s

/-- The first sweep's staging buffers, each whole at some contents: scoped buffers the second call never touches. -/
def idleStaging (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f))

/-- What the second call's body keeps between points: the untouched scoped buffers, the generator register, and
    the scratch buffer at contents satisfying `scratchInv`. -/
def Φ1 (c : Dev nD) (t : Fin (cfg1.N + 1)) : sProp 𝕄 :=
  iprop(idleStaging (F := F) c ∗ (∃ r, prngReg c r)
    ∗ ∃ X : Vec F S10000x256 .bf16, owns (c : Thread nD τ) (Memref.whole cc1_scratch0) fullShare X ∗ ⌜scratchInv V c t.val X⌝)

/-- The second call's proof data on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => o1_4 V c t
  Φ t := Φ1 V c t
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = o1_4 V c t := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]) t d).trans
    (by unfold Dat.fetched Dat.blockOf iblk1; rw [A_eq1]; rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]) t d).trans
    (by unfold Dat.fetched Dat.blockOf iblk1; rw [A_eq1]; rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]) t d).trans
    (by unfold Dat.fetched Dat.blockOf iblk1; rw [A_eq1]; rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]) t d).trans
    (by unfold Dat.fetched Dat.blockOf iblk1; rw [A_eq1]; rfl)

/-! ## The two passes, decided over the grid -/

/-- The first pass is the points below 25, -/
theorem hcond1 : ∀ t : Fin cfg1.N, k1_cond1 (grid1.coords t) = 1#1 ↔ t.val < 25 :=
  (by decide +kernel : ∀ t : Fin grid1.N, k1_cond1 (grid1.coords t) = 1#1 ↔ t.val < 25)
/-- the second the points from 25 on. -/
theorem hcond2 : ∀ t : Fin cfg1.N, k1_cond2 (grid1.coords t) = 1#1 ↔ 25 ≤ t.val :=
  (by decide +kernel : ∀ t : Fin grid1.N, k1_cond2 (grid1.coords t) = 1#1 ↔ 25 ≤ t.val)
/-- A point's panel is its index modulo 25. -/
theorem hpanel : ∀ t : Fin cfg1.N, ((grid1.coords t) 1).val = t.val % 25 :=
  (by decide +kernel : ∀ t : Fin grid1.N, ((grid1.coords t) 1).val = t.val % 25)

/-- The inputs are never idle; the output window is idle exactly in the first pass, and not written back there. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem idle1_4 : ∀ t : Fin cfg1.N, t.val < 25 → cfg1.idle 4 (grid1.coords t) = true :=
  (by decide +kernel : ∀ t : Fin grid1.N, t.val < 25 → cfg1.idle 4 (grid1.coords t) = true)
theorem noFlush1_4 : ∀ t : Fin cfg1.N, t.val < 25 → (cfg1.win 4).flush t = false :=
  (by decide +kernel : ∀ t : Fin grid1.N, t.val < 25 → win1_4.flush t = false)
theorem live1_4 : ∀ t : Fin cfg1.N, 25 ≤ t.val → cfg1.idle 4 (grid1.coords t) = false :=
  (by decide +kernel : ∀ t : Fin grid1.N, 25 ≤ t.val → cfg1.idle 4 (grid1.coords t) = false)

/-- The zero offsets of a whole-block access, as a function. -/
theorem zeros2 : (![0, 0] : Fin 2 → Nat) = fun _ => 0 := funext fun a => by fin_cases a <;> rfl

/-! ## The body on any whole memrefs, pass by pass -/

set_option maxHeartbeats 1000000 in
/-- First pass: the panel of A, all of U₁ and the correction block are read, and A_i · U₁ + C₁,i is stored into the
    scratch buffer's rows 400 i …; the rest of the scratch buffer keeps its contents, the other memrefs are not touched. -/
theorem run_first (c : Dev nD) (i : grid1.Coords) (arg2 : Memref sig .tc .vmem S400x10000 .bf16) (harg2 : arg2.IsWhole) (arg3 : Memref sig .tc .vmem S10000x256 .bf16) (harg3 : arg3.IsWhole) (arg4 : Memref sig .tc .vmem S400x256 .bf16) (harg4 : arg4.IsWhole) (arg5 : Memref sig .tc .vmem S400x256 .f32) (harg5 : arg5.IsWhole) (arg6 : Memref sig .tc .vmem S400x256 .f32) (harg6 : arg6.IsWhole) (arg7 : Memref sig .tc .vmem S10000x256 .bf16) (harg7 : arg7.IsWhole)
    (hc1 : k1_cond1 i = 1#1) (hc2 : ¬k1_cond2 i = 1#1)
    (x0 : Vec F S400x10000 .bf16) (x1 : Vec F S10000x256 .bf16) (x2 : Vec F S400x256 .bf16) (X : Vec F S10000x256 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg7 fullShare X
        ∗ (iprop(owns (c : Thread nD τ) arg2 fullShare x0 ∗ owns (c : Thread nD τ) arg3 fullShare x1 ∗ owns (c : Thread nD τ) arg4 fullShare x2
            ∗ ∃ X' : Vec F S10000x256 .bf16, owns (c : Thread nD τ) arg7 fullShare X'
                ∗ ⌜View.ld X' (slab1 i hc1) = k1_pay1 x0 x1 x2 ∧ ∀ y, y ∉ (slab1 i hc1).set → X' y = X y⌝) -∗ K ⟨⟩))
      ⊢ wp frame (wpE (defs₀ (F := F)) Variants.none c none) E (cc1__sweep23_body i arg2 harg2 arg3 harg3 arg4 harg4 arg5 harg5 arg6 harg6 arg7 harg7) K := by
  simp only [cc1__sweep23_body_eq_skeleton]; unfold cc1__sweep23_body_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg7.eq_unread hfs
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitl [HS]
  · iexists _; isplitr
    swap; · iexact HS
    ipureintro; rfl
  ipureintro
  refine ⟨?_, fun y hy => ?_⟩
  · funext x
    refine (View.read_writes_cons_emb _ _ _ _ _ x).trans ?_
    simp only [View.readAt_eq_ld, harg2.read_unread, harg3.read_unread, harg4.read_unread,
      View.ld_unit_zero (S := S400x10000) zeros2, View.ld_unit_zero (S := S10000x256) zeros2, View.ld_unit_zero (S := S400x256) zeros2]
  · rw [View.read_writes_apply_of_forall_not_mem _ _ y _ (fun p hp => by rw [List.mem_singleton] at hp; subst hp; exact hy)]
    exact congrFun (harg7.read_unread X) y

set_option maxHeartbeats 1000000 in
/-- Second pass: the panel of A, the whole scratch buffer and the correction block are read, and A_i · U₂ + C₀,i is
    stored through the whole output block; everything read keeps its contents. -/
theorem run_second (c : Dev nD) (i : grid1.Coords) (arg2 : Memref sig .tc .vmem S400x10000 .bf16) (harg2 : arg2.IsWhole) (arg3 : Memref sig .tc .vmem S10000x256 .bf16) (harg3 : arg3.IsWhole) (arg4 : Memref sig .tc .vmem S400x256 .bf16) (harg4 : arg4.IsWhole) (arg5 : Memref sig .tc .vmem S400x256 .f32) (harg5 : arg5.IsWhole) (arg6 : Memref sig .tc .vmem S400x256 .f32) (harg6 : arg6.IsWhole) (arg7 : Memref sig .tc .vmem S10000x256 .bf16) (harg7 : arg7.IsWhole)
    (hc1 : ¬k1_cond1 i = 1#1) (hc2 : k1_cond2 i = 1#1)
    (x0 : Vec F S400x10000 .bf16) (X : Vec F S10000x256 .bf16) (x3 : Vec F S400x256 .f32)
    (E : Set ℕ) (K : PUnit → sProp 𝕄) :
    iprop(owns (c : Thread nD τ) arg2 fullShare x0 ∗ owns (c : Thread nD τ) arg7 fullShare X ∗ owns (c : Thread nD τ) arg5 fullShare x3
        ∗ (∃ d, owns (c : Thread nD τ) arg6 fullShare d)
        ∗ (iprop(owns (c : Thread nD τ) arg2 fullShare x0 ∗ owns (c : Thread nD τ) arg7 fullShare X ∗ owns (c : Thread nD τ) arg5 fullShare x3
            ∗ owns (c : Thread nD τ) arg6 fullShare (k1_pay2 x0 X x3)) -∗ K ⟨⟩))
      ⊢ wp frame (wpE (defs₀ (F := F)) Variants.none c none) E (cc1__sweep23_body i arg2 harg2 arg3 harg3 arg4 harg4 arg5 harg5 arg6 harg6 arg7 harg7) K := by
  simp only [cc1__sweep23_body_eq_skeleton]; unfold cc1__sweep23_body_skel
  unfold owns
  iintro ⟨⟨%f0, %hf0, H0⟩, ⟨%fs, %hfs, HS⟩, ⟨%f3, %hf3, H3⟩, ⟨%d4, %f4, -, H4⟩, Hk⟩
  obtain rfl := harg2.eq_unread hf0; obtain rfl := harg7.eq_unread hfs; obtain rfl := harg5.eq_unread hf3
  sl_exec (disch := first | exact hc1 | exact hc2)
  sl_step
  iapply Hk
  isplitl [H0]
  · iexists _; isplitr; · ipureintro; exact harg2.read_unread _
    iexact H0
  isplitl [HS]
  · iexists _; isplitr; · ipureintro; exact harg7.read_unread _
    iexact HS
  isplitl [H3]
  · iexists _; isplitr; · ipureintro; exact harg5.read_unread _
    iexact H3
  iexists _; isplitr
  swap; · iexact H4
  ipureintro
  rw [View.read_writes_eq_canon _ _ _ (fun y => ⟨_, List.mem_singleton_self _, View.mem_set_unit_zero zeros2 inb_S400x256_S400x256_0_0 y⟩),
    View.canon_unit_zero zeros2]
  simp only [View.readAt_eq_ld, harg2.read_unread, harg7.read_unread, harg5.read_unread,
    View.ld_unit_zero (S := S400x10000) zeros2, View.ld_unit_zero (S := S10000x256) zeros2, View.ld_unit_zero (S := S400x256) zeros2]

/-! ## The scratch buffer's invariant from point to point -/

/-- Before the first point the invariant says nothing. -/
theorem scratchInv_zero (c : Dev nD) (X : Vec F S10000x256 .bf16) : scratchInv V c 0 X :=
  fun s hs _ => absurd hs (Nat.not_lt_zero _)

/-- The first row of a first-pass point's panel: 400 times its panel number. -/
theorem slab_row0 (i : grid1.Coords) : (k1_off1 i) 0 = 400 * (i 1).val := by rw [k1_off1_eq]; rfl
theorem slab_col0 (i : grid1.Coords) : (k1_off1 i) 1 = 0 := by rw [k1_off1_eq]; rfl

/-- A first-pass point t stores its panel: panel t now holds what t computed, and the panels of the points below t,
    which lie in other rows (400 s … 400 s + 399 against 400 t … 400 t + 399), keep theirs. -/
theorem scratchInv_step (c : Dev nD) (t : Fin cfg1.N) (ht : t.val < 25) (X X' : Vec F S10000x256 .bf16)
    (hX : scratchInv V c t.val X)
    (h1 : View.ld X' (slab1 (grid1.coords t) ((hcond1 t).mpr ht)) = u2At V c t)
    (h2 : ∀ y, y ∉ (slab1 (grid1.coords t) ((hcond1 t).mpr ht)).set → X' y = X y) :
    scratchInv V c (t.val + 1) X' := by
  intro s hs h
  by_cases hst : s = t
  · subst hst; exact h1
  · have hlt : s.val < t.val := by have := Fin.val_ne_of_ne hst; omega
    rw [← hX s hlt h]
    funext x
    refine h2 _ ?_
    rw [Rect.mem_set_unit]
    intro hm
    have h0 := hm 0
    have e : (((slab1 (grid1.coords s) h).idx x) 0 : Nat) = (k1_off1 (grid1.coords s)) 0 + 1 * (x 0).val := rfl
    have hx : (x 0).val < 400 := (x 0).isLt
    have hsz : S400x256.size 0 = 400 := rfl
    rw [e, slab_row0, slab_row0, hpanel, hpanel, hsz] at h0
    omega

/-- A second-pass point leaves the scratch buffer alone, and no further point is a first-pass one. -/
theorem scratchInv_keep (c : Dev nD) (t : Nat) (ht : 25 ≤ t) (X : Vec F S10000x256 .bf16) (hX : scratchInv V c t X) :
    scratchInv V c (t + 1) X :=
  fun s _ h => hX s (by have := (hcond1 s).mp h; omega) h

/-- Once every first-pass point has run the scratch buffer is the whole second-sweep result. -/
theorem scratch_full (c : Dev nD) (t : Nat) (ht : 25 ≤ t) (X : Vec F S10000x256 .bf16) (h : scratchInv V c t X) : X = U2full V c := by
  funext y
  have hr : (y 0).val < 10000 := row_lt y
  have hs : (pt1a (y 0).val hr).val < 25 := by show (y 0).val / 400 < 25; omega
  have hc : k1_cond1 (grid1.coords (pt1a (y 0).val hr)) = 1#1 := (hcond1 _).mpr hs
  have e := congrFun (h (pt1a (y 0).val hr) (by omega) hc) (inPanel (y 0).val (y 1))
  show X y = u2At V c (pt1a (y 0).val hr) (inPanel (y 0).val (y 1))
  rw [← e]
  show X y = X ((slab1 (grid1.coords (pt1a (y 0).val hr)) hc).idx (inPanel (y 0).val (y 1)))
  congr 1
  funext a; apply Fin.ext
  match a with
  | ⟨0, _⟩ =>
    show (y 0).val = (k1_off1 (grid1.coords (pt1a (y 0).val hr))) 0 + 1 * ((y 0).val % 400)
    rw [slab_row0, hpanel]
    show (y 0).val = 400 * ((y 0).val / 400 % 25) + 1 * ((y 0).val % 400)
    omega
  | ⟨1, _⟩ =>
    show (y 1).val = (k1_off1 (grid1.coords (pt1a (y 0).val hr))) 1 + 1 * (y 1).val
    rw [slab_col0]; omega

/-! ## The body obligation -/

/-- Each window's current staging memref at point t, as the pipeline passes it. -/
abbrev ms1_0 (t : Fin cfg1.N) : Memref sig .tc .vmem S400x10000 .bf16 := win1_0.stage (cfg1.slots t 0)
abbrev ms1_1 (t : Fin cfg1.N) : Memref sig .tc .vmem S10000x256 .bf16 := win1_1.stage (cfg1.slots t 1)
abbrev ms1_2 (t : Fin cfg1.N) : Memref sig .tc .vmem S400x256 .bf16 := win1_2.stage (cfg1.slots t 2)
abbrev ms1_3 (t : Fin cfg1.N) : Memref sig .tc .vmem S400x256 .f32 := win1_3.stage (cfg1.slots t 3)
abbrev ms1_4 (t : Fin cfg1.N) : Memref sig .tc .vmem S400x256 .f32 := win1_4.stage (cfg1.slots t 4)

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4000000 in
/-- The body at any point. In the first pass the scratch buffer gains the point's panel and the output window's buffer
    goes back as it came; in the second the scratch buffer, complete, is read whole and the output block stored. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.castSucc = Φ1 V c t.castSucc from rfl, show (dat1 V c).Φ t.succ = Φ1 V c t.succ from rfl]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  unfold Φ1
  by_cases ht : t.val < 25
  · rw [Dat.leavesExact_idle (dat1 V c) 4 t (idle1_4 t ht) (noFlush1_4 t ht)]
    iintro ⟨⟨Hst, Hg, %X, HS, %hX⟩, Ho, ⟨%d0, H0⟩, ⟨%d1, H1⟩, ⟨%d2, H2⟩, ⟨%d3, H3⟩, H4⟩
    iapply (run_first c (grid1.coords t) _ _ _ _ _ _ _ _ _ _ _ _ ((hcond1 t).mpr ht) (fun h => absurd ((hcond2 t).mp h) (by omega))
      (iblk1 V c 0 t) (iblk1 V c 1 t) (iblk1 V c 2 t) X Set.univ _)
    isplitl [H0]; · iexact H0
    isplitl [H1]; · iexact H1
    isplitl [H2]; · iexact H2
    isplitl [HS]; · iexact HS
    iintro ⟨H0, H1, H2, %X', HS, %hX'⟩
    isplitl [Hst Hg HS]
    · isplitl [Hst]; · iexact Hst
      isplitl [Hg]; · iexact Hg
      iexists X'; isplitl [HS]; · iexact HS
      ipureintro; exact scratchInv_step V c t ht X X' hX hX'.1 hX'.2
    isplitl [Ho]; · iexact Ho
    isplitl [H0]; · iexact H0
    isplitl [H1]; · iexact H1
    isplitl [H2]; · iexact H2
    isplitl [H3]; · iexact H3
    iexact H4
  · rw [show (dat1 V c).leavesExact 4 t = owns (c : Thread nD τ) (ms1_4 t) fullShare ((dat1 V c).after 4 t) from by
      unfold Dat.leavesExact; rw [live1_4 t (by omega)], after1_4]
    iintro ⟨⟨Hst, Hg, %X, HS, %hX⟩, Ho, ⟨%d0, H0⟩, ⟨%d1, H1⟩, ⟨%d2, H2⟩, ⟨%d3, H3⟩, ⟨%d4, H4⟩⟩
    obtain rfl : X = U2full V c := scratch_full V c t.val (by omega) X hX
    iapply (run_second c (grid1.coords t) _ _ _ _ _ _ _ _ _ _ _ _ (fun h => absurd ((hcond1 t).mp h) ht) ((hcond2 t).mpr (by omega))
      (iblk1 V c 0 t) (U2full V c) (iblk1 V c 3 t) Set.univ _)
    isplitl [H0]; · iexact H0
    isplitl [HS]; · iexact HS
    isplitl [H3]; · iexact H3
    isplitl [H4]; · iexists _; iexact H4
    iintro ⟨H0, HS, H3, H4⟩
    isplitl [Hst Hg HS]
    · isplitl [Hst]; · iexact Hst
      isplitl [Hg]; · iexact Hg
      iexists (U2full V c); isplitl [HS]; · iexact HS
      ipureintro; exact scratchInv_keep V c t.val (by omega) _ hX
    isplitl [Ho]; · iexact Ho
    isplitl [H0]; · iexact H0
    isplitl [H1]; · iexact H1
    isplitl [H2]; · iexact H2
    isplitl [H3]; · iexact H3
    iexact H4

/-- The body runs at every point of the second call. -/
theorem body_obligation1 (c : Dev nD) : BodyObligation (dat1 (F := F) V c) (defs₀ (F := F)) Variants.none () Set.univ := fun t => by
  rw [Gen.bigSep_W1, Gen.bigSep_W1]
  exact sound_body1 V c t

/-- The invariant at the first point, from the generator register and the scoped buffers no window stages. -/
theorem phi1_in (c : Dev nD) :
    iprop((∃ r, prngReg c r) ∗ Pipeline.scopedRest (Ix := Unit) (Name := ℕ) (U := UR sig nD τ) (Lvl := ℕ) (Val := Elt F) spec1 c)
      ⊢ ((dat1 V c).Φ 0 : sProp 𝕄) := by
  rw [Gen.scopedRest1_eq, show (dat1 V c).Φ 0 = Φ1 V c 0 from rfl]
  unfold Φ1 idleStaging
  simp only [owns_whole]
  iintro ⟨Hg, H0, H1, H2, H3, H4, H5, H6, H7, H8, H9, H10, H11, H12, ⟨%f, HS⟩⟩
  isplitl [H0 H1 H2 H3 H4 H5 H6 H7 H8 H9 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [Hg]; · iexact Hg
  iexists f; isplitl [HS]; · iexact HS
  ipureintro; exact scratchInv_zero V c f

/-- The invariant at the last point gives them back. -/
theorem phi1_out (c : Dev nD) :
    ((dat1 V c).Φ (Fin.last cfg1.N) : sProp 𝕄)
      ⊢ iprop((∃ r, prngReg c r) ∗ Pipeline.scopedRest (Ix := Unit) (Name := ℕ) (U := UR sig nD τ) (Lvl := ℕ) (Val := Elt F) spec1 c) := by
  rw [Gen.scopedRest1_eq, show (dat1 V c).Φ (Fin.last cfg1.N) = Φ1 V c (Fin.last cfg1.N) from rfl]
  unfold Φ1 idleStaging
  simp only [owns_whole]
  iintro ⟨⟨H0, H1, H2, H3, H4, H5, H6, H7, H8, H9, H10, H11, H12⟩, Hg, %X, HS, -⟩
  isplitl [Hg]; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexists X; iexact HS

end Region1

end Cert.Kernel.Sweep

end
-- ==== Proof.Kernel.Run.lean ====
/-
  The whole program's run, from the launch to the return.

  @main is four host operations — X cast to the narrow format; the stacked weights reshaped to four 256 × 256
  slices and cast; the bias reshaped to a row — then the first sweep, then the second call, with nothing between the
  two calls and nothing after them. The contents of every unscoped buffer are followed through these three stretches:
  as launched; after the host operations; after the first sweep, whose eight arrays then hold what its write-backs
  leave; after the second call, likewise for its five. The result array is the second call's output array at what
  its write-backs leave, and the four arguments end as launched, since no stretch writes any of them.
-/
import proofs.«104507_g34883724378360_cont_8to1_b_1789_9_alg».proof.Proof.Kernel.Region0
import proofs.«104507_g34883724378360_cont_8to1_b_1789_9_alg».proof.Proof.Kernel.Region1
import proofs.«104507_g34883724378360_cont_8to1_b_1789_9_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Sweep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The buffers' contents at the four boundaries -/

/-- Core c's buffers as launched. -/
abbrev W0 (m : (ℓ : Loc nD τ sig) → Buf (Elt F) ℓ) (ρ : Dev nD → PrngReg) : Dev nD → Valuation τ sig (Elt F) :=
  fun c b => m (c, b)

variable (m : (ℓ : Loc nD τ sig) → Buf (Elt F) ℓ) (ρ : Dev nD → PrngReg)

/-- After the four host operations: what the first sweep is entered from. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b

/-- After the first sweep: each of its eight arrays at what the write-backs of all 25 points leave (an input array as
    entered), every other buffer as entered. What the second call is entered from. -/
def W2 (c : Dev nD) : Valuation τ sig (Elt F) :=
  Pipeline.withArrays spec0 c (W1 m ρ c) fun w => (dat0 (V1 m ρ) c).arrAt w cfg0.N
/-- The same, read at the TensorCore's references. -/
abbrev V2 : (c : Dev nD) → (b : Ref sig .tc) → Buf (Elt F) ((c : Thread nD τ).loc b) := fun c b => W2 m ρ c b

/-- After the second call: each of its five arrays at what the write-backs of all 50 points leave, every other
    buffer as entered. What the program returns with. -/
def W3 (c : Dev nD) : Valuation τ sig (Elt F) :=
  Pipeline.withArrays spec1 c (W2 m ρ c) fun w => (dat1 (V2 m ρ) c).arrAt w cfg1.N
/-- The same, read at the TensorCore's references. -/
abbrev V3 : (c : Dev nD) → (b : Ref sig .tc) → Buf (Elt F) ((c : Thread nD τ).loc b) := fun c b => W3 m ρ c b

/-! ### A call's arrays after it, and the buffers it leaves alone -/

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w

theorem W2_off (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w

theorem W3_off (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

/-- When the second call is entered each of the first sweep's eight arrays holds what that sweep left in it; four of
    them, its outputs, are the arrays the second call reads. -/
theorem V2_arr (c : Dev nD) (w : Fin cfg0.W) :
    V2 m ρ c (Pipeline.arrRef spec0 w) = (dat0 (V1 m ρ) c).arrAt w cfg0.N := W2_arr m ρ c w

/-- The result array at the return: the second call's output array at what its write-backs leave. -/
theorem W3_main_v5 (c : Dev nD) : W3 m ρ c (Proc.devRef .tc main_v5) = (dat1 (V2 m ρ) c).arrAt 4 cfg1.N :=
  W3_arr m ρ c 4

/-! ### What the first sweep is entered from, as terms of the launch memory -/

/-- The adjacency matrix is an argument: no host operation writes it. -/
theorem V1_main_arg1 (c : Dev nD) : V1 m ρ c main_arg1 = m ((c : Thread nD τ).loc main_arg1) :=
  (Gen.V1_of m c main_arg1 (by decide)).trans rfl

/-- X in the narrow format. -/
theorem V1_main_v0 (c : Dev nD) :
    V1 m ρ c main_v0 = truncf .bf16 (m ((c : Thread nD τ).loc main_arg0)) bitsLt_bf16_f32 := by
  dsimp only [V1, W1, W0, hostOps0]; after_results

/-- The stacked weights as four 256 × 256 slices, in the narrow format. -/
theorem V1_main_v2 (c : Dev nD) :
    V1 m ρ c main_v2
      = truncf .bf16 (shapeCast S4x256x256 (m ((c : Thread nD τ).loc main_arg2)) shapeCasts_S1024x256_S4x256x256) bitsLt_bf16_f32 := by
  dsimp only [V1, W1, W0, hostOps0]; after_results; rfl

/-- The bias as a row. -/
theorem V1_main_v3 (c : Dev nD) :
    V1 m ρ c main_v3 = shapeCast S1x256 (m ((c : Thread nD τ).loc main_arg3)) shapeCasts_S256_S1x256 := by
  dsimp only [V1, W1, W0, hostOps0]; after_results; rfl

/-! ### The arguments at the return

No host operation writes an argument; the first sweep reads the adjacency matrix through an input window and never
touches the other three; the second call touches none. So each argument's buffer walks back to the launch memory. -/

theorem W3_main_arg0 (c : Dev nD) : W3 m ρ c (Proc.devRef .tc main_arg0) = m ((c : Thread nD τ).loc main_arg0) :=
  (W3_off m ρ c main_arg0 (by decide)).trans <| (W2_off m ρ c main_arg0 (by decide)).trans <|
    (Gen.V1_of m c main_arg0 (by decide)).trans rfl

theorem W3_main_arg1 (c : Dev nD) : W3 m ρ c (Proc.devRef .tc main_arg1) = m ((c : Thread nD τ).loc main_arg1) :=
  (W3_off m ρ c main_arg1 (by decide)).trans <| (W2_arr m ρ c 0).trans <|
    ((dat0 (V1 m ρ) c).arrAt_in 0 rfl _).trans <| (A_eq0 (V1 m ρ) c 0).trans (V1_main_arg1 m ρ c)

theorem W3_main_arg2 (c : Dev nD) : W3 m ρ c (Proc.devRef .tc main_arg2) = m ((c : Thread nD τ).loc main_arg2) :=
  (W3_off m ρ c main_arg2 (by decide)).trans <| (W2_off m ρ c main_arg2 (by decide)).trans <|
    (Gen.V1_of m c main_arg2 (by decide)).trans rfl

theorem W3_main_arg3 (c : Dev nD) : W3 m ρ c (Proc.devRef .tc main_arg3) = m ((c : Thread nD τ).loc main_arg3) :=
  (W3_off m ρ c main_arg3 (by decide)).trans <| (W2_off m ρ c main_arg3 (by decide)).trans <|
    (Gen.V1_of m c main_arg3 (by decide)).trans rfl

/-! ## The proof data of both calls, and what a core carries between stretches -/

/-- Each call's proof data at the contents it is entered from. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c

/-- No core owes another anything in this program: no pair is given a level. -/
abbrev noPairs : GSem nD τ sig → Finset Unit := fun _ => ∅
abbrev noLevel : GSem nD τ sig → Unit → ℕ := fun _ _ => 0

/-- Beside its buffers a core carries its generator register, at some state, and the record that it owes nothing. -/
abbrev carried (c : Dev nD) : sProp 𝕄 :=
  iprop((∃ r, prngReg c r) ∗ ∃ W, owes (c : Thread nD τ) (0 : CellTallies nD τ sig Unit) W)

/-- Every unscoped buffer of core c at the contents X, and what the core carries. -/
abbrev stateAt (X : Dev nD → Valuation τ sig (Elt F)) (c : Dev nD) : sProp 𝕄 :=
  iprop(StableHlo.held (c : Thread nD τ) (Pipeline.ucRefs τ sig) (X c) ∗ carried (F := F) c)

/-- An unscoped reference of the TensorCore is one of the buffers a core's state holds. -/
theorem uc_mem (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-! ### Three steps both calls share -/

/-- A core that owes nothing meets a pipeline's tallies before a point when those are nothing and every pair lies
    within their bound. -/
theorem owes_enter {cfg : Cfg sig Λ₀} {c : Dev nD} (dat : Dat τ (Elt F) Unit ℕ (UR sig nD τ) ℕ cfg c)
    (t : Fin (cfg.N + 1)) (h0 : dat.owed t = 0) (hrec : dat.recorded t = Set.univ) :
    (iprop(∃ W, owes (c : Thread nD τ) (0 : CellTallies nD τ sig Unit) W) : sProp 𝕄) ⊢ dat.owesAt () t := by
  unfold Pipeline.Dat.owesAt Pipeline.owesWithin
  rw [h0]
  iintro ⟨%W, HO⟩
  iexists W
  isplitr
  · ipureintro; intro x _; exact Or.inl (hrec ▸ Set.mem_univ x)
  · iexact HO

/-- and a pipeline whose tallies before a point are nothing leaves the core owing nothing there. -/
theorem owes_leave {cfg : Cfg sig Λ₀} {c : Dev nD} (dat : Dat τ (Elt F) Unit ℕ (UR sig nD τ) ℕ cfg c)
    (t : Fin (cfg.N + 1)) (h0 : dat.owed t = 0) :
    (dat.owesAt () t : sProp 𝕄) ⊢ iprop(∃ W, owes (c : Thread nD τ) (0 : CellTallies nD τ sig Unit) W) := by
  unfold Pipeline.Dat.owesAt Pipeline.owesWithin
  rw [h0]
  iintro ⟨%W, -, HO⟩
  iexists W
  iexact HO

/-- Neither call has a prefetched table: holding them all is holding nothing. -/
theorem no_tables (p : Fin 2) (c : Dev nD) :
    (BI.emp : sProp 𝕄) ⊢ Pipeline.prefHeld (pcfgs (F := F) p).pre c (fun _ => fullShare) (adm p).1 := by
  unfold Pipeline.prefHeld
  rw [show (Finset.univ : Finset (Fin (pcfgs (F := F) p).pre.K)) = ∅ from by
    match p with
    | ⟨0, _⟩ => rfl
    | ⟨1, _⟩ => rfl, BI.bigSep_empty]

/-! ## The two calls as stretches of the run -/

set_option backward.isDefEq.respectTransparency.types false in
/-- THE FIRST SWEEP. Entered with every unscoped buffer at W1, left with them at W2. Its eight arrays are taken out of
    the unscoped buffers at entry and put back at what the write-backs leave; the generator register goes into the
    region invariant and comes back; nothing is owed; the kernel has no semaphore of its own. -/
def sweep1 : Pipeline.RegionSeg (pcfgs (F := F)) adm (pdats m ρ) () defs₀ Variants.none noPairs noLevel 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ noPairs noLevel 0 fun _ _ => rfl
  pre := stateAt (W1 m ρ)
  post := stateAt (W2 m ρ)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have harr := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at harr
    have howe := owes_enter (pdats m ρ 0 c) 0 rfl rfl
    iintro ⟨⟨Hbufs, Hreg, Howes⟩, -, -⟩
    ihave Hsplit := harr $$ Hbufs
    icases Hsplit with ⟨Harrs, Hbypass⟩
    ihave Howes' := howe $$ Howes
    imodintro
    isplitl [Harrs]; · iexact Harrs
    isplitr; · iapply (no_tables 0 c); iempintro
    isplitl [Howes']; · iexact Howes'
    isplitl [Hreg]; · iexact Hreg
    iexact Hbypass
  hin c := by
    rw [show (pdats m ρ 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m ρ 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    have hback := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (fun w => (W2_arr m ρ c w).symm)
      (fun b hb => W2_off m ρ c b fun w e => hb (Finset.mem_image.mpr ⟨w, Finset.mem_univ _, e⟩))
    rw [Pipeline.unscopedBufs_held] at hback
    have howe := owes_leave (pdats m ρ 0 c) (Fin.last _) rfl
    iintro ⟨Harrs, Howes, Hreg, Hbypass⟩
    ihave Hbufs := hback $$ [Harrs Hbypass]
    · isplitl [Harrs] <;> iassumption
    ihave Howes' := howe $$ Howes
    imodintro
    isplitl [Hbufs]; · iexact Hbufs
    isplitl [Hreg]; · iexact Hreg
    iexact Howes'

/-- What the run ends with, the record of owing nothing apart: every unscoped buffer at W3 and the generator register. -/
abbrev endState (c : Dev nD) : sProp 𝕄 :=
  iprop(StableHlo.held (c : Thread nD τ) (Pipeline.ucRefs τ sig) (W3 m ρ c) ∗ ∃ r, prngReg c r)

set_option backward.isDefEq.respectTransparency.types false in
/-- THE SECOND CALL. Entered with every unscoped buffer at W2, left with them at W3. Its invariant between points is its
    own — the first sweep's idle staging buffers, the generator register, the scratch buffer at contents that grow
    panel by panel — and is made at the first point from the generator register and the scoped buffers no window of
    this call stages, and gives them back at the last. -/
def sweep23 : Pipeline.RegionSeg (pcfgs (F := F)) adm (pdats m ρ) () defs₀ Variants.none noPairs noLevel 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ noPairs noLevel 1 fun _ _ => rfl
  pre := stateAt (W2 m ρ)
  post c := iprop(endState m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have harr := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at harr
    have howe := owes_enter (pdats m ρ 1 c) 0 rfl rfl
    iintro ⟨⟨Hbufs, Hreg, Howes⟩, -, -⟩
    ihave Hsplit := harr $$ Hbufs
    icases Hsplit with ⟨Harrs, Hbypass⟩
    ihave Howes' := howe $$ Howes
    imodintro
    isplitl [Harrs]; · iexact Harrs
    isplitr; · iapply (no_tables 1 c); iempintro
    isplitl [Howes']; · iexact Howes'
    isplitl [Hreg]; · iexact Hreg
    iexact Hbypass
  hin c := by
    rw [show (pdats m ρ 1 c).Φ 0 = (dat1 (V2 m ρ) c).Φ 0 from rfl]
    have hmake := phi1_in (V2 m ρ) c
    iintro ⟨Hreg, -, Hscoped⟩
    iapply hmake
    isplitl [Hreg]; · iexact Hreg
    iexact Hscoped
  hout c := by
    rw [Pipeline.ownSems0_none, show (pdats m ρ 1 c).Φ (Fin.last _) = (dat1 (V2 m ρ) c).Φ (Fin.last cfg1.N) from rfl]
    have hgive := phi1_out (V2 m ρ) c
    iintro HΦ
    ihave Hback := hgive $$ HΦ
    icases Hback with ⟨Hreg, Hscoped⟩
    isplitl [Hreg]; · iexact Hreg
    isplitr; · iempintro
    iexact Hscoped
  hexit c := by
    have hback := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (fun w => (W3_arr m ρ c w).symm)
      (fun b hb => W3_off m ρ c b fun w e => hb (Finset.mem_image.mpr ⟨w, Finset.mem_univ _, e⟩))
    rw [Pipeline.unscopedBufs_held] at hback
    have howe := owes_leave (pdats m ρ 1 c) (Fin.last _) rfl
    iintro ⟨Harrs, Howes, Hreg, Hbypass⟩
    ihave Hbufs := hback $$ [Harrs Hbypass]
    · isplitl [Harrs] <;> iassumption
    ihave Howes' := howe $$ Howes
    imodintro
    isplitl [Hbufs Hreg]
    · isplitl [Hbufs]; · iexact Hbufs
      iexact Hreg
    iexact Howes'

/-! ## @main as three stretches, and the launch -/

/-- The host operations as a stretch: from every unscoped buffer at W0 to every one at W1, what the core carries
    riding along. -/
abbrev hostStretch : Pipeline.HostSeg (Name := ℕ) (U := UR sig nD τ) (pcfgs (F := F)) defs₀ Variants.none noPairs noLevel :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m ρ) (carried (F := F))

/-- @main's three stretches, in order. -/
abbrev stretches : List (Pipeline.Seg (pcfgs (F := F)) adm (pdats m ρ) () defs₀ Variants.none noPairs noLevel) :=
  [ .host (hostStretch m ρ), .region (sweep1 m ρ), .region (sweep23 m ρ) ]

/-- @main is the run of its three stretches. -/
theorem main_stretches (c : Dev nD) : main (F := F) c = Pipeline.Seg.run (stretches m ρ) :=
  (main_chain c).trans (by chain_rfl)

set_option backward.isDefEq.respectTransparency.types false in
/-- THE RUN. From any memory with every counter at zero, every weakly fair execution of @main on the TensorCores
    terminates, and in every final state the result array holds W3's contents at it and the four arguments hold what
    they were launched with. -/
theorem run_main : θ_run defs (onTc (τ := τ) (main (F := F))) ⟨m, fun _ => 0, ρ⟩ (fun r => ∀ c : Dev nD,
      r.2.mem ((c.tc : Thread nD τ).loc main_v5) = W3 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ Variants.none noPairs noLevel m ρ main
    (stretches m ρ)
    (fun c Q => by rw [main_stretches m ρ c])
    (by simp only [stretches, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      have hown : (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) := .rfl
      have hemp : (BI.emp : sProp 𝕄) ⊢ bigSep Finset.univ (fun _ : Dev nD => (BI.emp : sProp 𝕄)) := by
        rw [BI.bigSep_emp_const]
      iintro Hu
      ihave Hown := hown $$ Hu
      imodintro
      isplitl [Hown]; · iexact Hown
      iapply hemp; iempintro)
    (T₀ := stateAt (W0 m ρ)) (Tₙ := endState m ρ)
    (hch := ⟨fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W3 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W3 m ρ c) s')
      isplitl [Hbufs] <;> iassumption)
    (hQ := fun s h c =>
      ⟨h c _ (uc_mem main_v5 (by decide)),
       (h c _ (uc_mem main_arg0 (by decide))).trans (W3_main_arg0 m ρ c),
       (h c _ (uc_mem main_arg1 (by decide))).trans (W3_main_arg1 m ρ c),
       (h c _ (uc_mem main_arg2 (by decide))).trans (W3_main_arg2 m ρ c),
       (h c _ (uc_mem main_arg3 (by decide))).trans (W3_main_arg3 m ρ c)⟩)

end Cert.Kernel.Sweep

end
-- ==== Proof.KernelIdeal.Blocks.lean ====
/-
  The two kernels' work per grid point, as functions of the blocks the pipeline stages.

  First sweep, row panel i (400 rows of the adjacency matrix A, all of X, the four weight slices, the bias):
    the panel cast to the narrow format; (A_i · X) · W₃ + X_i · W₂; X_i · W₁; X_i · W₀ + b, X_i being rows
    400 i … 400 i + 399 of X.
  Second and third sweep, row panel i: A_i · U + C_i, for U the whole previous result and C_i the panel's
  correction block.
-/
import proofs.«104507_g34883724378360_cont_8to1_b_1789_9_alg».proof.Proof.Gen.KernelIdeal.Skeleton
import Idealize.ShloMosaic.Lib.Pipeline.FrameBody
import Idealize.ShloMosaic.Lib.ValueIdx

noncomputable section

namespace Cert.KernelIdeal.Sweep

open Idealize.ShloMosaic Idealize.ShloMosaic.TcCoe Idealize.SL.Sem
open Cert.KernelIdeal Cert.KernelIdeal.Gen

variable {F : FTy → Type} [FloatOps F]

/-- Rows 400 i … 400 i + 399 of a 10000-row array, i the first sweep's grid point. -/
abbrev slab0 (i : grid0.Coords) : Rect S10000x256 :=
  Rect.unit (s := S10000x256) (k0_off1 i) S400x256.size (k0_off1_inb i)

/-- Weight slice j (a 256 × 256 matrix) of the four stacked ones. -/
abbrev wslice3 : Rect S4x256x256 := Rect.unit (s := S4x256x256) ![3, 0, 0] S1x256x256.size inb_S4x256x256_S1x256x256_3_0_0
abbrev wslice2 : Rect S4x256x256 := Rect.unit (s := S4x256x256) ![2, 0, 0] S1x256x256.size inb_S4x256x256_S1x256x256_2_0_0
abbrev wslice1 : Rect S4x256x256 := Rect.unit (s := S4x256x256) ![1, 0, 0] S1x256x256.size inb_S4x256x256_S1x256x256_1_0_0
abbrev wslice0 : Rect S4x256x256 := Rect.unit (s := S4x256x256) ![0, 0, 0] S1x256x256.size inb_S4x256x256_S1x256x256_0_0_0

/-- The panel of A in the narrow format. -/
def a16blk (a : Vec F S400x10000 .f32) : FVec F S400x10000 .bf16 := k0_pay2 a

/-- (A_i · X) · W₃ + X_i · W₂. -/
def u1blk (i : grid0.Coords) (a : Vec F S400x10000 .f32) (x : Vec F S10000x256 .bf16) (w : Vec F S4x256x256 .bf16) :
    FVec F S400x256 .bf16 :=
  k0_pay4 a x (View.ld x (slab0 i)) (View.ld w wslice3) (View.ld w wslice2)

/-- X_i · W₁. -/
def c1blk (i : grid0.Coords) (x : Vec F S10000x256 .bf16) (w : Vec F S4x256x256 .bf16) : FVec F S400x256 .bf16 :=
  k0_pay5 (View.ld x (slab0 i)) (View.ld w wslice1)

/-- X_i · W₀ + b. -/
def c0blk (i : grid0.Coords) (x : Vec F S10000x256 .bf16) (w : Vec F S4x256x256 .bf16) (b : Vec F S1x256 .f32) :
    FVec F S400x256 .f32 :=
  k0_pay1 (k0_pay3 (View.ld x (slab0 i))) (k0_pay6 (View.ld w wslice0)) (constant S400x256 .f32 0x00000000#32) b

/-- A_i · U₁ + C₁,i : a panel of the second sweep's result. -/
def u2blk (a : Vec F S400x10000 .bf16) (u1 : Vec F S10000x256 .bf16) (c1 : Vec F S400x256 .bf16) : FVec F S400x256 .bf16 :=
  k1_pay1 a u1 c1

/-- A_i · U₂ + C₀,i : a panel of the result. -/
def outblk (a : Vec F S400x10000 .bf16) (u2 : Vec F S10000x256 .bf16) (c0 : Vec F S400x256 .f32) : FVec F S400x256 .f32 :=
  k1_pay2 a u2 c0

section Blocks

variable (V : (c : Dev nD) → (b : Ref sig .tc) → Buf (Elt F) ((c : Thread nD τ).loc b))

/-- Window w's block at point t of the first sweep, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window w's block at point t of the second call, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What point t of the first sweep leaves in each output window's buffer. -/
abbrev o0_4 (c : Dev nD) (t : Fin cfg0.N) : FVec F S400x256 .bf16 := u1blk (grid0.coords t) (iblk0 V c 0 t) (iblk0 V c 1 t) (iblk0 V c 2 t)
abbrev o0_5 (c : Dev nD) (t : Fin cfg0.N) : FVec F S400x10000 .bf16 := a16blk (iblk0 V c 0 t)
abbrev o0_6 (c : Dev nD) (t : Fin cfg0.N) : FVec F S400x256 .bf16 := c1blk (grid0.coords t) (iblk0 V c 1 t) (iblk0 V c 2 t)
abbrev o0_7 (c : Dev nD) (t : Fin cfg0.N) : FVec F S400x256 .f32 := c0blk (grid0.coords t) (iblk0 V c 1 t) (iblk0 V c 2 t) (iblk0 V c 3 t)

/-- The panel of the second sweep's result that point s of the second call computes (s one of its first 25). -/
abbrev u2At (c : Dev nD) (s : Fin cfg1.N) : FVec F S400x256 .bf16 := u2blk (iblk1 V c 0 s) (iblk1 V c 1 s) (iblk1 V c 2 s)

end Blocks

/-! ## Rows and the points that compute them -/

theorem row_lt (y : S10000x256.Idx) : (y 0).val < 10000 := (y 0).isLt
theorem rowA_lt (y : S10000x10000.Idx) : (y 0).val < 10000 := (y 0).isLt

/-- The first sweep's point that computes row r: r / 400. -/
def pt0 (r : Nat) (h : r < 10000) : Fin cfg0.N := ⟨r / 400, by show r / 400 < 25; omega⟩
/-- The second call's point that computes row r in its first pass (r / 400) and in its second (25 + r / 400). -/
def pt1a (r : Nat) (h : r < 10000) : Fin cfg1.N := ⟨r / 400, by show r / 400 < 50; omega⟩
def pt1b (r : Nat) (h : r < 10000) : Fin cfg1.N := ⟨25 + r / 400, by show 25 + r / 400 < 50; omega⟩
/-- Row r's place inside its 400-row panel. -/
def inPanel (r : Nat) (q : Fin 256) : S400x256.Idx := ValueIdx.ix2 (⟨r % 400, Nat.mod_lt _ (by decide)⟩ : Fin 400) q
def inPanelA (r : Nat) (k : Fin 10000) : S400x10000.Idx := ValueIdx.ix2 (⟨r % 400, Nat.mod_lt _ (by decide)⟩ : Fin 400) k

section Arrays

variable (V : (c : Dev nD) → (b : Ref sig .tc) → Buf (Elt F) ((c : Thread nD τ).loc b))

/-! ## The arrays the first sweep leaves, whole, as functions of what it found -/

def U1arr (c : Dev nD) : Vec F S10000x256 .bf16 := fun y => o0_4 V c (pt0 (y 0).val (row_lt y)) (inPanel (y 0).val (y 1))
def A16arr (c : Dev nD) : Vec F S10000x10000 .bf16 := fun y => o0_5 V c (pt0 (y 0).val (rowA_lt y)) (inPanelA (y 0).val (y 1))
def C1arr (c : Dev nD) : Vec F S10000x256 .bf16 := fun y => o0_6 V c (pt0 (y 0).val (row_lt y)) (inPanel (y 0).val (y 1))
def C0arr (c : Dev nD) : Vec F S10000x256 .f32 := fun y => o0_7 V c (pt0 (y 0).val (row_lt y)) (inPanel (y 0).val (y 1))

/-! ## What the second call computes, whole, as functions of what it found -/

/-- The second sweep's whole result (what the scratch buffer holds throughout the third sweep). -/
def U2full (c : Dev nD) : Vec F S10000x256 .bf16 := fun y => u2At V c (pt1a (y 0).val (row_lt y)) (inPanel (y 0).val (y 1))

/-- What point t of the third sweep (t ≥ 25) leaves in the output window's buffer. -/
abbrev o1_4 (c : Dev nD) (t : Fin cfg1.N) : FVec F S400x256 .f32 := outblk (iblk1 V c 0 t) (U2full V c) (iblk1 V c 3 t)

/-- The result array after the second call. -/
def OutArr (c : Dev nD) : Vec F S10000x256 .f32 := fun y => o1_4 V c (pt1b (y 0).val (row_lt y)) (inPanel (y 0).val (y 1))

end Arrays

end Cert.KernelIdeal.Sweep

end
-- ==== Proof.KernelIdeal.Region0.lean ====
/-
  The first sweep (25 row panels of A): what the body leaves at each point, and that it runs there.

  At point i the body reads the panel A_i, all of X, the four weight slices and the bias, and stores four blocks:
  the panel in the narrow format, (A_i · X) · W₃ + X_i · W₂, X_i · W₁ and X_i · W₀ + b. It keeps nothing between
  points and reads no output buffer's earlier contents into what it stores.
-/
import proofs.«104507_g34883724378360_cont_8to1_b_1789_9_alg».proof.Proof.KernelIdeal.Blocks
import proofs.«104507_g34883724378360_cont_8to1_b_1789_9_alg».proof.Proof.Gen.KernelIdeal.Launch
import proofs.«104507_g34883724378360_cont_8to1_b_1789_9_alg».proof.Proof.Gen.KernelIdeal.Skeleton
import proofs.«104507_g34883724378360_cont_8to1_b_1789_9_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Sweep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- The first sweep's proof data on core c: the arrays as the region finds them; after the body at point t each
    input's buffer at its block and each output's at the block the point computes; nothing of the kernel's own kept
    between points; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => o0_4 V c t
    | ⟨5, _⟩ => o0_5 V c t
    | ⟨6, _⟩ => o0_6 V c t
    | ⟨7, _⟩ => o0_7 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = o0_4 V c t := by dsimp only [dat0]
theorem after0_5 (c : Dev nD) (t : Fin cfg0.N) : (dat0 V c).after 5 t = o0_5 V c t := by dsimp only [dat0]
theorem after0_6 (c : Dev nD) (t : Fin cfg0.N) : (dat0 V c).after 6 t = o0_6 V c t := by dsimp only [dat0]
theorem after0_7 (c : Dev nD) (t : Fin cfg0.N) : (dat0 V c).after 7 t = o0_7 V c t := by dsimp only [dat0]

/-- The offsets (0, 0) are the constant zero. -/
theorem offs_zero0 : (![0, 0] : Fin 2 → ℕ) = fun _ => 0 := by
  funext a; fin_cases a <;> rfl

/-- Each input's current staging buffer holds its block at every point, fetched there or not. -/
theorem before0_0 (c : Dev nD) (t : Fin cfg0.N) (d) : (dat0 V c).before 0 t d = iblk0 V c 0 t := by
  have hkeep : ∀ s, (cfg0.win 0).cut (cfg0.grid.coords s) ((dat0 V c).after 0 s) = (dat0 V c).blockOf 0 s := by
    intro s; rw [after0_0]; unfold Dat.blockOf iblk0; rw [A_eq0]; try rfl
  rw [(dat0 V c).before_in_eq_fetched 0 rfl (fun _ => rfl) (fun _ _ _ => rfl) hkeep t d]
  unfold Dat.fetched Dat.blockOf iblk0; rw [A_eq0]; try rfl
theorem before0_1 (c : Dev nD) (t : Fin cfg0.N) (d) : (dat0 V c).before 1 t d = iblk0 V c 1 t := by
  have hkeep : ∀ s, (cfg0.win 1).cut (cfg0.grid.coords s) ((dat0 V c).after 1 s) = (dat0 V c).blockOf 1 s := by
    intro s; rw [after0_1]; unfold Dat.blockOf iblk0; rw [A_eq0]; try rfl
  rw [(dat0 V c).before_in_eq_fetched 1 rfl (fun _ => rfl) (fun _ _ _ => rfl) hkeep t d]
  unfold Dat.fetched Dat.blockOf iblk0; rw [A_eq0]; try rfl
theorem before0_2 (c : Dev nD) (t : Fin cfg0.N) (d) : (dat0 V c).before 2 t d = iblk0 V c 2 t := by
  have hkeep : ∀ s, (cfg0.win 2).cut (cfg0.grid.coords s) ((dat0 V c).after 2 s) = (dat0 V c).blockOf 2 s := by
    intro s; rw [after0_2]; unfold Dat.blockOf iblk0; rw [A_eq0]; try rfl
  rw [(dat0 V c).before_in_eq_fetched 2 rfl (fun _ => rfl) (fun _ _ _ => rfl) hkeep t d]
  unfold Dat.fetched Dat.blockOf iblk0; rw [A_eq0]; try rfl
theorem before0_3 (c : Dev nD) (t : Fin cfg0.N) (d) : (dat0 V c).before 3 t d = iblk0 V c 3 t := by
  have hkeep : ∀ s, (cfg0.win 3).cut (cfg0.grid.coords s) ((dat0 V c).after 3 s) = (dat0 V c).blockOf 3 s := by
    intro s; rw [after0_3]; unfold Dat.blockOf iblk0; rw [A_eq0]; try rfl
  rw [(dat0 V c).before_in_eq_fetched 3 rfl (fun _ => rfl) (fun _ _ _ => rfl) hkeep t d]
  unfold Dat.fetched Dat.blockOf iblk0; rw [A_eq0]; try rfl

/-! ## One store through the whole of a buffer -/

/-- A single piece whose rectangle is the whole shape covers every index. -/
theorem cover_whole0 {S : Shape} {e : EltTy} {off : Fin S.rank → ℕ} (hz : off = fun _ => 0)
    (inb : ∀ a, off a + S.size a ≤ S.size a) (p : S.Idx → Elt F e) (y : S.Idx) :
    ∃ pc ∈ ([⟨Rect.unit off S.size inb, p⟩] : List (View.Piece (Elt F) S e)), y ∈ pc.1.set :=
  ⟨_, List.mem_singleton.mpr rfl, View.mem_set_unit_zero hz inb y⟩

/-- After one store through the whole of a buffer, the buffer reads as the stored value, whatever it held. -/
theorem read_whole_store0 {κ : Kind} {sp : Space} {S : Shape} {e : EltTy} (v : View sig κ sp S e)
    (f : v.ty.Contents (Elt F)) {off : Fin S.rank → ℕ} (hz : off = fun _ => 0)
    (inb : ∀ a, off a + S.size a ≤ S.size a) (p : S.Idx → Elt F e) :
    v.read (Elt F) (v.writes (Elt F) f [⟨Rect.unit off S.size inb, p⟩]) = p := by
  rw [View.read_writes_eq_canon _ _ _ (cover_whole0 hz inb p), View.canon_unit_zero hz]

/-! ## The body's triple -/

set_option maxHeartbeats 2000000 in
/-- The body on whole staging memrefs: the inputs' at contents a, x, w, b and the outputs' at anything. It runs to the
    continuation holding the inputs' as they were and each output's at the block the point computes from them. -/
theorem sound_kernel0 (c : Dev nD) (E : Set ℕ) (i : grid0.Coords)
    (arg1 : Memref sig .tc .vmem S400x10000 .f32) (harg1 : arg1.IsWhole)
    (arg2 : Memref sig .tc .vmem S10000x256 .bf16) (harg2 : arg2.IsWhole)
    (arg3 : Memref sig .tc .vmem S4x256x256 .bf16) (harg3 : arg3.IsWhole)
    (arg4 : Memref sig .tc .vmem S1x256 .f32) (harg4 : arg4.IsWhole)
    (arg5 : Memref sig .tc .vmem S400x256 .bf16) (harg5 : arg5.IsWhole)
    (arg6 : Memref sig .tc .vmem S400x10000 .bf16) (harg6 : arg6.IsWhole)
    (arg7 : Memref sig .tc .vmem S400x256 .bf16) (harg7 : arg7.IsWhole)
    (arg8 : Memref sig .tc .vmem S400x256 .f32) (harg8 : arg8.IsWhole)
    (a : Vec F S400x10000 .f32) (x : Vec F S10000x256 .bf16) (w : Vec F S4x256x256 .bf16) (b : Vec F S1x256 .f32)
    (K : PUnit → sProp 𝕄) :
    iprop(owns (c : Thread nD τ) arg1 fullShare a ∗ owns (c : Thread nD τ) arg2 fullShare x
        ∗ owns (c : Thread nD τ) arg3 fullShare w ∗ owns (c : Thread nD τ) arg4 fullShare b
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare a ∗ owns (c : Thread nD τ) arg2 fullShare x
            ∗ owns (c : Thread nD τ) arg3 fullShare w ∗ owns (c : Thread nD τ) arg4 fullShare b
            ∗ owns (c : Thread nD τ) arg5 fullShare (u1blk i a x w) ∗ owns (c : Thread nD τ) arg6 fullShare (a16blk a)
            ∗ owns (c : Thread nD τ) arg7 fullShare (c1blk i x w) ∗ owns (c : Thread nD τ) arg8 fullShare (c0blk i x w b)) -∗ K ⟨⟩))
      ⊢ wp frame (wpE (defs₀ (F := F)) Variants.none c none) E
          (cc0__sweep1_body i arg1 harg1 arg2 harg2 arg3 harg3 arg4 harg4 arg5 harg5 arg6 harg6 arg7 harg7 arg8 harg8) K := by
  simp only [cc0__sweep1_body_eq_skeleton]; unfold cc0__sweep1_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf1 hf2 hf3 hf4
  sl_exec
  sl_step
  iapply Hk
  -- the inputs are as they were
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  -- each output was stored whole once: it reads as its payload, whose whole-buffer loads are the buffers' contents
  isplitl [H5]
  · iexists _; isplitr
    swap; · iexact H5
    ipureintro
    refine (read_whole_store0 _ _ offs_zero0 _ _).trans ?_
    unfold u1blk
    simp only [View.readAt_eq_ld, View.ld_unit_zero (S := S400x10000) offs_zero0, View.ld_unit_zero (S := S10000x256) offs_zero0]
  isplitl [H6]
  · iexists _; isplitr
    swap; · iexact H6
    ipureintro
    refine (read_whole_store0 _ _ offs_zero0 _ _).trans ?_
    unfold a16blk
    simp only [View.readAt_eq_ld, View.ld_unit_zero (S := S400x10000) offs_zero0]
  isplitl [H7]
  · iexists _; isplitr
    swap; · iexact H7
    ipureintro
    refine (read_whole_store0 _ _ offs_zero0 _ _).trans ?_
    unfold c1blk
    simp only [View.readAt_eq_ld]
  · iexists _; isplitr
    swap; · iexact H8
    ipureintro
    refine (read_whole_store0 _ _ offs_zero0 _ _).trans ?_
    unfold c0blk
    sl_unfold_run_names
    simp only [View.readAt_eq_ld, View.ld_unit_zero (S := S1x256) offs_zero0]

/-! ## The body obligation, at a generic point -/

/-- What the body is called with at point t: the invariant, what the core owes, and each window's current staging
    buffer, whole, at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns: the same, each buffer at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so the triple applies at those blocks; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body runs at every point of the first sweep, from the blocks staged there to the blocks `dat0` names. -/
theorem body_obligation0 (c : Dev nD) : BodyObligation (dat0 (F := F) V c) (defs₀ (F := F)) Variants.none () Set.univ := by
  intro t
  rw [bigSep_W0, bigSep_W0]
  exact sound_body0 V c t

end Region0

end Cert.KernelIdeal.Sweep

end
-- ==== Proof.KernelIdeal.Region1.lean ====
/-
  The second call (2 × 25 points: two more sweeps over the panels of A in the narrow format), what its body leaves at
  each point, and that it runs there.

  First pass (points 0 … 24), panel i: A_i · U₁ + C₁,i is stored into rows 400 i … 400 i + 399 of a scratch buffer
  the kernel keeps between points; the output window's buffer is left as found. Second pass (points 25 … 49), panel i:
  the whole scratch buffer U₂ is read and A_i · U₂ + C₀,i stored into the output block. The invariant between points
  says which panels of the scratch buffer already hold their final contents: those of the points below t.
-/
import proofs.«104507_g34883724378360_cont_8to1_b_1789_9_alg».proof.Proof.KernelIdeal.Blocks
import proofs.«104507_g34883724378360_cont_8to1_b_1789_9_alg».proof.Proof.Gen.KernelIdeal.Launch
import proofs.«104507_g34883724378360_cont_8to1_b_1789_9_alg».proof.Proof.Gen.KernelIdeal.Skeleton
import proofs.«104507_g34883724378360_cont_8to1_b_1789_9_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Sweep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Rows 400 i … 400 i + 399 of the scratch buffer, i the panel of a first-pass point. -/
abbrev slab1 (i : grid1.Coords) (h : k1_cond1 i = 1#1) : Rect S10000x256 :=
  Rect.unit (s := S10000x256) (k1_off1 i) S400x256.size (k1_off1_inb i h)

/-- Before point t the scratch buffer holds, in the panel of every first-pass point below t, what that point computed. -/
def scratchInv (c : Dev nD) (t : Nat) (X : Vec F S10000x256 .bf16) : Prop :=
  ∀ s : Fin cfg1.N, s.val < t → ∀ h : k1_cond1 (grid1.coords s) = 1#1, View.ld X (slab1 (grid1.coords s) h) = u2At V c s

/-- The first sweep's staging buffers, each whole at some contents: scoped buffers the second call never touches. -/
def idleStaging (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f))

/-- What the second call's body keeps between points: the untouched scoped buffers, the generator register, and
    the scratch buffer at contents satisfying `scratchInv`. -/
def Φ1 (c : Dev nD) (t : Fin (cfg1.N + 1)) : sProp 𝕄 :=
  iprop(idleStaging (F := F) c ∗ (∃ r, prngReg c r)
    ∗ ∃ X : Vec F S10000x256 .bf16, owns (c : Thread nD τ) (Memref.whole cc1_scratch0) fullShare X ∗ ⌜scratchInv V c t.val X⌝)

/-- The second call's proof data on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => o1_4 V c t
  Φ t := Φ1 V c t
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = o1_4 V c t := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]) t d).trans
    (by unfold Dat.fetched Dat.blockOf iblk1; rw [A_eq1]; rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]) t d).trans
    (by unfold Dat.fetched Dat.blockOf iblk1; rw [A_eq1]; rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]) t d).trans
    (by unfold Dat.fetched Dat.blockOf iblk1; rw [A_eq1]; rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]) t d).trans
    (by unfold Dat.fetched Dat.blockOf iblk1; rw [A_eq1]; rfl)

/-! ## The two passes, decided over the grid -/

/-- The first pass is the points below 25, -/
theorem hcond1 : ∀ t : Fin cfg1.N, k1_cond1 (grid1.coords t) = 1#1 ↔ t.val < 25 :=
  (by decide +kernel : ∀ t : Fin grid1.N, k1_cond1 (grid1.coords t) = 1#1 ↔ t.val < 25)
/-- the second the points from 25 on. -/
theorem hcond2 : ∀ t : Fin cfg1.N, k1_cond2 (grid1.coords t) = 1#1 ↔ 25 ≤ t.val :=
  (by decide +kernel : ∀ t : Fin grid1.N, k1_cond2 (grid1.coords t) = 1#1 ↔ 25 ≤ t.val)
/-- A point's panel is its index modulo 25. -/
theorem hpanel : ∀ t : Fin cfg1.N, ((grid1.coords t) 1).val = t.val % 25 :=
  (by decide +kernel : ∀ t : Fin grid1.N, ((grid1.coords t) 1).val = t.val % 25)

/-- The inputs are never idle; the output window is idle exactly in the first pass, and not written back there. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem idle1_4 : ∀ t : Fin cfg1.N, t.val < 25 → cfg1.idle 4 (grid1.coords t) = true :=
  (by decide +kernel : ∀ t : Fin grid1.N, t.val < 25 → cfg1.idle 4 (grid1.coords t) = true)
theorem noFlush1_4 : ∀ t : Fin cfg1.N, t.val < 25 → (cfg1.win 4).flush t = false :=
  (by decide +kernel : ∀ t : Fin grid1.N, t.val < 25 → win1_4.flush t = false)
theorem live1_4 : ∀ t : Fin cfg1.N, 25 ≤ t.val → cfg1.idle 4 (grid1.coords t) = false :=
  (by decide +kernel : ∀ t : Fin grid1.N, 25 ≤ t.val → cfg1.idle 4 (grid1.coords t) = false)

/-- The zero offsets of a whole-block access, as a function. -/
theorem zeros2 : (![0, 0] : Fin 2 → Nat) = fun _ => 0 := funext fun a => by fin_cases a <;> rfl

/-! ## The body on any whole memrefs, pass by pass -/

set_option maxHeartbeats 1000000 in
/-- First pass: the panel of A, all of U₁ and the correction block are read, and A_i · U₁ + C₁,i is stored into the
    scratch buffer's rows 400 i …; the rest of the scratch buffer keeps its contents, the other memrefs are not touched. -/
theorem run_first (c : Dev nD) (i : grid1.Coords) (arg2 : Memref sig .tc .vmem S400x10000 .bf16) (harg2 : arg2.IsWhole) (arg3 : Memref sig .tc .vmem S10000x256 .bf16) (harg3 : arg3.IsWhole) (arg4 : Memref sig .tc .vmem S400x256 .bf16) (harg4 : arg4.IsWhole) (arg5 : Memref sig .tc .vmem S400x256 .f32) (harg5 : arg5.IsWhole) (arg6 : Memref sig .tc .vmem S400x256 .f32) (harg6 : arg6.IsWhole) (arg7 : Memref sig .tc .vmem S10000x256 .bf16) (harg7 : arg7.IsWhole)
    (hc1 : k1_cond1 i = 1#1) (hc2 : ¬k1_cond2 i = 1#1)
    (x0 : Vec F S400x10000 .bf16) (x1 : Vec F S10000x256 .bf16) (x2 : Vec F S400x256 .bf16) (X : Vec F S10000x256 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg7 fullShare X
        ∗ (iprop(owns (c : Thread nD τ) arg2 fullShare x0 ∗ owns (c : Thread nD τ) arg3 fullShare x1 ∗ owns (c : Thread nD τ) arg4 fullShare x2
            ∗ ∃ X' : Vec F S10000x256 .bf16, owns (c : Thread nD τ) arg7 fullShare X'
                ∗ ⌜View.ld X' (slab1 i hc1) = k1_pay1 x0 x1 x2 ∧ ∀ y, y ∉ (slab1 i hc1).set → X' y = X y⌝) -∗ K ⟨⟩))
      ⊢ wp frame (wpE (defs₀ (F := F)) Variants.none c none) E (cc1__sweep23_body i arg2 harg2 arg3 harg3 arg4 harg4 arg5 harg5 arg6 harg6 arg7 harg7) K := by
  simp only [cc1__sweep23_body_eq_skeleton]; unfold cc1__sweep23_body_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg7.eq_unread hfs
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitl [HS]
  · iexists _; isplitr
    swap; · iexact HS
    ipureintro; rfl
  ipureintro
  refine ⟨?_, fun y hy => ?_⟩
  · funext x
    refine (View.read_writes_cons_emb _ _ _ _ _ x).trans ?_
    simp only [View.readAt_eq_ld, harg2.read_unread, harg3.read_unread, harg4.read_unread,
      View.ld_unit_zero (S := S400x10000) zeros2, View.ld_unit_zero (S := S10000x256) zeros2, View.ld_unit_zero (S := S400x256) zeros2]
  · rw [View.read_writes_apply_of_forall_not_mem _ _ y _ (fun p hp => by rw [List.mem_singleton] at hp; subst hp; exact hy)]
    exact congrFun (harg7.read_unread X) y

set_option maxHeartbeats 1000000 in
/-- Second pass: the panel of A, the whole scratch buffer and the correction block are read, and A_i · U₂ + C₀,i is
    stored through the whole output block; everything read keeps its contents. -/
theorem run_second (c : Dev nD) (i : grid1.Coords) (arg2 : Memref sig .tc .vmem S400x10000 .bf16) (harg2 : arg2.IsWhole) (arg3 : Memref sig .tc .vmem S10000x256 .bf16) (harg3 : arg3.IsWhole) (arg4 : Memref sig .tc .vmem S400x256 .bf16) (harg4 : arg4.IsWhole) (arg5 : Memref sig .tc .vmem S400x256 .f32) (harg5 : arg5.IsWhole) (arg6 : Memref sig .tc .vmem S400x256 .f32) (harg6 : arg6.IsWhole) (arg7 : Memref sig .tc .vmem S10000x256 .bf16) (harg7 : arg7.IsWhole)
    (hc1 : ¬k1_cond1 i = 1#1) (hc2 : k1_cond2 i = 1#1)
    (x0 : Vec F S400x10000 .bf16) (X : Vec F S10000x256 .bf16) (x3 : Vec F S400x256 .f32)
    (E : Set ℕ) (K : PUnit → sProp 𝕄) :
    iprop(owns (c : Thread nD τ) arg2 fullShare x0 ∗ owns (c : Thread nD τ) arg7 fullShare X ∗ owns (c : Thread nD τ) arg5 fullShare x3
        ∗ (∃ d, owns (c : Thread nD τ) arg6 fullShare d)
        ∗ (iprop(owns (c : Thread nD τ) arg2 fullShare x0 ∗ owns (c : Thread nD τ) arg7 fullShare X ∗ owns (c : Thread nD τ) arg5 fullShare x3
            ∗ owns (c : Thread nD τ) arg6 fullShare (k1_pay2 x0 X x3)) -∗ K ⟨⟩))
      ⊢ wp frame (wpE (defs₀ (F := F)) Variants.none c none) E (cc1__sweep23_body i arg2 harg2 arg3 harg3 arg4 harg4 arg5 harg5 arg6 harg6 arg7 harg7) K := by
  simp only [cc1__sweep23_body_eq_skeleton]; unfold cc1__sweep23_body_skel
  unfold owns
  iintro ⟨⟨%f0, %hf0, H0⟩, ⟨%fs, %hfs, HS⟩, ⟨%f3, %hf3, H3⟩, ⟨%d4, %f4, -, H4⟩, Hk⟩
  obtain rfl := harg2.eq_unread hf0; obtain rfl := harg7.eq_unread hfs; obtain rfl := harg5.eq_unread hf3
  sl_exec (disch := first | exact hc1 | exact hc2)
  sl_step
  iapply Hk
  isplitl [H0]
  · iexists _; isplitr; · ipureintro; exact harg2.read_unread _
    iexact H0
  isplitl [HS]
  · iexists _; isplitr; · ipureintro; exact harg7.read_unread _
    iexact HS
  isplitl [H3]
  · iexists _; isplitr; · ipureintro; exact harg5.read_unread _
    iexact H3
  iexists _; isplitr
  swap; · iexact H4
  ipureintro
  rw [View.read_writes_eq_canon _ _ _ (fun y => ⟨_, List.mem_singleton_self _, View.mem_set_unit_zero zeros2 inb_S400x256_S400x256_0_0 y⟩),
    View.canon_unit_zero zeros2]
  simp only [View.readAt_eq_ld, harg2.read_unread, harg7.read_unread, harg5.read_unread,
    View.ld_unit_zero (S := S400x10000) zeros2, View.ld_unit_zero (S := S10000x256) zeros2, View.ld_unit_zero (S := S400x256) zeros2]

/-! ## The scratch buffer's invariant from point to point -/

/-- Before the first point the invariant says nothing. -/
theorem scratchInv_zero (c : Dev nD) (X : Vec F S10000x256 .bf16) : scratchInv V c 0 X :=
  fun s hs _ => absurd hs (Nat.not_lt_zero _)

/-- The first row of a first-pass point's panel: 400 times its panel number. -/
theorem slab_row0 (i : grid1.Coords) : (k1_off1 i) 0 = 400 * (i 1).val := by rw [k1_off1_eq]; rfl
theorem slab_col0 (i : grid1.Coords) : (k1_off1 i) 1 = 0 := by rw [k1_off1_eq]; rfl

/-- A first-pass point t stores its panel: panel t now holds what t computed, and the panels of the points below t,
    which lie in other rows (400 s … 400 s + 399 against 400 t … 400 t + 399), keep theirs. -/
theorem scratchInv_step (c : Dev nD) (t : Fin cfg1.N) (ht : t.val < 25) (X X' : Vec F S10000x256 .bf16)
    (hX : scratchInv V c t.val X)
    (h1 : View.ld X' (slab1 (grid1.coords t) ((hcond1 t).mpr ht)) = u2At V c t)
    (h2 : ∀ y, y ∉ (slab1 (grid1.coords t) ((hcond1 t).mpr ht)).set → X' y = X y) :
    scratchInv V c (t.val + 1) X' := by
  intro s hs h
  by_cases hst : s = t
  · subst hst; exact h1
  · have hlt : s.val < t.val := by have := Fin.val_ne_of_ne hst; omega
    rw [← hX s hlt h]
    funext x
    refine h2 _ ?_
    rw [Rect.mem_set_unit]
    intro hm
    have h0 := hm 0
    have e : (((slab1 (grid1.coords s) h).idx x) 0 : Nat) = (k1_off1 (grid1.coords s)) 0 + 1 * (x 0).val := rfl
    have hx : (x 0).val < 400 := (x 0).isLt
    have hsz : S400x256.size 0 = 400 := rfl
    rw [e, slab_row0, slab_row0, hpanel, hpanel, hsz] at h0
    omega

/-- A second-pass point leaves the scratch buffer alone, and no further point is a first-pass one. -/
theorem scratchInv_keep (c : Dev nD) (t : Nat) (ht : 25 ≤ t) (X : Vec F S10000x256 .bf16) (hX : scratchInv V c t X) :
    scratchInv V c (t + 1) X :=
  fun s _ h => hX s (by have := (hcond1 s).mp h; omega) h

/-- Once every first-pass point has run the scratch buffer is the whole second-sweep result. -/
theorem scratch_full (c : Dev nD) (t : Nat) (ht : 25 ≤ t) (X : Vec F S10000x256 .bf16) (h : scratchInv V c t X) : X = U2full V c := by
  funext y
  have hr : (y 0).val < 10000 := row_lt y
  have hs : (pt1a (y 0).val hr).val < 25 := by show (y 0).val / 400 < 25; omega
  have hc : k1_cond1 (grid1.coords (pt1a (y 0).val hr)) = 1#1 := (hcond1 _).mpr hs
  have e := congrFun (h (pt1a (y 0).val hr) (by omega) hc) (inPanel (y 0).val (y 1))
  show X y = u2At V c (pt1a (y 0).val hr) (inPanel (y 0).val (y 1))
  rw [← e]
  show X y = X ((slab1 (grid1.coords (pt1a (y 0).val hr)) hc).idx (inPanel (y 0).val (y 1)))
  congr 1
  funext a; apply Fin.ext
  match a with
  | ⟨0, _⟩ =>
    show (y 0).val = (k1_off1 (grid1.coords (pt1a (y 0).val hr))) 0 + 1 * ((y 0).val % 400)
    rw [slab_row0, hpanel]
    show (y 0).val = 400 * ((y 0).val / 400 % 25) + 1 * ((y 0).val % 400)
    omega
  | ⟨1, _⟩ =>
    show (y 1).val = (k1_off1 (grid1.coords (pt1a (y 0).val hr))) 1 + 1 * (y 1).val
    rw [slab_col0]; omega

/-! ## The body obligation -/

/-- Each window's current staging memref at point t, as the pipeline passes it. -/
abbrev ms1_0 (t : Fin cfg1.N) : Memref sig .tc .vmem S400x10000 .bf16 := win1_0.stage (cfg1.slots t 0)
abbrev ms1_1 (t : Fin cfg1.N) : Memref sig .tc .vmem S10000x256 .bf16 := win1_1.stage (cfg1.slots t 1)
abbrev ms1_2 (t : Fin cfg1.N) : Memref sig .tc .vmem S400x256 .bf16 := win1_2.stage (cfg1.slots t 2)
abbrev ms1_3 (t : Fin cfg1.N) : Memref sig .tc .vmem S400x256 .f32 := win1_3.stage (cfg1.slots t 3)
abbrev ms1_4 (t : Fin cfg1.N) : Memref sig .tc .vmem S400x256 .f32 := win1_4.stage (cfg1.slots t 4)

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4000000 in
/-- The body at any point. In the first pass the scratch buffer gains the point's panel and the output window's buffer
    goes back as it came; in the second the scratch buffer, complete, is read whole and the output block stored. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.castSucc = Φ1 V c t.castSucc from rfl, show (dat1 V c).Φ t.succ = Φ1 V c t.succ from rfl]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  unfold Φ1
  by_cases ht : t.val < 25
  · rw [Dat.leavesExact_idle (dat1 V c) 4 t (idle1_4 t ht) (noFlush1_4 t ht)]
    iintro ⟨⟨Hst, Hg, %X, HS, %hX⟩, Ho, ⟨%d0, H0⟩, ⟨%d1, H1⟩, ⟨%d2, H2⟩, ⟨%d3, H3⟩, H4⟩
    iapply (run_first c (grid1.coords t) _ _ _ _ _ _ _ _ _ _ _ _ ((hcond1 t).mpr ht) (fun h => absurd ((hcond2 t).mp h) (by omega))
      (iblk1 V c 0 t) (iblk1 V c 1 t) (iblk1 V c 2 t) X Set.univ _)
    isplitl [H0]; · iexact H0
    isplitl [H1]; · iexact H1
    isplitl [H2]; · iexact H2
    isplitl [HS]; · iexact HS
    iintro ⟨H0, H1, H2, %X', HS, %hX'⟩
    isplitl [Hst Hg HS]
    · isplitl [Hst]; · iexact Hst
      isplitl [Hg]; · iexact Hg
      iexists X'; isplitl [HS]; · iexact HS
      ipureintro; exact scratchInv_step V c t ht X X' hX hX'.1 hX'.2
    isplitl [Ho]; · iexact Ho
    isplitl [H0]; · iexact H0
    isplitl [H1]; · iexact H1
    isplitl [H2]; · iexact H2
    isplitl [H3]; · iexact H3
    iexact H4
  · rw [show (dat1 V c).leavesExact 4 t = owns (c : Thread nD τ) (ms1_4 t) fullShare ((dat1 V c).after 4 t) from by
      unfold Dat.leavesExact; rw [live1_4 t (by omega)], after1_4]
    iintro ⟨⟨Hst, Hg, %X, HS, %hX⟩, Ho, ⟨%d0, H0⟩, ⟨%d1, H1⟩, ⟨%d2, H2⟩, ⟨%d3, H3⟩, ⟨%d4, H4⟩⟩
    obtain rfl : X = U2full V c := scratch_full V c t.val (by omega) X hX
    iapply (run_second c (grid1.coords t) _ _ _ _ _ _ _ _ _ _ _ _ (fun h => absurd ((hcond1 t).mp h) ht) ((hcond2 t).mpr (by omega))
      (iblk1 V c 0 t) (U2full V c) (iblk1 V c 3 t) Set.univ _)
    isplitl [H0]; · iexact H0
    isplitl [HS]; · iexact HS
    isplitl [H3]; · iexact H3
    isplitl [H4]; · iexists _; iexact H4
    iintro ⟨H0, HS, H3, H4⟩
    isplitl [Hst Hg HS]
    · isplitl [Hst]; · iexact Hst
      isplitl [Hg]; · iexact Hg
      iexists (U2full V c); isplitl [HS]; · iexact HS
      ipureintro; exact scratchInv_keep V c t.val (by omega) _ hX
    isplitl [Ho]; · iexact Ho
    isplitl [H0]; · iexact H0
    isplitl [H1]; · iexact H1
    isplitl [H2]; · iexact H2
    isplitl [H3]; · iexact H3
    iexact H4

/-- The body runs at every point of the second call. -/
theorem body_obligation1 (c : Dev nD) : BodyObligation (dat1 (F := F) V c) (defs₀ (F := F)) Variants.none () Set.univ := fun t => by
  rw [Gen.bigSep_W1, Gen.bigSep_W1]
  exact sound_body1 V c t

/-- The invariant at the first point, from the generator register and the scoped buffers no window stages. -/
theorem phi1_in (c : Dev nD) :
    iprop((∃ r, prngReg c r) ∗ Pipeline.scopedRest (Ix := Unit) (Name := ℕ) (U := UR sig nD τ) (Lvl := ℕ) (Val := Elt F) spec1 c)
      ⊢ ((dat1 V c).Φ 0 : sProp 𝕄) := by
  rw [Gen.scopedRest1_eq, show (dat1 V c).Φ 0 = Φ1 V c 0 from rfl]
  unfold Φ1 idleStaging
  simp only [owns_whole]
  iintro ⟨Hg, H0, H1, H2, H3, H4, H5, H6, H7, H8, H9, H10, H11, H12, ⟨%f, HS⟩⟩
  isplitl [H0 H1 H2 H3 H4 H5 H6 H7 H8 H9 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [Hg]; · iexact Hg
  iexists f; isplitl [HS]; · iexact HS
  ipureintro; exact scratchInv_zero V c f

/-- The invariant at the last point gives them back. -/
theorem phi1_out (c : Dev nD) :
    ((dat1 V c).Φ (Fin.last cfg1.N) : sProp 𝕄)
      ⊢ iprop((∃ r, prngReg c r) ∗ Pipeline.scopedRest (Ix := Unit) (Name := ℕ) (U := UR sig nD τ) (Lvl := ℕ) (Val := Elt F) spec1 c) := by
  rw [Gen.scopedRest1_eq, show (dat1 V c).Φ (Fin.last cfg1.N) = Φ1 V c (Fin.last cfg1.N) from rfl]
  unfold Φ1 idleStaging
  simp only [owns_whole]
  iintro ⟨⟨H0, H1, H2, H3, H4, H5, H6, H7, H8, H9, H10, H11, H12⟩, Hg, %X, HS, -⟩
  isplitl [Hg]; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexists X; iexact HS

end Region1

end Cert.KernelIdeal.Sweep

end
-- ==== Proof.KernelIdeal.Run.lean ====
/-
  The whole program's run, from the launch to the return.

  @main is four host operations — X cast to the narrow format; the stacked weights reshaped to four 256 × 256
  slices and cast; the bias reshaped to a row — then the first sweep, then the second call, with nothing between the
  two calls and nothing after them. The contents of every unscoped buffer are followed through these three stretches:
  as launched; after the host operations; after the first sweep, whose eight arrays then hold what its write-backs
  leave; after the second call, likewise for its five. The result array is the second call's output array at what
  its write-backs leave, and the four arguments end as launched, since no stretch writes any of them.
-/
import proofs.«104507_g34883724378360_cont_8to1_b_1789_9_alg».proof.Proof.KernelIdeal.Region0
import proofs.«104507_g34883724378360_cont_8to1_b_1789_9_alg».proof.Proof.KernelIdeal.Region1
import proofs.«104507_g34883724378360_cont_8to1_b_1789_9_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Sweep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The buffers' contents at the four boundaries -/

/-- Core c's buffers as launched. -/
abbrev W0 (m : (ℓ : Loc nD τ sig) → Buf (Elt F) ℓ) (ρ : Dev nD → PrngReg) : Dev nD → Valuation τ sig (Elt F) :=
  fun c b => m (c, b)

variable (m : (ℓ : Loc nD τ sig) → Buf (Elt F) ℓ) (ρ : Dev nD → PrngReg)

/-- After the four host operations: what the first sweep is entered from. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b

/-- After the first sweep: each of its eight arrays at what the write-backs of all 25 points leave (an input array as
    entered), every other buffer as entered. What the second call is entered from. -/
def W2 (c : Dev nD) : Valuation τ sig (Elt F) :=
  Pipeline.withArrays spec0 c (W1 m ρ c) fun w => (dat0 (V1 m ρ) c).arrAt w cfg0.N
/-- The same, read at the TensorCore's references. -/
abbrev V2 : (c : Dev nD) → (b : Ref sig .tc) → Buf (Elt F) ((c : Thread nD τ).loc b) := fun c b => W2 m ρ c b

/-- After the second call: each of its five arrays at what the write-backs of all 50 points leave, every other
    buffer as entered. What the program returns with. -/
def W3 (c : Dev nD) : Valuation τ sig (Elt F) :=
  Pipeline.withArrays spec1 c (W2 m ρ c) fun w => (dat1 (V2 m ρ) c).arrAt w cfg1.N
/-- The same, read at the TensorCore's references. -/
abbrev V3 : (c : Dev nD) → (b : Ref sig .tc) → Buf (Elt F) ((c : Thread nD τ).loc b) := fun c b => W3 m ρ c b

/-! ### A call's arrays after it, and the buffers it leaves alone -/

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w

theorem W2_off (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w

theorem W3_off (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

/-- When the second call is entered each of the first sweep's eight arrays holds what that sweep left in it; four of
    them, its outputs, are the arrays the second call reads. -/
theorem V2_arr (c : Dev nD) (w : Fin cfg0.W) :
    V2 m ρ c (Pipeline.arrRef spec0 w) = (dat0 (V1 m ρ) c).arrAt w cfg0.N := W2_arr m ρ c w

/-- The result array at the return: the second call's output array at what its write-backs leave. -/
theorem W3_main_v5 (c : Dev nD) : W3 m ρ c (Proc.devRef .tc main_v5) = (dat1 (V2 m ρ) c).arrAt 4 cfg1.N :=
  W3_arr m ρ c 4

/-! ### What the first sweep is entered from, as terms of the launch memory -/

/-- The adjacency matrix is an argument: no host operation writes it. -/
theorem V1_main_arg1 (c : Dev nD) : V1 m ρ c main_arg1 = m ((c : Thread nD τ).loc main_arg1) :=
  (Gen.V1_of m c main_arg1 (by decide)).trans rfl

/-- X in the narrow format. -/
theorem V1_main_v0 (c : Dev nD) :
    V1 m ρ c main_v0 = truncf .bf16 (m ((c : Thread nD τ).loc main_arg0)) bitsLt_bf16_f32 := by
  dsimp only [V1, W1, W0, hostOps0]; after_results

/-- The stacked weights as four 256 × 256 slices, in the narrow format. -/
theorem V1_main_v2 (c : Dev nD) :
    V1 m ρ c main_v2
      = truncf .bf16 (shapeCast S4x256x256 (m ((c : Thread nD τ).loc main_arg2)) shapeCasts_S1024x256_S4x256x256) bitsLt_bf16_f32 := by
  dsimp only [V1, W1, W0, hostOps0]; after_results; rfl

/-- The bias as a row. -/
theorem V1_main_v3 (c : Dev nD) :
    V1 m ρ c main_v3 = shapeCast S1x256 (m ((c : Thread nD τ).loc main_arg3)) shapeCasts_S256_S1x256 := by
  dsimp only [V1, W1, W0, hostOps0]; after_results; rfl

/-! ### The arguments at the return

No host operation writes an argument; the first sweep reads the adjacency matrix through an input window and never
touches the other three; the second call touches none. So each argument's buffer walks back to the launch memory. -/

theorem W3_main_arg0 (c : Dev nD) : W3 m ρ c (Proc.devRef .tc main_arg0) = m ((c : Thread nD τ).loc main_arg0) :=
  (W3_off m ρ c main_arg0 (by decide)).trans <| (W2_off m ρ c main_arg0 (by decide)).trans <|
    (Gen.V1_of m c main_arg0 (by decide)).trans rfl

theorem W3_main_arg1 (c : Dev nD) : W3 m ρ c (Proc.devRef .tc main_arg1) = m ((c : Thread nD τ).loc main_arg1) :=
  (W3_off m ρ c main_arg1 (by decide)).trans <| (W2_arr m ρ c 0).trans <|
    ((dat0 (V1 m ρ) c).arrAt_in 0 rfl _).trans <| (A_eq0 (V1 m ρ) c 0).trans (V1_main_arg1 m ρ c)

theorem W3_main_arg2 (c : Dev nD) : W3 m ρ c (Proc.devRef .tc main_arg2) = m ((c : Thread nD τ).loc main_arg2) :=
  (W3_off m ρ c main_arg2 (by decide)).trans <| (W2_off m ρ c main_arg2 (by decide)).trans <|
    (Gen.V1_of m c main_arg2 (by decide)).trans rfl

theorem W3_main_arg3 (c : Dev nD) : W3 m ρ c (Proc.devRef .tc main_arg3) = m ((c : Thread nD τ).loc main_arg3) :=
  (W3_off m ρ c main_arg3 (by decide)).trans <| (W2_off m ρ c main_arg3 (by decide)).trans <|
    (Gen.V1_of m c main_arg3 (by decide)).trans rfl

/-! ## The proof data of both calls, and what a core carries between stretches -/

/-- Each call's proof data at the contents it is entered from. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c

/-- No core owes another anything in this program: no pair is given a level. -/
abbrev noPairs : GSem nD τ sig → Finset Unit := fun _ => ∅
abbrev noLevel : GSem nD τ sig → Unit → ℕ := fun _ _ => 0

/-- Beside its buffers a core carries its generator register, at some state, and the record that it owes nothing. -/
abbrev carried (c : Dev nD) : sProp 𝕄 :=
  iprop((∃ r, prngReg c r) ∗ ∃ W, owes (c : Thread nD τ) (0 : CellTallies nD τ sig Unit) W)

/-- Every unscoped buffer of core c at the contents X, and what the core carries. -/
abbrev stateAt (X : Dev nD → Valuation τ sig (Elt F)) (c : Dev nD) : sProp 𝕄 :=
  iprop(StableHlo.held (c : Thread nD τ) (Pipeline.ucRefs τ sig) (X c) ∗ carried (F := F) c)

/-- An unscoped reference of the TensorCore is one of the buffers a core's state holds. -/
theorem uc_mem (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-! ### Three steps both calls share -/

/-- A core that owes nothing meets a pipeline's tallies before a point when those are nothing and every pair lies
    within their bound. -/
theorem owes_enter {cfg : Cfg sig Λ₀} {c : Dev nD} (dat : Dat τ (Elt F) Unit ℕ (UR sig nD τ) ℕ cfg c)
    (t : Fin (cfg.N + 1)) (h0 : dat.owed t = 0) (hrec : dat.recorded t = Set.univ) :
    (iprop(∃ W, owes (c : Thread nD τ) (0 : CellTallies nD τ sig Unit) W) : sProp 𝕄) ⊢ dat.owesAt () t := by
  unfold Pipeline.Dat.owesAt Pipeline.owesWithin
  rw [h0]
  iintro ⟨%W, HO⟩
  iexists W
  isplitr
  · ipureintro; intro x _; exact Or.inl (hrec ▸ Set.mem_univ x)
  · iexact HO

/-- and a pipeline whose tallies before a point are nothing leaves the core owing nothing there. -/
theorem owes_leave {cfg : Cfg sig Λ₀} {c : Dev nD} (dat : Dat τ (Elt F) Unit ℕ (UR sig nD τ) ℕ cfg c)
    (t : Fin (cfg.N + 1)) (h0 : dat.owed t = 0) :
    (dat.owesAt () t : sProp 𝕄) ⊢ iprop(∃ W, owes (c : Thread nD τ) (0 : CellTallies nD τ sig Unit) W) := by
  unfold Pipeline.Dat.owesAt Pipeline.owesWithin
  rw [h0]
  iintro ⟨%W, -, HO⟩
  iexists W
  iexact HO

/-- Neither call has a prefetched table: holding them all is holding nothing. -/
theorem no_tables (p : Fin 2) (c : Dev nD) :
    (BI.emp : sProp 𝕄) ⊢ Pipeline.prefHeld (pcfgs (F := F) p).pre c (fun _ => fullShare) (adm p).1 := by
  unfold Pipeline.prefHeld
  rw [show (Finset.univ : Finset (Fin (pcfgs (F := F) p).pre.K)) = ∅ from by
    match p with
    | ⟨0, _⟩ => rfl
    | ⟨1, _⟩ => rfl, BI.bigSep_empty]

/-! ## The two calls as stretches of the run -/

set_option backward.isDefEq.respectTransparency.types false in
/-- THE FIRST SWEEP. Entered with every unscoped buffer at W1, left with them at W2. Its eight arrays are taken out of
    the unscoped buffers at entry and put back at what the write-backs leave; the generator register goes into the
    region invariant and comes back; nothing is owed; the kernel has no semaphore of its own. -/
def sweep1 : Pipeline.RegionSeg (pcfgs (F := F)) adm (pdats m ρ) () defs₀ Variants.none noPairs noLevel 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ noPairs noLevel 0 fun _ _ => rfl
  pre := stateAt (W1 m ρ)
  post := stateAt (W2 m ρ)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have harr := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at harr
    have howe := owes_enter (pdats m ρ 0 c) 0 rfl rfl
    iintro ⟨⟨Hbufs, Hreg, Howes⟩, -, -⟩
    ihave Hsplit := harr $$ Hbufs
    icases Hsplit with ⟨Harrs, Hbypass⟩
    ihave Howes' := howe $$ Howes
    imodintro
    isplitl [Harrs]; · iexact Harrs
    isplitr; · iapply (no_tables 0 c); iempintro
    isplitl [Howes']; · iexact Howes'
    isplitl [Hreg]; · iexact Hreg
    iexact Hbypass
  hin c := by
    rw [show (pdats m ρ 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m ρ 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    have hback := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (fun w => (W2_arr m ρ c w).symm)
      (fun b hb => W2_off m ρ c b fun w e => hb (Finset.mem_image.mpr ⟨w, Finset.mem_univ _, e⟩))
    rw [Pipeline.unscopedBufs_held] at hback
    have howe := owes_leave (pdats m ρ 0 c) (Fin.last _) rfl
    iintro ⟨Harrs, Howes, Hreg, Hbypass⟩
    ihave Hbufs := hback $$ [Harrs Hbypass]
    · isplitl [Harrs] <;> iassumption
    ihave Howes' := howe $$ Howes
    imodintro
    isplitl [Hbufs]; · iexact Hbufs
    isplitl [Hreg]; · iexact Hreg
    iexact Howes'

/-- What the run ends with, the record of owing nothing apart: every unscoped buffer at W3 and the generator register. -/
abbrev endState (c : Dev nD) : sProp 𝕄 :=
  iprop(StableHlo.held (c : Thread nD τ) (Pipeline.ucRefs τ sig) (W3 m ρ c) ∗ ∃ r, prngReg c r)

set_option backward.isDefEq.respectTransparency.types false in
/-- THE SECOND CALL. Entered with every unscoped buffer at W2, left with them at W3. Its invariant between points is its
    own — the first sweep's idle staging buffers, the generator register, the scratch buffer at contents that grow
    panel by panel — and is made at the first point from the generator register and the scoped buffers no window of
    this call stages, and gives them back at the last. -/
def sweep23 : Pipeline.RegionSeg (pcfgs (F := F)) adm (pdats m ρ) () defs₀ Variants.none noPairs noLevel 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ noPairs noLevel 1 fun _ _ => rfl
  pre := stateAt (W2 m ρ)
  post c := iprop(endState m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have harr := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at harr
    have howe := owes_enter (pdats m ρ 1 c) 0 rfl rfl
    iintro ⟨⟨Hbufs, Hreg, Howes⟩, -, -⟩
    ihave Hsplit := harr $$ Hbufs
    icases Hsplit with ⟨Harrs, Hbypass⟩
    ihave Howes' := howe $$ Howes
    imodintro
    isplitl [Harrs]; · iexact Harrs
    isplitr; · iapply (no_tables 1 c); iempintro
    isplitl [Howes']; · iexact Howes'
    isplitl [Hreg]; · iexact Hreg
    iexact Hbypass
  hin c := by
    rw [show (pdats m ρ 1 c).Φ 0 = (dat1 (V2 m ρ) c).Φ 0 from rfl]
    have hmake := phi1_in (V2 m ρ) c
    iintro ⟨Hreg, -, Hscoped⟩
    iapply hmake
    isplitl [Hreg]; · iexact Hreg
    iexact Hscoped
  hout c := by
    rw [Pipeline.ownSems0_none, show (pdats m ρ 1 c).Φ (Fin.last _) = (dat1 (V2 m ρ) c).Φ (Fin.last cfg1.N) from rfl]
    have hgive := phi1_out (V2 m ρ) c
    iintro HΦ
    ihave Hback := hgive $$ HΦ
    icases Hback with ⟨Hreg, Hscoped⟩
    isplitl [Hreg]; · iexact Hreg
    isplitr; · iempintro
    iexact Hscoped
  hexit c := by
    have hback := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (fun w => (W3_arr m ρ c w).symm)
      (fun b hb => W3_off m ρ c b fun w e => hb (Finset.mem_image.mpr ⟨w, Finset.mem_univ _, e⟩))
    rw [Pipeline.unscopedBufs_held] at hback
    have howe := owes_leave (pdats m ρ 1 c) (Fin.last _) rfl
    iintro ⟨Harrs, Howes, Hreg, Hbypass⟩
    ihave Hbufs := hback $$ [Harrs Hbypass]
    · isplitl [Harrs] <;> iassumption
    ihave Howes' := howe $$ Howes
    imodintro
    isplitl [Hbufs Hreg]
    · isplitl [Hbufs]; · iexact Hbufs
      iexact Hreg
    iexact Howes'

/-! ## @main as three stretches, and the launch -/

/-- The host operations as a stretch: from every unscoped buffer at W0 to every one at W1, what the core carries
    riding along. -/
abbrev hostStretch : Pipeline.HostSeg (Name := ℕ) (U := UR sig nD τ) (pcfgs (F := F)) defs₀ Variants.none noPairs noLevel :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m ρ) (carried (F := F))

/-- @main's three stretches, in order. -/
abbrev stretches : List (Pipeline.Seg (pcfgs (F := F)) adm (pdats m ρ) () defs₀ Variants.none noPairs noLevel) :=
  [ .host (hostStretch m ρ), .region (sweep1 m ρ), .region (sweep23 m ρ) ]

/-- @main is the run of its three stretches. -/
theorem main_stretches (c : Dev nD) : main (F := F) c = Pipeline.Seg.run (stretches m ρ) :=
  (main_chain c).trans (by chain_rfl)

set_option backward.isDefEq.respectTransparency.types false in
/-- THE RUN. From any memory with every counter at zero, every weakly fair execution of @main on the TensorCores
    terminates, and in every final state the result array holds W3's contents at it and the four arguments hold what
    they were launched with. -/
theorem run_main : θ_run defs (onTc (τ := τ) (main (F := F))) ⟨m, fun _ => 0, ρ⟩ (fun r => ∀ c : Dev nD,
      r.2.mem ((c.tc : Thread nD τ).loc main_v5) = W3 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ Variants.none noPairs noLevel m ρ main
    (stretches m ρ)
    (fun c Q => by rw [main_stretches m ρ c])
    (by simp only [stretches, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      have hown : (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) := .rfl
      have hemp : (BI.emp : sProp 𝕄) ⊢ bigSep Finset.univ (fun _ : Dev nD => (BI.emp : sProp 𝕄)) := by
        rw [BI.bigSep_emp_const]
      iintro Hu
      ihave Hown := hown $$ Hu
      imodintro
      isplitl [Hown]; · iexact Hown
      iapply hemp; iempintro)
    (T₀ := stateAt (W0 m ρ)) (Tₙ := endState m ρ)
    (hch := ⟨fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W3 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W3 m ρ c) s')
      isplitl [Hbufs] <;> iassumption)
    (hQ := fun s h c =>
      ⟨h c _ (uc_mem main_v5 (by decide)),
       (h c _ (uc_mem main_arg0 (by decide))).trans (W3_main_arg0 m ρ c),
       (h c _ (uc_mem main_arg1 (by decide))).trans (W3_main_arg1 m ρ c),
       (h c _ (uc_mem main_arg2 (by decide))).trans (W3_main_arg2 m ρ c),
       (h c _ (uc_mem main_arg3 (by decide))).trans (W3_main_arg3 m ρ c)⟩)

end Cert.KernelIdeal.Sweep

end
-- ==== Proof.KernelIdeal.Arrays.lean ====
/-
  From blocks to arrays.

  The first sweep writes every output array back one 400-row panel per grid point, panel t at point t, so each
  output array after the sweep is the function "row r ↦ row r % 400 of what point r / 400 left". The second call
  writes the result's panel i back at point 25 + i only (its first 25 points leave the output untouched), so the
  result array is "row r ↦ row r % 400 of what point 25 + r / 400 left".

  Also here: each input window's block at a grid point, read at an index, is its array read at the index the
  window's index map sends it to: a row panel for the panelled windows, the array itself for the whole-array ones.
-/
import proofs.«104507_g34883724378360_cont_8to1_b_1789_9_alg».proof.Proof.KernelIdeal.Region0
import proofs.«104507_g34883724378360_cont_8to1_b_1789_9_alg».proof.Proof.KernelIdeal.Region1
import Idealize.ShloMosaic.Lib.Pipeline.Value
import Idealize.ShloMosaic.Lib.ValueIdx

set_option maxRecDepth 16384

noncomputable section

namespace Cert.KernelIdeal.Sweep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## Rows, panels and points -/

/-- Row 400 t + p (p below 400) lies in panel t … -/
theorem div_panel (t p : Nat) (hp : p < 400) : (400 * t + p) / 400 = t := by omega
/-- … at place p. -/
theorem mod_panel (t p : Nat) (hp : p < 400) : (400 * t + p) % 400 = p := by omega

theorem pt0_of_row (t : Fin cfg0.N) (r : Nat) (h : r < 10000) (p : Nat) (hp : p < 400) (hr : r = 400 * t.val + p) :
    pt0 r h = t := Fin.ext (by show r / 400 = t.val; omega)

theorem pt1b_of_row (t : Fin cfg1.N) (ht : 25 ≤ t.val) (r : Nat) (h : r < 10000) (p : Nat) (hp : p < 400)
    (hr : r = 400 * (t.val - 25) + p) : pt1b r h = t := Fin.ext (by show 25 + r / 400 = t.val; omega)

theorem inPanel_of_row (r : Nat) (q : Fin 256) (x : S400x256.Idx) (h0 : r % 400 = (x 0).val) (h1 : q.val = (x 1).val) :
    inPanel r q = x := by
  funext a
  match a with
  | ⟨0, _⟩ => exact Fin.ext h0
  | ⟨1, _⟩ => exact Fin.ext h1

theorem inPanelA_of_row (r : Nat) (k : Fin 10000) (x : S400x10000.Idx) (h0 : r % 400 = (x 0).val) (h1 : k.val = (x 1).val) :
    inPanelA r k = x := by
  funext a
  match a with
  | ⟨0, _⟩ => exact Fin.ext h0
  | ⟨1, _⟩ => exact Fin.ext h1

/-! ## The first sweep -/

/-- The first sweep's index maps, over its 25 points: the panelled windows (the matrix, and the four outputs) are
    at block (t, 0); the others at block 0 on every axis. -/
theorem idx0 : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

section Sweep0

variable (V : (c : Dev nD) → (b : Ref sig .tc) → Buf (Elt F) ((c : Thread nD τ).loc b))

/-- The (A X) W₃ + X W₂ array at a row of panel t is what point t left at the row's place. -/
theorem U1arr_at (c : Dev nD) (t : Fin cfg0.N) (x : S400x256.Idx) (k : S10000x256.Idx)
    (hk0 : (k 0).val = 400 * t.val + (x 0).val) (hk1 : (k 1).val = (x 1).val) :
    U1arr V c k = o0_4 V c t x := by
  have hx : (x 0).val < 400 := ValueIdx.idx2_lt0 x
  have e1 : pt0 (k 0).val (row_lt k) = t := pt0_of_row t _ _ (x 0).val hx hk0
  have e2 : inPanel (k 0).val (k 1) = x := inPanel_of_row _ _ x (by rw [hk0]; exact mod_panel _ _ hx) hk1
  unfold U1arr
  rw [e1, e2]

/-- What point t writes back to the (A X) W₃ + X W₂ array is that array's panel t. -/
theorem flushed0_4_eq (c : Dev nD) (t : Fin cfg0.N) :
    (dat0 V c).flushed 4 t = ((cfg0.win 4).blk t).view.read (Elt F) (U1arr V c) := by
  show (cfg0.win 4).cut (grid0.coords t) ((dat0 V c).after 4 t) = _
  rw [after0_4]
  obtain ⟨-, -, -, -, ⟨e0, e1⟩, -, -, -⟩ := idx0 t
  funext j
  rw [View.read_apply]
  refine (U1arr_at V c t j _ ?_ ?_).symm
  · show win0_4.index t (0 : Fin 2) * 400 + 1 * (j 0).val = 400 * t.val + (j 0).val
    rw [e0]; omega
  · show win0_4.index t (1 : Fin 2) * 256 + 1 * (j 1).val = (j 1).val
    rw [e1]; omega

/-- A row of the array is in point t's block of the (A X) W₃ + X W₂ window iff it is in the block's range on each axis. -/
theorem mem_blk0_4 (t : Fin cfg0.N) (i : S10000x256.Idx) :
    i ∈ ((cfg0.win 4).blk t).view.set ↔ ∀ a : Fin 2, win0_4.index t a * S400x256.size a ≤ (i a).val ∧ (i a).val < win0_4.index t a * S400x256.size a + S400x256.size a := by
  show i ∈ ((View.whole main_v4_0).slice (win0_4.rect t)).set ↔ _
  rw [View.set_slice_whole, Rect.mem_set_unit]
  exact Iff.rfl

/-- Every row is in the block of the point that computes it. -/
theorem cover0_4 (i : S10000x256.Idx) : ∃ t : Fin cfg0.N, (cfg0.win 4).flush t = true ∧ i ∈ ((cfg0.win 4).blk t).view.set := by
  have hi0 : (i 0).val < 10000 := ValueIdx.idx2_lt0 i
  have hi1 : (i 1).val < 256 := ValueIdx.idx2_lt1 i
  refine ⟨pt0 (i 0).val hi0, flush0_4 _, ?_⟩
  obtain ⟨-, -, -, -, ⟨e0, e1⟩, -, -, -⟩ := idx0 (pt0 (i 0).val hi0)
  have ev : (pt0 (i 0).val hi0).val = (i 0).val / 400 := rfl
  rw [mem_blk0_4]
  intro a
  match a with
  | ⟨0, _⟩ =>
    show win0_4.index (pt0 (i 0).val hi0) (0 : Fin 2) * 400 ≤ (i 0).val ∧ (i 0).val < win0_4.index (pt0 (i 0).val hi0) (0 : Fin 2) * 400 + 400
    rw [e0, ev]; omega
  | ⟨1, _⟩ =>
    show win0_4.index (pt0 (i 0).val hi0) (1 : Fin 2) * 256 ≤ (i 1).val ∧ (i 1).val < win0_4.index (pt0 (i 0).val hi0) (1 : Fin 2) * 256 + 256
    rw [e1]; omega

/-- After the first sweep the (A X) W₃ + X W₂ array is the whole-array function of what the sweep found. -/
theorem final0_4 (c : Dev nD) : (dat0 V c).arrAt 4 cfg0.N = U1arr V c :=
  (dat0 V c).arrAt_eq_of_cover 4 (U1arr V c) (fun t _ => flushed0_4_eq V c t) cover0_4

theorem panel0_lt (t : Fin cfg0.N) (p : Fin 400) : 400 * t.val + p.val < 10000 := by
  have := p.isLt; have := t.isLt; have h25 : cfg0.N = 25 := rfl; omega

/-- The matrix window's block at point t is rows 400 t … 400 t + 399 of the matrix. -/
theorem iblk0_0_apply (c : Dev nD) (t : Fin cfg0.N) (p : Fin 400) (k : Fin 10000) :
    iblk0 V c 0 t (ValueIdx.ix2 p k)
      = (V c main_arg1 : S10000x10000.Idx → Elt F .f32) (ValueIdx.ix2 (⟨400 * t.val + p.val, panel0_lt t p⟩ : Fin 10000) k) := by
  obtain ⟨⟨e0, e1⟩, -⟩ := idx0 t
  unfold iblk0
  rw [View.read_apply]
  show V c main_arg1 _ = V c main_arg1 _
  congr 1
  funext a
  apply Fin.ext
  match a with
  | ⟨0, _⟩ => show win0_0.index t (0 : Fin 2) * 400 + 1 * p.val = 400 * t.val + p.val; rw [e0]; omega
  | ⟨1, _⟩ => show win0_0.index t (1 : Fin 2) * 10000 + 1 * k.val = k.val; rw [e1]; omega

end Sweep0

section Sweep0b

variable (V : (c : Dev nD) → (b : Ref sig .tc) → Buf (Elt F) ((c : Thread nD τ).loc b))

/-! ### The matrix in the narrow format -/

/-- The narrow-format matrix at a row of panel t is what point t left at the row's place. -/
theorem A16arr_at (c : Dev nD) (t : Fin cfg0.N) (x : S400x10000.Idx) (k : S10000x10000.Idx)
    (hk0 : (k 0).val = 400 * t.val + (x 0).val) (hk1 : (k 1).val = (x 1).val) :
    A16arr V c k = o0_5 V c t x := by
  have hx : (x 0).val < 400 := ValueIdx.idx2_lt0 x
  have e1 : pt0 (k 0).val (rowA_lt k) = t := pt0_of_row t _ _ (x 0).val hx hk0
  have e2 : inPanelA (k 0).val (k 1) = x := inPanelA_of_row _ _ x (by rw [hk0]; exact mod_panel _ _ hx) hk1
  unfold A16arr
  rw [e1, e2]

/-- What point t writes back to the narrow-format matrix is that array's panel t. -/
theorem flushed0_5_eq (c : Dev nD) (t : Fin cfg0.N) :
    (dat0 V c).flushed 5 t = ((cfg0.win 5).blk t).view.read (Elt F) (A16arr V c) := by
  show (cfg0.win 5).cut (grid0.coords t) ((dat0 V c).after 5 t) = _
  rw [after0_5]
  obtain ⟨-, -, -, -, -, ⟨e0, e1⟩, -, -⟩ := idx0 t
  funext j
  rw [View.read_apply]
  refine (A16arr_at V c t j _ ?_ ?_).symm
  · show win0_5.index t (0 : Fin 2) * 400 + 1 * (j 0).val = 400 * t.val + (j 0).val
    rw [e0]; omega
  · show win0_5.index t (1 : Fin 2) * 10000 + 1 * (j 1).val = (j 1).val
    rw [e1]; omega

theorem mem_blk0_5 (t : Fin cfg0.N) (i : S10000x10000.Idx) :
    i ∈ ((cfg0.win 5).blk t).view.set ↔ ∀ a : Fin 2, win0_5.index t a * S400x10000.size a ≤ (i a).val ∧ (i a).val < win0_5.index t a * S400x10000.size a + S400x10000.size a := by
  show i ∈ ((View.whole main_v4_1).slice (win0_5.rect t)).set ↔ _
  rw [View.set_slice_whole, Rect.mem_set_unit]
  exact Iff.rfl

theorem cover0_5 (i : S10000x10000.Idx) : ∃ t : Fin cfg0.N, (cfg0.win 5).flush t = true ∧ i ∈ ((cfg0.win 5).blk t).view.set := by
  have hi0 : (i 0).val < 10000 := ValueIdx.idx2_lt0 i
  have hi1 : (i 1).val < 10000 := ValueIdx.idx2_lt1 i
  refine ⟨pt0 (i 0).val hi0, flush0_5 _, ?_⟩
  obtain ⟨-, -, -, -, -, ⟨e0, e1⟩, -, -⟩ := idx0 (pt0 (i 0).val hi0)
  have ev : (pt0 (i 0).val hi0).val = (i 0).val / 400 := rfl
  rw [mem_blk0_5]
  intro a
  match a with
  | ⟨0, _⟩ =>
    show win0_5.index (pt0 (i 0).val hi0) (0 : Fin 2) * 400 ≤ (i 0).val ∧ (i 0).val < win0_5.index (pt0 (i 0).val hi0) (0 : Fin 2) * 400 + 400
    rw [e0, ev]; omega
  | ⟨1, _⟩ =>
    show win0_5.index (pt0 (i 0).val hi0) (1 : Fin 2) * 10000 ≤ (i 1).val ∧ (i 1).val < win0_5.index (pt0 (i 0).val hi0) (1 : Fin 2) * 10000 + 10000
    rw [e1]; omega

/-- After the first sweep the narrow-format matrix is the whole-array function of what the sweep found. -/
theorem final0_5 (c : Dev nD) : (dat0 V c).arrAt 5 cfg0.N = A16arr V c :=
  (dat0 V c).arrAt_eq_of_cover 5 (A16arr V c) (fun t _ => flushed0_5_eq V c t) cover0_5

/-! ### X W₁ -/

theorem C1arr_at (c : Dev nD) (t : Fin cfg0.N) (x : S400x256.Idx) (k : S10000x256.Idx)
    (hk0 : (k 0).val = 400 * t.val + (x 0).val) (hk1 : (k 1).val = (x 1).val) :
    C1arr V c k = o0_6 V c t x := by
  have hx : (x 0).val < 400 := ValueIdx.idx2_lt0 x
  have e1 : pt0 (k 0).val (row_lt k) = t := pt0_of_row t _ _ (x 0).val hx hk0
  have e2 : inPanel (k 0).val (k 1) = x := inPanel_of_row _ _ x (by rw [hk0]; exact mod_panel _ _ hx) hk1
  unfold C1arr
  rw [e1, e2]

theorem flushed0_6_eq (c : Dev nD) (t : Fin cfg0.N) :
    (dat0 V c).flushed 6 t = ((cfg0.win 6).blk t).view.read (Elt F) (C1arr V c) := by
  show (cfg0.win 6).cut (grid0.coords t) ((dat0 V c).after 6 t) = _
  rw [after0_6]
  obtain ⟨-, -, -, -, -, -, ⟨e0, e1⟩, -⟩ := idx0 t
  funext j
  rw [View.read_apply]
  refine (C1arr_at V c t j _ ?_ ?_).symm
  · show win0_6.index t (0 : Fin 2) * 400 + 1 * (j 0).val = 400 * t.val + (j 0).val
    rw [e0]; omega
  · show win0_6.index t (1 : Fin 2) * 256 + 1 * (j 1).val = (j 1).val
    rw [e1]; omega

theorem mem_blk0_6 (t : Fin cfg0.N) (i : S10000x256.Idx) :
    i ∈ ((cfg0.win 6).blk t).view.set ↔ ∀ a : Fin 2, win0_6.index t a * S400x256.size a ≤ (i a).val ∧ (i a).val < win0_6.index t a * S400x256.size a + S400x256.size a := by
  show i ∈ ((View.whole main_v4_2).slice (win0_6.rect t)).set ↔ _
  rw [View.set_slice_whole, Rect.mem_set_unit]
  exact Iff.rfl

theorem cover0_6 (i : S10000x256.Idx) : ∃ t : Fin cfg0.N, (cfg0.win 6).flush t = true ∧ i ∈ ((cfg0.win 6).blk t).view.set := by
  have hi0 : (i 0).val < 10000 := ValueIdx.idx2_lt0 i
  have hi1 : (i 1).val < 256 := ValueIdx.idx2_lt1 i
  refine ⟨pt0 (i 0).val hi0, flush0_6 _, ?_⟩
  obtain ⟨-, -, -, -, -, -, ⟨e0, e1⟩, -⟩ := idx0 (pt0 (i 0).val hi0)
  have ev : (pt0 (i 0).val hi0).val = (i 0).val / 400 := rfl
  rw [mem_blk0_6]
  intro a
  match a with
  | ⟨0, _⟩ =>
    show win0_6.index (pt0 (i 0).val hi0) (0 : Fin 2) * 400 ≤ (i 0).val ∧ (i 0).val < win0_6.index (pt0 (i 0).val hi0) (0 : Fin 2) * 400 + 400
    rw [e0, ev]; omega
  | ⟨1, _⟩ =>
    show win0_6.index (pt0 (i 0).val hi0) (1 : Fin 2) * 256 ≤ (i 1).val ∧ (i 1).val < win0_6.index (pt0 (i 0).val hi0) (1 : Fin 2) * 256 + 256
    rw [e1]; omega

/-- After the first sweep the X W₁ array is the whole-array function of what the sweep found. -/
theorem final0_6 (c : Dev nD) : (dat0 V c).arrAt 6 cfg0.N = C1arr V c :=
  (dat0 V c).arrAt_eq_of_cover 6 (C1arr V c) (fun t _ => flushed0_6_eq V c t) cover0_6

/-! ### X W₀ + b -/

theorem C0arr_at (c : Dev nD) (t : Fin cfg0.N) (x : S400x256.Idx) (k : S10000x256.Idx)
    (hk0 : (k 0).val = 400 * t.val + (x 0).val) (hk1 : (k 1).val = (x 1).val) :
    C0arr V c k = o0_7 V c t x := by
  have hx : (x 0).val < 400 := ValueIdx.idx2_lt0 x
  have e1 : pt0 (k 0).val (row_lt k) = t := pt0_of_row t _ _ (x 0).val hx hk0
  have e2 : inPanel (k 0).val (k 1) = x := inPanel_of_row _ _ x (by rw [hk0]; exact mod_panel _ _ hx) hk1
  unfold C0arr
  rw [e1, e2]

theorem flushed0_7_eq (c : Dev nD) (t : Fin cfg0.N) :
    (dat0 V c).flushed 7 t = ((cfg0.win 7).blk t).view.read (Elt F) (C0arr V c) := by
  show (cfg0.win 7).cut (grid0.coords t) ((dat0 V c).after 7 t) = _
  rw [after0_7]
  obtain ⟨-, -, -, -, -, -, -, ⟨e0, e1⟩⟩ := idx0 t
  funext j
  rw [View.read_apply]
  refine (C0arr_at V c t j _ ?_ ?_).symm
  · show win0_7.index t (0 : Fin 2) * 400 + 1 * (j 0).val = 400 * t.val + (j 0).val
    rw [e0]; omega
  · show win0_7.index t (1 : Fin 2) * 256 + 1 * (j 1).val = (j 1).val
    rw [e1]; omega

theorem mem_blk0_7 (t : Fin cfg0.N) (i : S10000x256.Idx) :
    i ∈ ((cfg0.win 7).blk t).view.set ↔ ∀ a : Fin 2, win0_7.index t a * S400x256.size a ≤ (i a).val ∧ (i a).val < win0_7.index t a * S400x256.size a + S400x256.size a := by
  show i ∈ ((View.whole main_v4_3).slice (win0_7.rect t)).set ↔ _
  rw [View.set_slice_whole, Rect.mem_set_unit]
  exact Iff.rfl

theorem cover0_7 (i : S10000x256.Idx) : ∃ t : Fin cfg0.N, (cfg0.win 7).flush t = true ∧ i ∈ ((cfg0.win 7).blk t).view.set := by
  have hi0 : (i 0).val < 10000 := ValueIdx.idx2_lt0 i
  have hi1 : (i 1).val < 256 := ValueIdx.idx2_lt1 i
  refine ⟨pt0 (i 0).val hi0, flush0_7 _, ?_⟩
  obtain ⟨-, -, -, -, -, -, -, ⟨e0, e1⟩⟩ := idx0 (pt0 (i 0).val hi0)
  have ev : (pt0 (i 0).val hi0).val = (i 0).val / 400 := rfl
  rw [mem_blk0_7]
  intro a
  match a with
  | ⟨0, _⟩ =>
    show win0_7.index (pt0 (i 0).val hi0) (0 : Fin 2) * 400 ≤ (i 0).val ∧ (i 0).val < win0_7.index (pt0 (i 0).val hi0) (0 : Fin 2) * 400 + 400
    rw [e0, ev]; omega
  | ⟨1, _⟩ =>
    show win0_7.index (pt0 (i 0).val hi0) (1 : Fin 2) * 256 ≤ (i 1).val ∧ (i 1).val < win0_7.index (pt0 (i 0).val hi0) (1 : Fin 2) * 256 + 256
    rw [e1]; omega

/-- After the first sweep the X W₀ + b array is the whole-array function of what the sweep found. -/
theorem final0_7 (c : Dev nD) : (dat0 V c).arrAt 7 cfg0.N = C0arr V c :=
  (dat0 V c).arrAt_eq_of_cover 7 (C0arr V c) (fun t _ => flushed0_7_eq V c t) cover0_7

/-! ### The whole-array windows of the first sweep: the block at every point is the array -/

/-- X, in the narrow format: its window's one block is the whole array. -/
theorem iblk0_1_eq (c : Dev nD) (t : Fin cfg0.N) : iblk0 V c 1 t = V c main_v0 := by
  obtain ⟨-, ⟨e0, e1⟩, -⟩ := idx0 t
  funext j
  obtain ⟨p, q, rfl⟩ : ∃ (p : Fin 10000) (q : Fin 256), j = ValueIdx.ix2 p q := ⟨j 0, j 1, ValueIdx.eq_ix2 j⟩
  unfold iblk0
  rw [View.read_apply]
  show V c main_v0 _ = V c main_v0 _
  congr 1
  funext a
  apply Fin.ext
  match a with
  | ⟨0, _⟩ => show win0_1.index t (0 : Fin 2) * 10000 + 1 * p.val = p.val; rw [e0]; omega
  | ⟨1, _⟩ => show win0_1.index t (1 : Fin 2) * 256 + 1 * q.val = q.val; rw [e1]; omega

/-- The four stacked weight matrices: one block, the whole array. -/
theorem iblk0_2_eq (c : Dev nD) (t : Fin cfg0.N) : iblk0 V c 2 t = V c main_v2 := by
  obtain ⟨-, -, ⟨e0, e1, e2⟩, -⟩ := idx0 t
  funext j
  obtain ⟨s, p, q, rfl⟩ : ∃ (s : Fin 4) (p : Fin 256) (q : Fin 256), j = ValueIdx.ix3 s p q := ⟨j 0, j 1, j 2, ValueIdx.eq_ix3 j⟩
  unfold iblk0
  rw [View.read_apply]
  show V c main_v2 _ = V c main_v2 _
  congr 1
  funext a
  apply Fin.ext
  match a with
  | ⟨0, _⟩ => show win0_2.index t (0 : Fin 3) * 4 + 1 * s.val = s.val; rw [e0]; omega
  | ⟨1, _⟩ => show win0_2.index t (1 : Fin 3) * 256 + 1 * p.val = p.val; rw [e1]; omega
  | ⟨2, _⟩ => show win0_2.index t (2 : Fin 3) * 256 + 1 * q.val = q.val; rw [e2]; omega

/-- The bias row: one block, the whole array. -/
theorem iblk0_3_eq (c : Dev nD) (t : Fin cfg0.N) : iblk0 V c 3 t = V c main_v3 := by
  obtain ⟨-, -, -, ⟨e0, e1⟩, -⟩ := idx0 t
  funext j
  obtain ⟨p, q, rfl⟩ : ∃ (p : Fin 1) (q : Fin 256), j = ValueIdx.ix2 p q := ⟨j 0, j 1, ValueIdx.eq_ix2 j⟩
  unfold iblk0
  rw [View.read_apply]
  show V c main_v3 _ = V c main_v3 _
  congr 1
  funext a
  apply Fin.ext
  match a with
  | ⟨0, _⟩ => show win0_3.index t (0 : Fin 2) * 1 + 1 * p.val = p.val; rw [e0]; omega
  | ⟨1, _⟩ => show win0_3.index t (1 : Fin 2) * 256 + 1 * q.val = q.val; rw [e1]; omega

end Sweep0b

/-! ## The second call -/

/-- The second call's index maps, over its 50 points (point t is pass t / 25, panel t % 25): the panelled inputs are
    at block (t % 25, 0) in both passes; the whole-array input at block 0; the output at block (t − 25, 0) in the
    second pass (and parked at block 0 throughout the first). -/
theorem idx1 : ∀ t : Fin cfg1.N,
    (win1_0.index t (0 : Fin 2) = t.val % 25 ∧ win1_0.index t (1 : Fin 2) = 0)
    ∧ (win1_1.index t (0 : Fin 2) = 0 ∧ win1_1.index t (1 : Fin 2) = 0)
    ∧ (win1_2.index t (0 : Fin 2) = t.val % 25 ∧ win1_2.index t (1 : Fin 2) = 0)
    ∧ (win1_3.index t (0 : Fin 2) = t.val % 25 ∧ win1_3.index t (1 : Fin 2) = 0)
    ∧ ((25 ≤ t.val → win1_4.index t (0 : Fin 2) = t.val - 25) ∧ win1_4.index t (1 : Fin 2) = 0) :=
  (by decide +kernel : ∀ t : Fin grid1.N, _)

/-- The output window is written back exactly at the second pass's points. -/
theorem flush1_4 : ∀ t : Fin cfg1.N, (cfg1.win 4).flush t = true ↔ 25 ≤ t.val :=
  (by decide +kernel : ∀ t : Fin grid1.N, win1_4.flush t = true ↔ 25 ≤ t.val)

section Sweep1

variable (V : (c : Dev nD) → (b : Ref sig .tc) → Buf (Elt F) ((c : Thread nD τ).loc b))

/-- The result array at a row of panel t − 25 (t a second-pass point) is what point t left at the row's place. -/
theorem OutArr_at (c : Dev nD) (t : Fin cfg1.N) (ht : 25 ≤ t.val) (x : S400x256.Idx) (k : S10000x256.Idx)
    (hk0 : (k 0).val = 400 * (t.val - 25) + (x 0).val) (hk1 : (k 1).val = (x 1).val) :
    OutArr V c k = o1_4 V c t x := by
  have hx : (x 0).val < 400 := ValueIdx.idx2_lt0 x
  have e1 : pt1b (k 0).val (row_lt k) = t := pt1b_of_row t ht _ _ (x 0).val hx hk0
  have e2 : inPanel (k 0).val (k 1) = x := inPanel_of_row _ _ x (by rw [hk0]; exact mod_panel _ _ hx) hk1
  unfold OutArr
  rw [e1, e2]

/-- What a second-pass point t writes back is the result array's panel t − 25. -/
theorem flushed1_4_eq (c : Dev nD) (t : Fin cfg1.N) (hf : (cfg1.win 4).flush t = true) :
    (dat1 V c).flushed 4 t = ((cfg1.win 4).blk t).view.read (Elt F) (OutArr V c) := by
  have ht : 25 ≤ t.val := (flush1_4 t).mp hf
  show (cfg1.win 4).cut (grid1.coords t) ((dat1 V c).after 4 t) = _
  rw [after1_4]
  obtain ⟨-, -, -, -, ⟨e0, e1⟩⟩ := idx1 t
  funext j
  rw [View.read_apply]
  refine (OutArr_at V c t ht j _ ?_ ?_).symm
  · show win1_4.index t (0 : Fin 2) * 400 + 1 * (j 0).val = 400 * (t.val - 25) + (j 0).val
    rw [e0 ht]; omega
  · show win1_4.index t (1 : Fin 2) * 256 + 1 * (j 1).val = (j 1).val
    rw [e1]; omega

theorem mem_blk1_4 (t : Fin cfg1.N) (i : S10000x256.Idx) :
    i ∈ ((cfg1.win 4).blk t).view.set ↔ ∀ a : Fin 2, win1_4.index t a * S400x256.size a ≤ (i a).val ∧ (i a).val < win1_4.index t a * S400x256.size a + S400x256.size a := by
  show i ∈ ((View.whole main_v5).slice (win1_4.rect t)).set ↔ _
  rw [View.set_slice_whole, Rect.mem_set_unit]
  exact Iff.rfl

/-- Every row is in the block of the second-pass point that computes it. -/
theorem cover1_4 (i : S10000x256.Idx) : ∃ t : Fin cfg1.N, (cfg1.win 4).flush t = true ∧ i ∈ ((cfg1.win 4).blk t).view.set := by
  have hi0 : (i 0).val < 10000 := ValueIdx.idx2_lt0 i
  have hi1 : (i 1).val < 256 := ValueIdx.idx2_lt1 i
  have ev : (pt1b (i 0).val hi0).val = 25 + (i 0).val / 400 := rfl
  have h25 : 25 ≤ (pt1b (i 0).val hi0).val := by rw [ev]; omega
  refine ⟨pt1b (i 0).val hi0, (flush1_4 _).mpr h25, ?_⟩
  obtain ⟨-, -, -, -, ⟨e0, e1⟩⟩ := idx1 (pt1b (i 0).val hi0)
  rw [mem_blk1_4]
  intro a
  match a with
  | ⟨0, _⟩ =>
    show win1_4.index (pt1b (i 0).val hi0) (0 : Fin 2) * 400 ≤ (i 0).val ∧ (i 0).val < win1_4.index (pt1b (i 0).val hi0) (0 : Fin 2) * 400 + 400
    rw [e0 h25, ev]; omega
  | ⟨1, _⟩ =>
    show win1_4.index (pt1b (i 0).val hi0) (1 : Fin 2) * 256 ≤ (i 1).val ∧ (i 1).val < win1_4.index (pt1b (i 0).val hi0) (1 : Fin 2) * 256 + 256
    rw [e1]; omega

/-- After the second call the result array is the whole-array function of what the call found. -/
theorem final1_4 (c : Dev nD) : (dat1 V c).arrAt 4 cfg1.N = OutArr V c :=
  (dat1 V c).arrAt_eq_of_cover 4 (OutArr V c) (fun t hf => flushed1_4_eq V c t hf) cover1_4

/-! ### The second call's input blocks -/

theorem panel_lt (t : Fin cfg1.N) (p : Fin 400) : 400 * (t.val % 25) + p.val < 10000 := by
  have := p.isLt; omega

/-- The narrow-format matrix's block at point t is its panel t % 25. -/
theorem iblk1_0_apply (c : Dev nD) (t : Fin cfg1.N) (p : Fin 400) (k : Fin 10000) :
    iblk1 V c 0 t (ValueIdx.ix2 p k)
      = (V c main_v4_1 : S10000x10000.Idx → Elt F .bf16) (ValueIdx.ix2 (⟨400 * (t.val % 25) + p.val, panel_lt t p⟩ : Fin 10000) k) := by
  obtain ⟨⟨e0, e1⟩, -⟩ := idx1 t
  unfold iblk1
  rw [View.read_apply]
  show V c main_v4_1 _ = V c main_v4_1 _
  congr 1
  funext a
  apply Fin.ext
  match a with
  | ⟨0, _⟩ => show win1_0.index t (0 : Fin 2) * 400 + 1 * p.val = 400 * (t.val % 25) + p.val; rw [e0]; omega
  | ⟨1, _⟩ => show win1_0.index t (1 : Fin 2) * 10000 + 1 * k.val = k.val; rw [e1]; omega

/-- The previous sweep's whole result: one block, the whole array. -/
theorem iblk1_1_eq (c : Dev nD) (t : Fin cfg1.N) : iblk1 V c 1 t = V c main_v4_0 := by
  obtain ⟨-, ⟨e0, e1⟩, -⟩ := idx1 t
  funext j
  obtain ⟨p, q, rfl⟩ : ∃ (p : Fin 10000) (q : Fin 256), j = ValueIdx.ix2 p q := ⟨j 0, j 1, ValueIdx.eq_ix2 j⟩
  unfold iblk1
  rw [View.read_apply]
  show V c main_v4_0 _ = V c main_v4_0 _
  congr 1
  funext a
  apply Fin.ext
  match a with
  | ⟨0, _⟩ => show win1_1.index t (0 : Fin 2) * 10000 + 1 * p.val = p.val; rw [e0]; omega
  | ⟨1, _⟩ => show win1_1.index t (1 : Fin 2) * 256 + 1 * q.val = q.val; rw [e1]; omega

/-- The X W₁ array's block at point t is its panel t % 25. -/
theorem iblk1_2_apply (c : Dev nD) (t : Fin cfg1.N) (p : Fin 400) (q : Fin 256) :
    iblk1 V c 2 t (ValueIdx.ix2 p q)
      = (V c main_v4_2 : S10000x256.Idx → Elt F .bf16) (ValueIdx.ix2 (⟨400 * (t.val % 25) + p.val, panel_lt t p⟩ : Fin 10000) q) := by
  obtain ⟨-, -, ⟨e0, e1⟩, -⟩ := idx1 t
  unfold iblk1
  rw [View.read_apply]
  show V c main_v4_2 _ = V c main_v4_2 _
  congr 1
  funext a
  apply Fin.ext
  match a with
  | ⟨0, _⟩ => show win1_2.index t (0 : Fin 2) * 400 + 1 * p.val = 400 * (t.val % 25) + p.val; rw [e0]; omega
  | ⟨1, _⟩ => show win1_2.index t (1 : Fin 2) * 256 + 1 * q.val = q.val; rw [e1]; omega

/-- The X W₀ + b array's block at point t is its panel t % 25. -/
theorem iblk1_3_apply (c : Dev nD) (t : Fin cfg1.N) (p : Fin 400) (q : Fin 256) :
    iblk1 V c 3 t (ValueIdx.ix2 p q)
      = (V c main_v4_3 : S10000x256.Idx → Elt F .f32) (ValueIdx.ix2 (⟨400 * (t.val % 25) + p.val, panel_lt t p⟩ : Fin 10000) q) := by
  obtain ⟨-, -, -, ⟨e0, e1⟩, -⟩ := idx1 t
  unfold iblk1
  rw [View.read_apply]
  show V c main_v4_3 _ = V c main_v4_3 _
  congr 1
  funext a
  apply Fin.ext
  match a with
  | ⟨0, _⟩ => show win1_3.index t (0 : Fin 2) * 400 + 1 * p.val = 400 * (t.val % 25) + p.val; rw [e0]; omega
  | ⟨1, _⟩ => show win1_3.index t (1 : Fin 2) * 256 + 1 * q.val = q.val; rw [e1]; omega

end Sweep1

end Cert.KernelIdeal.Sweep

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.Payload.lean ====
/-
  The blocks of the three sweeps read at one entry, over the extended reals.

  At the ideal instance a float is an extended real, a change of format is the identity and a matrix product into a
  zero accumulator is the exact sum over the contracted axis. So each block of the kernel, read at entry (p, q) of its
  400-row panel, is a sum of products of the entries of the arrays it is computed from:

    the narrow copy of the panel of A           a[p, k]
    (A_i · X) · W₃ + X_i · W₂                   ∑ⱼ (∑ₗ a[p, l] · x[l, j]) · w[3, j, q] + ∑ⱼ x[400 i + p, j] · w[2, j, q]
    X_i · W₁                                    ∑ⱼ x[400 i + p, j] · w[1, j, q]
    X_i · W₀ + b                                ∑ⱼ x[400 i + p, j] · w[0, j, q] + b[0, q]
    A_i · U + C_i                               ∑ₖ a[p, k] · u[k, q] + c[p, q]
-/
import proofs.«104507_g34883724378360_cont_8to1_b_1789_9_alg».proof.Proof.KernelIdeal.Blocks
import proofs.«104507_g34883724378360_cont_8to1_b_1789_9_alg».proof.Proof.LibMatmulAt
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.SweepValue

open Cert.KernelIdeal Cert.KernelIdeal.Gen Cert.KernelIdeal.Sweep Idealize.ShloMosaic Idealize.ShloMosaic.ValueIdx

/-! ## Where the two products' dimension numbers read their operands -/

/-- The long product (contracted extent 10000) reads its left operand at (row, k) … -/
theorem lhs_big_0 (i : S400x256.Idx) (q : dot_S400x10000_S10000x256_S400x256_1_0_0_1_n_n.contr.Idx) :
    (dot_S400x10000_S10000x256_S400x256_1_0_0_1_n_n.lhsIdx i q 0).val = (i 0).val := by
  unfold DotDims.lhsIdx
  rw [dif_neg (show ¬(0 : Fin S400x10000.rank) ∈ dot_S400x10000_S10000x256_S400x256_1_0_0_1_n_n.lhsBatch by decide), dif_pos (show (0 : Fin S400x10000.rank) ∈ dot_S400x10000_S10000x256_S400x256_1_0_0_1_n_n.lhsNonContracting by decide)]
  rfl
theorem lhs_big_1 (i : S400x256.Idx) (q : dot_S400x10000_S10000x256_S400x256_1_0_0_1_n_n.contr.Idx) :
    (dot_S400x10000_S10000x256_S400x256_1_0_0_1_n_n.lhsIdx i q 1).val = (q ⟨0, by decide⟩).val :=
  dot_S400x10000_S10000x256_S400x256_1_0_0_1_n_n.lhsIdx_val_of_single rfl i q
/-- … and its right operand at (k, column). -/
theorem rhs_big_0 (i : S400x256.Idx) (q : dot_S400x10000_S10000x256_S400x256_1_0_0_1_n_n.contr.Idx) :
    (dot_S400x10000_S10000x256_S400x256_1_0_0_1_n_n.rhsIdx i q 0).val = (q ⟨0, by decide⟩).val :=
  dot_S400x10000_S10000x256_S400x256_1_0_0_1_n_n.rhsIdx_val_of_single rfl i q
theorem rhs_big_1 (i : S400x256.Idx) (q : dot_S400x10000_S10000x256_S400x256_1_0_0_1_n_n.contr.Idx) :
    (dot_S400x10000_S10000x256_S400x256_1_0_0_1_n_n.rhsIdx i q 1).val = (i 1).val := by
  unfold DotDims.rhsIdx
  rw [dif_neg (show ¬(1 : Fin S10000x256.rank) ∈ dot_S400x10000_S10000x256_S400x256_1_0_0_1_n_n.rhsBatch by decide), dif_pos (show (1 : Fin S10000x256.rank) ∈ dot_S400x10000_S10000x256_S400x256_1_0_0_1_n_n.rhsNonContracting by decide)]
  rfl

/-- The short product (contracted extent 256) reads its left operand at (row, k) … -/
theorem lhs_small_0 (i : S400x256.Idx) (q : dot_S400x256_S256x256_S400x256_1_0_0_1_n_n.contr.Idx) :
    (dot_S400x256_S256x256_S400x256_1_0_0_1_n_n.lhsIdx i q 0).val = (i 0).val := by
  unfold DotDims.lhsIdx
  rw [dif_neg (show ¬(0 : Fin S400x256.rank) ∈ dot_S400x256_S256x256_S400x256_1_0_0_1_n_n.lhsBatch by decide), dif_pos (show (0 : Fin S400x256.rank) ∈ dot_S400x256_S256x256_S400x256_1_0_0_1_n_n.lhsNonContracting by decide)]
  rfl
theorem lhs_small_1 (i : S400x256.Idx) (q : dot_S400x256_S256x256_S400x256_1_0_0_1_n_n.contr.Idx) :
    (dot_S400x256_S256x256_S400x256_1_0_0_1_n_n.lhsIdx i q 1).val = (q ⟨0, by decide⟩).val :=
  dot_S400x256_S256x256_S400x256_1_0_0_1_n_n.lhsIdx_val_of_single rfl i q
/-- … and its right operand at (k, column). -/
theorem rhs_small_0 (i : S400x256.Idx) (q : dot_S400x256_S256x256_S400x256_1_0_0_1_n_n.contr.Idx) :
    (dot_S400x256_S256x256_S400x256_1_0_0_1_n_n.rhsIdx i q 0).val = (q ⟨0, by decide⟩).val :=
  dot_S400x256_S256x256_S400x256_1_0_0_1_n_n.rhsIdx_val_of_single rfl i q
theorem rhs_small_1 (i : S400x256.Idx) (q : dot_S400x256_S256x256_S400x256_1_0_0_1_n_n.contr.Idx) :
    (dot_S400x256_S256x256_S400x256_1_0_0_1_n_n.rhsIdx i q 1).val = (i 1).val := by
  unfold DotDims.rhsIdx
  rw [dif_neg (show ¬(1 : Fin S256x256.rank) ∈ dot_S400x256_S256x256_S400x256_1_0_0_1_n_n.rhsBatch by decide), dif_pos (show (1 : Fin S256x256.rank) ∈ dot_S400x256_S256x256_S400x256_1_0_0_1_n_n.rhsNonContracting by decide)]
  rfl

/-! ## The two products at an entry -/

/-- Entry (p, q) of a [400 × 10000] by [10000 × 256] product into zero: the sum over the 10000 contracted positions. -/
theorem matmul_big_at {φ₁ φ₂ : FTy} (l : FVec Ideal S400x10000 φ₁) (r : FVec Ideal S10000x256 φ₂) (p : Fin 400) (q : Fin 256) :
    matmul dot_S400x10000_S10000x256_S400x256_1_0_0_1_n_n none l r (constant (F := Ideal) S400x256 .f32 0x00000000#32) (ix2 p q)
      = ∑ k : Fin 10000, l (ix2 p k) * r (ix2 k q) :=
  MatmulAt.matmul_zero_at (A := 400) (K := 10000) (B := 256) dot_S400x10000_S10000x256_S400x256_1_0_0_1_n_n rfl rfl
    lhs_big_0 lhs_big_1 rhs_big_0 rhs_big_1 none l r p q

/-- Entry (p, q) of a [400 × 256] by [256 × 256] product into zero: the sum over the 256 contracted positions. -/
theorem matmul_small_at {φ₁ φ₂ : FTy} (l : FVec Ideal S400x256 φ₁) (r : FVec Ideal S256x256 φ₂) (p : Fin 400) (q : Fin 256) :
    matmul dot_S400x256_S256x256_S400x256_1_0_0_1_n_n none l r (constant (F := Ideal) S400x256 .f32 0x00000000#32) (ix2 p q)
      = ∑ k : Fin 256, l (ix2 p k) * r (ix2 k q) :=
  MatmulAt.matmul_zero_at (A := 400) (K := 256) (B := 256) dot_S400x256_S256x256_S400x256_1_0_0_1_n_n rfl rfl
    lhs_small_0 lhs_small_1 rhs_small_0 rhs_small_1 none l r p q

/-! ## The blocks of the second call, and the narrow copy of the panel -/

/-- The narrow copy of the panel of A is the panel: a change of format is the identity. -/
theorem a16blk_apply (a : Vec Ideal S400x10000 .f32) (p : Fin 400) (k : Fin 10000) :
    a16blk (F := Ideal) a (ix2 p k) = a (ix2 p k) := rfl

/-- A panel of the second sweep's result at (p, q): ∑ₖ a[p, k] · u₁[k, q] + c₁[p, q]. -/
theorem u2blk_apply (a : Vec Ideal S400x10000 .bf16) (u1 : Vec Ideal S10000x256 .bf16) (c1 : Vec Ideal S400x256 .bf16)
    (p : Fin 400) (q : Fin 256) :
    u2blk (F := Ideal) a u1 c1 (ix2 p q) = ((∑ k : Fin 10000, a (ix2 p k) * u1 (ix2 k q)) + c1 (ix2 p q) : EReal) := by
  unfold u2blk Gen.k1_pay1
  simp only [shapeCast_self]
  rw [truncf_apply, addf_apply, extf_apply, matmul_big_at]

/-- A panel of the result at (p, q): ∑ₖ a[p, k] · u₂[k, q] + c₀[p, q]. -/
theorem outblk_apply (a : Vec Ideal S400x10000 .bf16) (u2 : Vec Ideal S10000x256 .bf16) (c0 : Vec Ideal S400x256 .f32)
    (p : Fin 400) (q : Fin 256) :
    outblk (F := Ideal) a u2 c0 (ix2 p q) = ((∑ k : Fin 10000, a (ix2 p k) * u2 (ix2 k q)) + c0 (ix2 p q) : EReal) := by
  unfold outblk Gen.k1_pay2
  simp only [shapeCast_self]
  rw [addf_apply, matmul_big_at]

/-! ## The loads of the first sweep at an entry -/

/-- Row p of panel i is a row of the 10000-row array. -/
theorem slab_row_lt (i : grid0.Coords) (p : Fin 400) : 400 * (i 0).val + p.val < 10000 := by
  have hi : (i 0).val < 25 := (i 0).isLt
  have hp := p.isLt
  omega

/-- Rows 400 i … 400 i + 399 of X, read at (p, j): x[400 i + p, j]. -/
theorem ld_slab0_apply (i : grid0.Coords) (x : Vec Ideal S10000x256 .bf16) (p : Fin 400) (j : Fin 256) :
    (View.ld x (slab0 i) : Vec Ideal S400x256 .bf16) (ix2 p j)
      = x (ix2 (⟨400 * (i 0).val + p.val, slab_row_lt i p⟩ : Fin 10000) j) := by
  show x ((slab0 i).idx (ix2 p j)) = _
  refine congrArg x (funext fun a => Fin.ext ?_)
  match a with
  | ⟨0, _⟩ =>
    show k0_off1 i 0 + 1 * p.val = 400 * (i 0).val + p.val
    rw [Gen.k0_off1_eq i]
    show 400 * (i 0).val + 1 * p.val = 400 * (i 0).val + p.val
    rw [Nat.one_mul]
  | ⟨1, _⟩ =>
    show k0_off1 i 1 + 1 * j.val = j.val
    rw [Gen.k0_off1_eq i]
    show 0 + 1 * j.val = j.val
    rw [Nat.one_mul, Nat.zero_add]

/-- Weight slice 3, read at (0, j, q): w[3, j, q]. -/
theorem ld_wslice3_apply (w : Vec Ideal S4x256x256 .bf16) (j q : Fin 256) :
    (View.ld w wslice3 : Vec Ideal S1x256x256 .bf16) (ix3 (0 : Fin 1) j q) = w (ix3 (3 : Fin 4) j q) := by
  show w (wslice3.idx (ix3 (0 : Fin 1) j q)) = _
  refine congrArg w (funext fun a => Fin.ext ?_)
  match a with
  | ⟨0, _⟩ => rfl
  | ⟨1, _⟩ => show 0 + 1 * j.val = j.val; rw [Nat.one_mul, Nat.zero_add]
  | ⟨2, _⟩ => show 0 + 1 * q.val = q.val; rw [Nat.one_mul, Nat.zero_add]

/-- Weight slice 2, read at (0, j, q): w[2, j, q]. -/
theorem ld_wslice2_apply (w : Vec Ideal S4x256x256 .bf16) (j q : Fin 256) :
    (View.ld w wslice2 : Vec Ideal S1x256x256 .bf16) (ix3 (0 : Fin 1) j q) = w (ix3 (2 : Fin 4) j q) := by
  show w (wslice2.idx (ix3 (0 : Fin 1) j q)) = _
  refine congrArg w (funext fun a => Fin.ext ?_)
  match a with
  | ⟨0, _⟩ => rfl
  | ⟨1, _⟩ => show 0 + 1 * j.val = j.val; rw [Nat.one_mul, Nat.zero_add]
  | ⟨2, _⟩ => show 0 + 1 * q.val = q.val; rw [Nat.one_mul, Nat.zero_add]

/-- Weight slice 1, read at (0, j, q): w[1, j, q]. -/
theorem ld_wslice1_apply (w : Vec Ideal S4x256x256 .bf16) (j q : Fin 256) :
    (View.ld w wslice1 : Vec Ideal S1x256x256 .bf16) (ix3 (0 : Fin 1) j q) = w (ix3 (1 : Fin 4) j q) := by
  show w (wslice1.idx (ix3 (0 : Fin 1) j q)) = _
  refine congrArg w (funext fun a => Fin.ext ?_)
  match a with
  | ⟨0, _⟩ => rfl
  | ⟨1, _⟩ => show 0 + 1 * j.val = j.val; rw [Nat.one_mul, Nat.zero_add]
  | ⟨2, _⟩ => show 0 + 1 * q.val = q.val; rw [Nat.one_mul, Nat.zero_add]

/-- Weight slice 0, read at (0, j, q): w[0, j, q]. -/
theorem ld_wslice0_apply (w : Vec Ideal S4x256x256 .bf16) (j q : Fin 256) :
    (View.ld w wslice0 : Vec Ideal S1x256x256 .bf16) (ix3 (0 : Fin 1) j q) = w (ix3 (0 : Fin 4) j q) := by
  show w (wslice0.idx (ix3 (0 : Fin 1) j q)) = _
  refine congrArg w (funext fun a => Fin.ext ?_)
  match a with
  | ⟨0, _⟩ => rfl
  | ⟨1, _⟩ => show 0 + 1 * j.val = j.val; rw [Nat.one_mul, Nat.zero_add]
  | ⟨2, _⟩ => show 0 + 1 * q.val = q.val; rw [Nat.one_mul, Nat.zero_add]

/-- A weight slice as a 256 × 256 matrix, at (j, q): the slice at (0, j, q). -/
theorem wmat_apply (v : Vec Ideal S1x256x256 .bf16) (j q : Fin 256) :
    shapeCast S256x256 v shapeCasts_S1x256x256_S256x256 (ix2 j q) = v (ix3 (0 : Fin 1) j q) :=
  shapeCast_1ab_ab_apply v shapeCasts_S1x256x256_S256x256 j q

/-! ## The blocks of the first sweep -/

/-- X_i · W₁ at (p, q): ∑ⱼ x[400 i + p, j] · w[1, j, q]. -/
theorem c1blk_apply (i : grid0.Coords) (x : Vec Ideal S10000x256 .bf16) (w : Vec Ideal S4x256x256 .bf16)
    (p : Fin 400) (q : Fin 256) :
    c1blk (F := Ideal) i x w (ix2 p q)
      = (∑ j : Fin 256, x (ix2 (⟨400 * (i 0).val + p.val, slab_row_lt i p⟩ : Fin 10000) j) * w (ix3 (1 : Fin 4) j q) : EReal) := by
  unfold c1blk Gen.k0_pay5 Gen.k0_pay3
  simp only [shapeCast_self]
  rw [truncf_apply, matmul_small_at]
  refine Finset.sum_congr rfl fun j _ => ?_
  rw [wmat_apply, ld_wslice1_apply, ld_slab0_apply]

/-- X_i · W₀ + b at (p, q): ∑ⱼ x[400 i + p, j] · w[0, j, q] + b[0, q]. -/
theorem c0blk_apply (i : grid0.Coords) (x : Vec Ideal S10000x256 .bf16) (w : Vec Ideal S4x256x256 .bf16)
    (b : Vec Ideal S1x256 .f32) (p : Fin 400) (q : Fin 256) :
    c0blk (F := Ideal) i x w b (ix2 p q)
      = ((∑ j : Fin 256, x (ix2 (⟨400 * (i 0).val + p.val, slab_row_lt i p⟩ : Fin 10000) j) * w (ix3 (0 : Fin 4) j q))
          + b (ix2 (0 : Fin 1) q) : EReal) := by
  unfold c0blk Gen.k0_pay1 Gen.k0_pay3 Gen.k0_pay6
  simp only [shapeCast_self]
  rw [addf_apply, matmul_small_at, broadcastTo_1b_ab_apply]
  refine congrArg (· + b (ix2 (0 : Fin 1) q)) (Finset.sum_congr rfl fun j _ => ?_)
  rw [wmat_apply, ld_wslice0_apply, ld_slab0_apply]

/-- (A_i · X) · W₃ + X_i · W₂ at (p, q): ∑ⱼ (∑ₗ a[p, l] · x[l, j]) · w[3, j, q] + ∑ⱼ x[400 i + p, j] · w[2, j, q]. -/
theorem u1blk_apply (i : grid0.Coords) (a : Vec Ideal S400x10000 .f32) (x : Vec Ideal S10000x256 .bf16)
    (w : Vec Ideal S4x256x256 .bf16) (p : Fin 400) (q : Fin 256) :
    u1blk (F := Ideal) i a x w (ix2 p q)
      = ((∑ j : Fin 256, (∑ l : Fin 10000, a (ix2 p l) * x (ix2 l j)) * w (ix3 (3 : Fin 4) j q))
          + ∑ j : Fin 256, x (ix2 (⟨400 * (i 0).val + p.val, slab_row_lt i p⟩ : Fin 10000) j) * w (ix3 (2 : Fin 4) j q) : EReal) := by
  unfold u1blk Gen.k0_pay4 Gen.k0_pay3 Gen.k0_pay2
  simp only [shapeCast_self]
  rw [truncf_apply, addf_apply, matmul_small_at, matmul_small_at]
  have e3 : ∀ j : Fin 256,
      (truncf .bf16 (matmul dot_S400x10000_S10000x256_S400x256_1_0_0_1_n_n none
          (truncf .bf16 a bitsLt_bf16_f32 : FVec Ideal S400x10000 .bf16) x
          (constant (F := Ideal) S400x256 .f32 0x00000000#32)) bitsLt_bf16_f32 : FVec Ideal S400x256 .bf16) (ix2 p j)
        * shapeCast S256x256 (View.ld w wslice3 : Vec Ideal S1x256x256 .bf16) shapeCasts_S1x256x256_S256x256 (ix2 j q)
      = (∑ l : Fin 10000, a (ix2 p l) * x (ix2 l j)) * w (ix3 (3 : Fin 4) j q) := fun j => by
    rw [truncf_apply, matmul_big_at, wmat_apply, ld_wslice3_apply]
    rfl
  have e2 : ∀ j : Fin 256,
      (View.ld x (slab0 i) : Vec Ideal S400x256 .bf16) (ix2 p j)
        * shapeCast S256x256 (View.ld w wslice2 : Vec Ideal S1x256x256 .bf16) shapeCasts_S1x256x256_S256x256 (ix2 j q)
      = x (ix2 (⟨400 * (i 0).val + p.val, slab_row_lt i p⟩ : Fin 10000) j) * w (ix3 (2 : Fin 4) j q) := fun j => by
    rw [wmat_apply, ld_wslice2_apply, ld_slab0_apply]
  exact congrArg₂ (· + ·) (Finset.sum_congr rfl fun j _ => e3 j) (Finset.sum_congr rfl fun j _ => e2 j)

end Cert.KernelIdeal.SweepValue

end
-- ==== Proof.Spec.lean ====
/-
  The two computations as functions on the extended reals, and the law that joins them.

  A is n × n, X is n × d, W stacks four d × d slices W₀ … W₃ (slice s is rows d s … d s + d − 1), b has length d,
  with n = 10000 and d = 256.

  Horner form (what the three sweeps compute):
      U₁ = (A X) W₃ + X W₂,   C₁ = X W₁,   C₀ = X W₀ + b,   U₂ = A U₁ + C₁,   out = A U₂ + C₀.
  Stacked form (the reference): H = [X, A X, A² X, A³ X] side by side, out = H W + b.

  Over the reals the two agree by associativity of the matrix product and distributivity over sums. On the
  extended reals distributivity fails at the infinities, so the law is stated for finite entries.
-/
import Mathlib.Data.EReal.Basic
import Mathlib.Algebra.BigOperators.Fin
import Mathlib.Algebra.BigOperators.Ring.Finset

noncomputable section

namespace Cert.Spec

open Finset

variable (A : Fin 10000 → Fin 10000 → EReal) (X : Fin 10000 → Fin 256 → EReal)
  (W : Fin 1024 → Fin 256 → EReal) (b : Fin 256 → EReal)

/-- Row j of weight slice s, as a row of the stacked matrix. -/
def wrow (s : Fin 4) (j : Fin 256) : Fin 1024 := ⟨256 * s.val + j.val, by omega⟩

/-- A X. -/
def AX (r : Fin 10000) (j : Fin 256) : EReal := ∑ l : Fin 10000, A r l * X l j

/-- U₁ = (A X) W₃ + X W₂. -/
def U1 (r : Fin 10000) (q : Fin 256) : EReal :=
  (∑ j : Fin 256, AX A X r j * W (wrow 3 j) q) + ∑ j : Fin 256, X r j * W (wrow 2 j) q

/-- C₁ = X W₁. -/
def C1 (r : Fin 10000) (q : Fin 256) : EReal := ∑ j : Fin 256, X r j * W (wrow 1 j) q

/-- C₀ = X W₀ + b. -/
def C0 (r : Fin 10000) (q : Fin 256) : EReal := (∑ j : Fin 256, X r j * W (wrow 0 j) q) + b q

/-- U₂ = A U₁ + C₁. -/
def U2 (r : Fin 10000) (q : Fin 256) : EReal := (∑ k : Fin 10000, A r k * U1 A X W k q) + C1 X W r q

/-- The Horner form's result: A U₂ + C₀. -/
def kerOut (r : Fin 10000) (q : Fin 256) : EReal := (∑ k : Fin 10000, A r k * U2 A X W k q) + C0 X W b r q

/-- A (A X) and A (A (A X)). -/
def A2X (r : Fin 10000) (j : Fin 256) : EReal := ∑ l : Fin 10000, A r l * AX A X l j
def A3X (r : Fin 10000) (j : Fin 256) : EReal := ∑ l : Fin 10000, A r l * A2X A X l j

/-- H = [X, A X, A² X, A³ X] side by side: column k belongs to part k / 256, at its column k % 256. -/
def H (r : Fin 10000) (k : Fin 1024) : EReal :=
  if k.val < 256 then X r ⟨k.val % 256, Nat.mod_lt _ (by decide)⟩
  else if k.val < 512 then AX A X r ⟨k.val % 256, Nat.mod_lt _ (by decide)⟩
  else if k.val < 768 then A2X A X r ⟨k.val % 256, Nat.mod_lt _ (by decide)⟩
  else A3X A X r ⟨k.val % 256, Nat.mod_lt _ (by decide)⟩

/-- The stacked form's result: H W + b. -/
def refOut (r : Fin 10000) (q : Fin 256) : EReal := (∑ k : Fin 1024, H A X r k * W k q) + b q

/-! ## The law over the reals -/

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- Associativity of the matrix product at one entry: (a (f g)) = ((a f) g). -/
theorem sum_mul_sum_assoc {N D : Type*} [Fintype N] [Fintype D] (a : N → ℝ) (f : N → D → ℝ) (g : D → ℝ) :
    ∑ k, a k * ∑ j, f k j * g j = ∑ j, (∑ k, a k * f k j) * g j := by
  simp only [Finset.mul_sum, Finset.sum_mul]
  rw [Finset.sum_comm]
  simp only [mul_assoc]

/-- Over the reals the Horner form, expanded, is the sum of the four slices' contributions. -/
theorem horner_real {N D : Type*} [Fintype N] [Fintype D] (a : N → N → ℝ) (x : N → D → ℝ)
    (w0 w1 w2 w3 : D → D → ℝ) (v : D → ℝ) (r : N) (q : D) :
    (∑ k, a r k * ((∑ k', a k k' * ((∑ j, (∑ l, a k' l * x l j) * w3 j q) + ∑ j, x k' j * w2 j q))
        + ∑ j, x k j * w1 j q)) + ((∑ j, x r j * w0 j q) + v q)
      = ((∑ j, x r j * w0 j q) + (∑ j, (∑ l, a r l * x l j) * w1 j q)
          + (∑ j, (∑ l, a r l * ∑ l', a l l' * x l' j) * w2 j q)
          + ∑ j, (∑ l, a r l * ∑ l', a l l' * ∑ l'', a l' l'' * x l'' j) * w3 j q) + v q := by
  simp only [mul_add, Finset.sum_add_distrib, sum_mul_sum_assoc]
  ring

/-! ## The stacked sum, slice by slice -/

/-- A sum over the 1024 stacked rows is the sum of the four slices' sums. -/
theorem sum_rows_split {M : Type*} [AddCommMonoid M] (f : Fin 1024 → M) :
    ∑ k, f k = (∑ j, f (wrow 0 j)) + (∑ j, f (wrow 1 j)) + (∑ j, f (wrow 2 j)) + ∑ j, f (wrow 3 j) := by
  have e : ∀ (s : Fin 4) (j : Fin 256), (finProdFinEquiv (s, j) : Fin (4 * 256)) = wrow s j := by
    intro s j
    apply Fin.ext
    simp only [finProdFinEquiv_apply_val, wrow]
    omega
  rw [← (finProdFinEquiv : Fin 4 × Fin 256 ≃ Fin (4 * 256)).sum_comp f, Fintype.sum_prod_type,
    Fin.sum_univ_four]
  simp only [e]

theorem H_wrow0 (r : Fin 10000) (j : Fin 256) : H A X r (wrow 0 j) = X r j := by
  have h : (wrow 0 j).val = j.val := by simp [wrow]
  unfold H
  rw [if_pos (by omega)]
  congr 1
  apply Fin.ext
  show (wrow 0 j).val % 256 = j.val
  omega

theorem H_wrow1 (r : Fin 10000) (j : Fin 256) : H A X r (wrow 1 j) = AX A X r j := by
  have h : (wrow 1 j).val = 256 + j.val := by simp [wrow]
  unfold H
  rw [if_neg (by omega), if_pos (by omega)]
  congr 1
  apply Fin.ext
  show (wrow 1 j).val % 256 = j.val
  omega

theorem H_wrow2 (r : Fin 10000) (j : Fin 256) : H A X r (wrow 2 j) = A2X A X r j := by
  have h : (wrow 2 j).val = 512 + j.val := by simp [wrow]
  unfold H
  rw [if_neg (by omega), if_neg (by omega), if_pos (by omega)]
  congr 1
  apply Fin.ext
  show (wrow 2 j).val % 256 = j.val
  omega

theorem H_wrow3 (r : Fin 10000) (j : Fin 256) : H A X r (wrow 3 j) = A3X A X r j := by
  have h : (wrow 3 j).val = 768 + j.val := by simp [wrow]
  unfold H
  rw [if_neg (by omega), if_neg (by omega), if_neg (by omega)]
  congr 1
  apply Fin.ext
  show (wrow 3 j).val % 256 = j.val
  omega

/-- The stacked form, slice by slice (no finiteness is needed: only the index set is rearranged). -/
theorem refOut_slices (r : Fin 10000) (q : Fin 256) :
    refOut A X W b r q
      = ((∑ j, X r j * W (wrow 0 j) q) + (∑ j, AX A X r j * W (wrow 1 j) q)
          + (∑ j, A2X A X r j * W (wrow 2 j) q) + ∑ j, A3X A X r j * W (wrow 3 j) q) + b q := by
  unfold refOut
  rw [sum_rows_split]
  simp only [H_wrow0, H_wrow1, H_wrow2, H_wrow3]

/-! ## The law -/

/-- For finite entries the Horner form and the stacked form agree. -/
theorem ker_eq_ref (hA : ∀ r k, ∃ a : ℝ, A r k = (a : EReal)) (hX : ∀ r j, ∃ x : ℝ, X r j = (x : EReal))
    (hW : ∀ k q, ∃ w : ℝ, W k q = (w : EReal)) (hb : ∀ q, ∃ v : ℝ, b q = (v : EReal)) (r : Fin 10000) (q : Fin 256) :
    kerOut A X W b r q = refOut A X W b r q := by
  choose a ha using hA
  choose x hx using hX
  choose w hw using hW
  choose v hv using hb
  obtain rfl : A = fun r k => (a r k : EReal) := funext fun r => funext fun k => ha r k
  obtain rfl : X = fun r j => (x r j : EReal) := funext fun r => funext fun j => hx r j
  obtain rfl : W = fun k q => (w k q : EReal) := funext fun k => funext fun q => hw k q
  obtain rfl : b = fun q => (v q : EReal) := funext fun q => hv q
  rw [refOut_slices]
  simp only [kerOut, U2, U1, C1, C0, A3X, A2X, AX, ← EReal.coe_mul, ← coe_sum, ← EReal.coe_add]
  exact congrArg Real.toEReal
    (horner_real a x (fun j q => w (wrow 0 j) q) (fun j q => w (wrow 1 j) q) (fun j q => w (wrow 2 j) q)
      (fun j q => w (wrow 3 j) q) v r q)

end Cert.Spec

end
-- ==== Proof.Bridge.lean ====
/-
  The kernel's result array, entry by entry, is the Horner form of the specification.

  Row r of every array the two calls pass on lies in panel r / 400 at row r % 400 of it, and 400 (r / 400) + r % 400 = r:
  so the block of a point read at the row's place is the array read at the row, and each panel's block function at
  that place (a sum over the contracted axis) is the specification's entry at (r, q).
-/
import proofs.«104507_g34883724378360_cont_8to1_b_1789_9_alg».proof.Proof.KernelIdeal.Arrays
import proofs.«104507_g34883724378360_cont_8to1_b_1789_9_alg».proof.Proof.Payload
import proofs.«104507_g34883724378360_cont_8to1_b_1789_9_alg».proof.Proof.Spec
import Idealize.ShloMosaic.Lib.ValueIdx

noncomputable section

namespace Cert.KernelIdeal.Bridge

open Idealize.ShloMosaic Idealize.ShloMosaic.TcCoe Idealize.SL.Sem Idealize.ShloMosaic.ValueIdx
open Cert.KernelIdeal Cert.KernelIdeal.Gen Cert.KernelIdeal.Sweep Cert.KernelIdeal.SweepValue

/-- Row p of panel n is row r of the array when n = r / 400 and p = r % 400. -/
theorem row_eq (r : Fin 10000) (n : Nat) (p : Fin 400) (hn : n = r.val / 400) (hp : p.val = r.val % 400)
    (h : 400 * n + p.val < 10000) : (⟨400 * n + p.val, h⟩ : Fin 10000) = r :=
  Fin.ext (by show 400 * n + p.val = r.val; omega)

/-- The first sweep's only grid coordinate at a point is the point. -/
theorem coords0 : ∀ t : Fin cfg0.N, ((grid0.coords t) 0).val = t.val :=
  (by decide +kernel : ∀ t : Fin grid0.N, ((grid0.coords t) 0).val = t.val)

/-- Row r's place inside its panel. -/
abbrev rowIn (r : Fin 10000) : Fin 400 := ⟨r.val % 400, Nat.mod_lt _ (by decide)⟩

/-! ## Each panel's block function at row r's place, over blocks whose entries are known -/

section Core

variable (Af : Fin 10000 → Fin 10000 → EReal) (Xf : Fin 10000 → Fin 256 → EReal) (Wf : Fin 1024 → Fin 256 → EReal) (bf : Fin 256 → EReal)

/-- (A_i · X) · W₃ + X_i · W₂ at row r's place is U₁ at (r, q). -/
theorem u1_core (i : grid0.Coords) (a : Vec Ideal S400x10000 .f32) (x : Vec Ideal S10000x256 .bf16) (w : Vec Ideal S4x256x256 .bf16)
    (r : Fin 10000) (q : Fin 256) (hi : (i 0).val = r.val / 400)
    (ha : ∀ l : Fin 10000, a (ix2 (rowIn r) l) = Af r l) (hx : ∀ l j, x (ix2 l j) = Xf l j)
    (hw : ∀ (s : Fin 4) (j q : Fin 256), w (ix3 s j q) = Wf (Cert.Spec.wrow s j) q) :
    u1blk (F := Ideal) i a x w (ix2 (rowIn r) q) = Cert.Spec.U1 Af Xf Wf r q := by
  rw [u1blk_apply, row_eq r (i 0).val (rowIn r) hi rfl (slab_row_lt i (rowIn r))]
  unfold Cert.Spec.U1 Cert.Spec.AX
  refine congrArg₂ (· + ·) (Finset.sum_congr rfl fun j _ => ?_) (Finset.sum_congr rfl fun j _ => ?_)
  · rw [hw]
    refine congrArg (· * Wf (Cert.Spec.wrow 3 j) q) (Finset.sum_congr rfl fun l _ => ?_)
    rw [ha, hx]
  · rw [hx, hw]

/-- X_i · W₁ at row r's place is C₁ at (r, q). -/
theorem c1_core (i : grid0.Coords) (x : Vec Ideal S10000x256 .bf16) (w : Vec Ideal S4x256x256 .bf16)
    (r : Fin 10000) (q : Fin 256) (hi : (i 0).val = r.val / 400) (hx : ∀ l j, x (ix2 l j) = Xf l j)
    (hw : ∀ (s : Fin 4) (j q : Fin 256), w (ix3 s j q) = Wf (Cert.Spec.wrow s j) q) :
    c1blk (F := Ideal) i x w (ix2 (rowIn r) q) = Cert.Spec.C1 Xf Wf r q := by
  rw [c1blk_apply, row_eq r (i 0).val (rowIn r) hi rfl (slab_row_lt i (rowIn r))]
  unfold Cert.Spec.C1
  refine Finset.sum_congr rfl fun j _ => ?_
  rw [hx, hw]

/-- X_i · W₀ + b at row r's place is C₀ at (r, q). -/
theorem c0_core (i : grid0.Coords) (x : Vec Ideal S10000x256 .bf16) (w : Vec Ideal S4x256x256 .bf16) (b : Vec Ideal S1x256 .f32)
    (r : Fin 10000) (q : Fin 256) (hi : (i 0).val = r.val / 400) (hx : ∀ l j, x (ix2 l j) = Xf l j)
    (hw : ∀ (s : Fin 4) (j q : Fin 256), w (ix3 s j q) = Wf (Cert.Spec.wrow s j) q)
    (hb : ∀ q, b (ix2 (0 : Fin 1) q) = bf q) :
    c0blk (F := Ideal) i x w b (ix2 (rowIn r) q) = Cert.Spec.C0 Xf Wf bf r q := by
  rw [c0blk_apply, row_eq r (i 0).val (rowIn r) hi rfl (slab_row_lt i (rowIn r)), hb]
  unfold Cert.Spec.C0
  refine congrArg (· + bf q) (Finset.sum_congr rfl fun j _ => ?_)
  rw [hx, hw]

/-- A_i · U₁ + C₁,i at row r's place is U₂ at (r, q). -/
theorem u2_core (a : Vec Ideal S400x10000 .bf16) (u1 : Vec Ideal S10000x256 .bf16) (c1 : Vec Ideal S400x256 .bf16)
    (r : Fin 10000) (q : Fin 256) (ha : ∀ k : Fin 10000, a (ix2 (rowIn r) k) = Af r k)
    (hu : ∀ k : Fin 10000, u1 (ix2 k q) = Cert.Spec.U1 Af Xf Wf k q)
    (hc : c1 (ix2 (rowIn r) q) = Cert.Spec.C1 Xf Wf r q) :
    u2blk (F := Ideal) a u1 c1 (ix2 (rowIn r) q) = Cert.Spec.U2 Af Xf Wf r q := by
  rw [u2blk_apply, hc]
  unfold Cert.Spec.U2
  refine congrArg (· + Cert.Spec.C1 Xf Wf r q) (Finset.sum_congr rfl fun k _ => ?_)
  rw [ha, hu]

/-- A_i · U₂ + C₀,i at row r's place is the Horner form's result at (r, q). -/
theorem out_core (a : Vec Ideal S400x10000 .bf16) (u2 : Vec Ideal S10000x256 .bf16) (c0 : Vec Ideal S400x256 .f32)
    (r : Fin 10000) (q : Fin 256) (ha : ∀ k : Fin 10000, a (ix2 (rowIn r) k) = Af r k)
    (hu : ∀ k : Fin 10000, u2 (ix2 k q) = Cert.Spec.U2 Af Xf Wf k q)
    (hc : c0 (ix2 (rowIn r) q) = Cert.Spec.C0 Xf Wf bf r q) :
    outblk (F := Ideal) a u2 c0 (ix2 (rowIn r) q) = Cert.Spec.kerOut Af Xf Wf bf r q := by
  rw [outblk_apply, hc]
  unfold Cert.Spec.kerOut
  refine congrArg (· + Cert.Spec.C0 Xf Wf bf r q) (Finset.sum_congr rfl fun k _ => ?_)
  rw [ha, hu]

end Core

/-! ## The arrays the two calls leave, entry by entry -/

section Arrays

variable (V1 V2 : (c : Dev nD) → (b : Ref sig .tc) → Buf (Elt Ideal) ((c : Thread nD τ).loc b)) (c : Dev nD)
variable (Af : Fin 10000 → Fin 10000 → EReal) (Xf : Fin 10000 → Fin 256 → EReal) (Wf : Fin 1024 → Fin 256 → EReal) (bf : Fin 256 → EReal)

/-- The narrow copy of A the first sweep leaves is A. -/
theorem a16_arr
    (hA : ∀ r k, (V1 c main_arg1 : S10000x10000.Idx → EReal) (ix2 r k) = Af r k)
    (r k : Fin 10000) : A16arr V1 c (ix2 r k) = Af r k := by
  show a16blk (F := Ideal) (iblk0 V1 c 0 (pt0 r.val r.isLt)) (ix2 (rowIn r) k) = _
  rw [a16blk_apply, iblk0_0_apply, row_eq r (pt0 r.val r.isLt).val (rowIn r) rfl rfl]
  exact hA r k

/-- The first sweep's first result is U₁ = (A X) W₃ + X W₂. -/
theorem u1_arr
    (hA : ∀ r k, (V1 c main_arg1 : S10000x10000.Idx → EReal) (ix2 r k) = Af r k)
    (hX : ∀ l j, (V1 c main_v0 : S10000x256.Idx → EReal) (ix2 l j) = Xf l j)
    (hW : ∀ (s : Fin 4) (j q : Fin 256), (V1 c main_v2 : S4x256x256.Idx → EReal) (ix3 s j q) = Wf (Cert.Spec.wrow s j) q)
    (r : Fin 10000) (q : Fin 256) : U1arr V1 c (ix2 r q) = Cert.Spec.U1 Af Xf Wf r q := by
  show u1blk (F := Ideal) (grid0.coords (pt0 r.val r.isLt)) (iblk0 V1 c 0 (pt0 r.val r.isLt)) (iblk0 V1 c 1 (pt0 r.val r.isLt))
    (iblk0 V1 c 2 (pt0 r.val r.isLt)) (ix2 (rowIn r) q) = _
  refine u1_core Af Xf Wf _ _ _ _ r q (coords0 (pt0 r.val r.isLt)) (fun l => ?_) (fun l j => ?_) (fun s j q => ?_)
  · rw [iblk0_0_apply, row_eq r (pt0 r.val r.isLt).val (rowIn r) rfl rfl]
    exact hA r l
  · rw [iblk0_1_eq]
    exact hX l j
  · rw [iblk0_2_eq]
    exact hW s j q

/-- The first sweep's correction for the second sweep is C₁ = X W₁. -/
theorem c1_arr
    (hX : ∀ l j, (V1 c main_v0 : S10000x256.Idx → EReal) (ix2 l j) = Xf l j)
    (hW : ∀ (s : Fin 4) (j q : Fin 256), (V1 c main_v2 : S4x256x256.Idx → EReal) (ix3 s j q) = Wf (Cert.Spec.wrow s j) q)
    (r : Fin 10000) (q : Fin 256) : C1arr V1 c (ix2 r q) = Cert.Spec.C1 Xf Wf r q := by
  show c1blk (F := Ideal) (grid0.coords (pt0 r.val r.isLt)) (iblk0 V1 c 1 (pt0 r.val r.isLt)) (iblk0 V1 c 2 (pt0 r.val r.isLt))
    (ix2 (rowIn r) q) = _
  refine c1_core Xf Wf _ _ _ r q (coords0 (pt0 r.val r.isLt)) (fun l j => ?_) (fun s j q => ?_)
  · rw [iblk0_1_eq]
    exact hX l j
  · rw [iblk0_2_eq]
    exact hW s j q

/-- The first sweep's correction for the third sweep is C₀ = X W₀ + b. -/
theorem c0_arr
    (hX : ∀ l j, (V1 c main_v0 : S10000x256.Idx → EReal) (ix2 l j) = Xf l j)
    (hW : ∀ (s : Fin 4) (j q : Fin 256), (V1 c main_v2 : S4x256x256.Idx → EReal) (ix3 s j q) = Wf (Cert.Spec.wrow s j) q)
    (hB : ∀ q, (V1 c main_v3 : S1x256.Idx → EReal) (ix2 (0 : Fin 1) q) = bf q)
    (r : Fin 10000) (q : Fin 256) : C0arr V1 c (ix2 r q) = Cert.Spec.C0 Xf Wf bf r q := by
  show c0blk (F := Ideal) (grid0.coords (pt0 r.val r.isLt)) (iblk0 V1 c 1 (pt0 r.val r.isLt)) (iblk0 V1 c 2 (pt0 r.val r.isLt))
    (iblk0 V1 c 3 (pt0 r.val r.isLt)) (ix2 (rowIn r) q) = _
  refine c0_core Xf Wf bf _ _ _ _ r q (coords0 (pt0 r.val r.isLt)) (fun l j => ?_) (fun s j q => ?_) (fun q => ?_)
  · rw [iblk0_1_eq]
    exact hX l j
  · rw [iblk0_2_eq]
    exact hW s j q
  · rw [iblk0_3_eq]
    exact hB q

/-- The second sweep's whole result is U₂ = A U₁ + C₁. -/
theorem u2_full
    (hA : ∀ r k, (V1 c main_arg1 : S10000x10000.Idx → EReal) (ix2 r k) = Af r k)
    (hX : ∀ l j, (V1 c main_v0 : S10000x256.Idx → EReal) (ix2 l j) = Xf l j)
    (hW : ∀ (s : Fin 4) (j q : Fin 256), (V1 c main_v2 : S4x256x256.Idx → EReal) (ix3 s j q) = Wf (Cert.Spec.wrow s j) q)
    (h20 : (V2 c main_v4_1 : S10000x10000.Idx → EReal) = A16arr V1 c)
    (h21 : (V2 c main_v4_0 : S10000x256.Idx → EReal) = U1arr V1 c)
    (h22 : (V2 c main_v4_2 : S10000x256.Idx → EReal) = C1arr V1 c)
    (r : Fin 10000) (q : Fin 256) : U2full V2 c (ix2 r q) = Cert.Spec.U2 Af Xf Wf r q := by
  show u2blk (F := Ideal) (iblk1 V2 c 0 (pt1a r.val r.isLt)) (iblk1 V2 c 1 (pt1a r.val r.isLt)) (iblk1 V2 c 2 (pt1a r.val r.isLt))
    (ix2 (rowIn r) q) = _
  have hrow : ∀ h, (⟨400 * ((pt1a r.val r.isLt).val % 25) + (rowIn r).val, h⟩ : Fin 10000) = r := fun h =>
    row_eq r _ (rowIn r) (by show r.val / 400 % 25 = r.val / 400; have := r.isLt; omega) rfl h
  refine u2_core Af Xf Wf _ _ _ r q (fun k => ?_) (fun k => ?_) ?_
  · rw [iblk1_0_apply, hrow, h20]
    exact a16_arr V1 c Af hA r k
  · rw [iblk1_1_eq, h21]
    exact u1_arr V1 c Af Xf Wf hA hX hW k q
  · rw [iblk1_2_apply, hrow, h22]
    exact c1_arr V1 c Xf Wf hX hW r q

/-- The result array after the second call is the Horner form's result A U₂ + C₀. -/
theorem out_arr
    (hA : ∀ r k, (V1 c main_arg1 : S10000x10000.Idx → EReal) (ix2 r k) = Af r k)
    (hX : ∀ l j, (V1 c main_v0 : S10000x256.Idx → EReal) (ix2 l j) = Xf l j)
    (hW : ∀ (s : Fin 4) (j q : Fin 256), (V1 c main_v2 : S4x256x256.Idx → EReal) (ix3 s j q) = Wf (Cert.Spec.wrow s j) q)
    (hB : ∀ q, (V1 c main_v3 : S1x256.Idx → EReal) (ix2 (0 : Fin 1) q) = bf q)
    (h20 : (V2 c main_v4_1 : S10000x10000.Idx → EReal) = A16arr V1 c)
    (h21 : (V2 c main_v4_0 : S10000x256.Idx → EReal) = U1arr V1 c)
    (h22 : (V2 c main_v4_2 : S10000x256.Idx → EReal) = C1arr V1 c)
    (h23 : (V2 c main_v4_3 : S10000x256.Idx → EReal) = C0arr V1 c)
    (r : Fin 10000) (q : Fin 256) : OutArr V2 c (ix2 r q) = Cert.Spec.kerOut Af Xf Wf bf r q := by
  show outblk (F := Ideal) (iblk1 V2 c 0 (pt1b r.val r.isLt)) (U2full V2 c) (iblk1 V2 c 3 (pt1b r.val r.isLt)) (ix2 (rowIn r) q) = _
  have hrow : ∀ h, (⟨400 * ((pt1b r.val r.isLt).val % 25) + (rowIn r).val, h⟩ : Fin 10000) = r := fun h =>
    row_eq r _ (rowIn r) (by show (25 + r.val / 400) % 25 = r.val / 400; have := r.isLt; omega) rfl h
  refine out_core Af Xf Wf bf _ _ _ r q (fun k => ?_) (fun k => u2_full V1 V2 c Af Xf Wf hA hX hW h20 h21 h22 k q) ?_
  · rw [iblk1_0_apply, hrow, h20]
    exact a16_arr V1 c Af hA r k
  · rw [iblk1_3_apply, hrow, h23]
    exact c0_arr V1 c Xf Wf bf hX hW hB r q

end Arrays

end Cert.KernelIdeal.Bridge

end
-- ==== Proof.HostReads.lean ====
/-
  The host operations before the first call, read at one entry over the extended reals.

  X is cast to the narrow format; the stacked weight matrix W (1024 × 256) is cut into its four 256 × 256 slices
  and cast to the narrow format; the bias b (length 256) becomes a one-row matrix. At the ideal instance a change of
  format is the identity, and a reshape keeps the row-major position of every entry, so

    X₁₆[l, j] = X[l, j],      W₁₆[s, j, q] = W[256 s + j, q],      b₂[0, q] = b[q].
-/
import proofs.«104507_g34883724378360_cont_8to1_b_1789_9_alg».proof.Proof.Gen.KernelIdeal.Launch
import proofs.«104507_g34883724378360_cont_8to1_b_1789_9_alg».proof.Proof.Spec
import Idealize.ShloMosaic.Lib.Pipeline.Value
import Idealize.ShloMosaic.Lib.ValueIdx
import Idealize.ShloMosaic.Lib.ValueLayout

noncomputable section

namespace Cert.KernelIdeal.HostReads

open Cert.KernelIdeal Cert.KernelIdeal.Gen Idealize.ShloMosaic Idealize.ShloMosaic.ValueIdx

/-- The narrow copy of X at (l, j) is X[l, j]. -/
theorem x16_apply (x : (⟨S10000x256, .f32⟩ : BufTy).Contents (Elt Ideal)) (l : Fin 10000) (j : Fin 256) :
    (truncf (F := Ideal) .bf16 x bitsLt_bf16_f32 : S10000x256.Idx → EReal) (ix2 l j) = x (ix2 l j) := rfl

/-- The stacked weights cut into four slices, at (s, j, q): row 256 s + j of the stacked matrix, column q. Both sit at
    row-major position (256 s + j) · 256 + q. -/
theorem wcut_apply (w : (⟨S1024x256, .f32⟩ : BufTy).Contents (Elt Ideal)) (s : Fin 4) (j q : Fin 256) :
    (shapeCast S4x256x256 w shapeCasts_S1024x256_S4x256x256 : S4x256x256.Idx → EReal) (ix3 s j q)
      = w (ix2 (Cert.Spec.wrow s j) q) :=
  shapeCast_apply w shapeCasts_S1024x256_S4x256x256 (ix3 s j q) (ix2 (Cert.Spec.wrow s j) q) (by
    rw [Shape.rowMajor_val_three, Shape.rowMajor_val_two]
    show (256 * s.val + j.val) * 256 + q.val = (s.val * 256 + j.val) * 256 + q.val
    omega)

/-- The narrow copy of the cut weights at (s, j, q) is W[256 s + j, q]. -/
theorem w16_apply (w : (⟨S1024x256, .f32⟩ : BufTy).Contents (Elt Ideal)) (s : Fin 4) (j q : Fin 256) :
    (truncf (F := Ideal) .bf16 (shapeCast S4x256x256 w shapeCasts_S1024x256_S4x256x256 : (⟨S4x256x256, .f32⟩ : BufTy).Contents (Elt Ideal))
        bitsLt_bf16_f32 : S4x256x256.Idx → EReal) (ix3 s j q)
      = w (ix2 (Cert.Spec.wrow s j) q) :=
  wcut_apply w s j q

/-- The bias as a one-row matrix at (0, q) is b[q]. -/
theorem b2_apply (b : (⟨S256, .f32⟩ : BufTy).Contents (Elt Ideal)) (q : Fin 256) :
    (shapeCast S1x256 b shapeCasts_S256_S1x256 : S1x256.Idx → EReal) (ix2 (0 : Fin 1) q) = b (ix1 q) :=
  shapeCast_a_1a_apply b shapeCasts_S256_S1x256 (0 : Fin 1) q

/-! ## The same at the buffers: what the four host operations leave, for any contents of the argument buffers

A reshape's result is given entry by entry, each entry carried along the (trivial) equality of the operand's and the
result's element types; that function is the shape cast itself, so the three readings above apply to it as they stand. -/

section AtBuffers

open Idealize.ShloMosaic.TcCoe Idealize.ShloMosaic.StableHlo

variable (V : Valuation τ sig (Elt Ideal))

/-- After the host operations the narrow X buffer holds, at (l, j), the X argument's entry (l, j). -/
theorem after_v0_apply (l : Fin 10000) (j : Fin 256) :
    (after (hostOps0 (F := Ideal)) V main_v0 : S10000x256.Idx → EReal) (ix2 l j)
      = (V main_arg0 : S10000x256.Idx → EReal) (ix2 l j) := by
  rw [hostOps0]
  after_results
  exact x16_apply (V main_arg0) l j

/-- After the host operations the narrow weight buffer holds, at (s, j, q), the W argument's entry (256 s + j, q). -/
theorem after_v2_apply (s : Fin 4) (j q : Fin 256) :
    (after (hostOps0 (F := Ideal)) V main_v2 : S4x256x256.Idx → EReal) (ix3 s j q)
      = (V main_arg2 : S1024x256.Idx → EReal) (ix2 (Cert.Spec.wrow s j) q) := by
  rw [hostOps0]
  after_results
  exact w16_apply (V main_arg2) s j q

/-- After the host operations the one-row bias buffer holds, at (0, q), the b argument's entry q. -/
theorem after_v3_apply (q : Fin 256) :
    (after (hostOps0 (F := Ideal)) V main_v3 : S1x256.Idx → EReal) (ix2 (0 : Fin 1) q)
      = (V main_arg3 : S256.Idx → EReal) (ix1 q) := by
  rw [hostOps0]
  after_results
  exact b2_apply (V main_arg3) q

/-- The host operations do not write the A argument's buffer. -/
theorem after_arg1 : after (hostOps0 (F := Ideal)) V main_arg1 = V main_arg1 := by
  rw [hostOps0]
  after_results

end AtBuffers

end Cert.KernelIdeal.HostReads

end
-- ==== Proof.Finite.lean ====
/-
  From the precondition to "every entry is a real".

  The precondition is the conjunction, over the four float inputs, of "every entry has absolute value below +∞".
  On the extended reals |x| is max x (−x), which is +∞ exactly at the two infinities, so an entry that passes the
  test is the image of a real. Each conjunct is a reduction by "and" over the whole array into a single bit; the
  bit is one only if every entry's comparison gave one.
-/
import proofs.«104507_g34883724378360_cont_8to1_b_1789_9_alg».proof.Defs
import proofs.«104507_g34883724378360_cont_8to1_b_1789_9_alg».proof.Proof.Gen.Pre_finite_inputs
import Idealize.ShloMosaic.Lib.ReduceAll
import Idealize.ShloMosaic.Lib.ValueIdx

noncomputable section

namespace Cert.Finite

open Idealize.ShloMosaic Cert.Pre_finite_inputs

/-- The scalar shape has one index. -/
instance : Subsingleton S_.Idx := ⟨fun a b => funext fun d => d.elim0⟩

/-- The word 0x7F800000 denotes +∞. -/
theorem inf_word : Ideal.ofBits .f32 0x7F800000#32 = (⊤ : EReal) := by
  simp [Ideal.ofBits, Ideal.ieee]

/-- An extended real whose absolute value compares below +∞ is a real. -/
theorem real_of_abs_lt_inf (x : EReal)
    (h : Ideal.cmp .olt (max x (-x)) (Ideal.ofBits .f32 0x7F800000#32) = 1#1) : ∃ a : ℝ, x = (a : EReal) := by
  rw [inf_word] at h
  induction x using EReal.rec with
  | bot => simp [Ideal.cmp] at h
  | coe a => exact ⟨a, rfl⟩
  | top => simp [Ideal.cmp] at h

/-- Under the precondition every entry of every input is a real. -/
theorem finite_of_pre (x0 : (⟨S10000x256, .f32⟩ : BufTy).Contents (Elt Ideal))
    (x1 : (⟨S10000x10000, .f32⟩ : BufTy).Contents (Elt Ideal))
    (x2 : (⟨S1024x256, .f32⟩ : BufTy).Contents (Elt Ideal))
    (x3 : (⟨S256, .f32⟩ : BufTy).Contents (Elt Ideal))
    (h : Cert.Pre_finite_inputs.fn (F := Ideal) x0 x1 x2 x3 = fun _ => 1#1) :
    (∀ i, ∃ a : ℝ, x0 i = (a : EReal)) ∧ (∀ i, ∃ a : ℝ, x1 i = (a : EReal)) ∧
      (∀ i, ∃ a : ℝ, x2 i = (a : EReal)) ∧ (∀ i, ∃ a : ℝ, x3 i = (a : EReal)) := by
  have h0 := congrFun h ValueIdx.ix0
  dsimp only [fn, fn_part1] at h0
  -- the conjunction of the four tests, taken apart
  obtain ⟨h012, h3⟩ := IntOp.andi_eq_one.1 h0
  obtain ⟨h01, h2⟩ := IntOp.andi_eq_one.1 h012
  obtain ⟨hx0, hx1⟩ := IntOp.andi_eq_one.1 h01
  -- each test is one at every entry; an entry that passes it is a real
  exact ⟨fun i => real_of_abs_lt_inf (x0 i) (Host.reduce_andi_all _ _ _ _ _ hx0 i),
    fun i => real_of_abs_lt_inf (x1 i) (Host.reduce_andi_all _ _ _ _ _ hx1 i),
    fun i => real_of_abs_lt_inf (x2 i) (Host.reduce_andi_all _ _ _ _ _ h2 i),
    fun i => real_of_abs_lt_inf (x3 i) (Host.reduce_andi_all _ _ _ _ _ h3 i)⟩

end Cert.Finite

end
-- ==== Proof.RefValue.lean ====
/-
  The reference program, read one operation at a time, is the stacked form H W + b of the specification.

  The reference computes Z₁ = A X, Z₂ = A Z₁, Z₃ = A Z₂, lays X, Z₁, Z₂, Z₃ side by side along the column
  axis into an n × 4d matrix, multiplies it by the stacked weights W and adds the bias b to every row. Each
  product is, entry by entry, a sum over the contracted coordinate; a column k of the joined matrix lies in part
  k / d at column k % d of that part. These are the defining equations of AX, A2X, A3X, H and refOut.
-/
import proofs.«104507_g34883724378360_cont_8to1_b_1789_9_alg».proof.Proof.Gen.ReferenceIdeal.Read
import proofs.«104507_g34883724378360_cont_8to1_b_1789_9_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo

/-! ## The index functions of a product at (r, j): the left operand is read at (r, k), the right one at (k, j) -/

theorem lidx_v0 (r : Fin 10000) (j : Fin 256) (k : Fin 10000) :
    lidx_main_v0 (ValueIdx.ix2 r j) k = ValueIdx.ix2 r k :=
  funext fun a => Fin.ext (by match a with | ⟨0, _⟩ => rfl | ⟨1, _⟩ => rfl)
theorem ridx_v0 (r : Fin 10000) (j : Fin 256) (k : Fin 10000) :
    ridx_main_v0 (ValueIdx.ix2 r j) k = ValueIdx.ix2 k j :=
  funext fun a => Fin.ext (by match a with | ⟨0, _⟩ => rfl | ⟨1, _⟩ => rfl)
theorem lidx_v1 (r : Fin 10000) (j : Fin 256) (k : Fin 10000) :
    lidx_main_v1 (ValueIdx.ix2 r j) k = ValueIdx.ix2 r k :=
  funext fun a => Fin.ext (by match a with | ⟨0, _⟩ => rfl | ⟨1, _⟩ => rfl)
theorem ridx_v1 (r : Fin 10000) (j : Fin 256) (k : Fin 10000) :
    ridx_main_v1 (ValueIdx.ix2 r j) k = ValueIdx.ix2 k j :=
  funext fun a => Fin.ext (by match a with | ⟨0, _⟩ => rfl | ⟨1, _⟩ => rfl)
theorem lidx_v2 (r : Fin 10000) (j : Fin 256) (k : Fin 10000) :
    lidx_main_v2 (ValueIdx.ix2 r j) k = ValueIdx.ix2 r k :=
  funext fun a => Fin.ext (by match a with | ⟨0, _⟩ => rfl | ⟨1, _⟩ => rfl)
theorem ridx_v2 (r : Fin 10000) (j : Fin 256) (k : Fin 10000) :
    ridx_main_v2 (ValueIdx.ix2 r j) k = ValueIdx.ix2 k j :=
  funext fun a => Fin.ext (by match a with | ⟨0, _⟩ => rfl | ⟨1, _⟩ => rfl)
theorem lidx_v4 (r : Fin 10000) (q : Fin 256) (k : Fin 1024) :
    lidx_main_v4 (ValueIdx.ix2 r q) k = ValueIdx.ix2 r k :=
  funext fun a => Fin.ext (by match a with | ⟨0, _⟩ => rfl | ⟨1, _⟩ => rfl)
theorem ridx_v4 (r : Fin 10000) (q : Fin 256) (k : Fin 1024) :
    ridx_main_v4 (ValueIdx.ix2 r q) k = ValueIdx.ix2 k q :=
  funext fun a => Fin.ext (by match a with | ⟨0, _⟩ => rfl | ⟨1, _⟩ => rfl)
/-- The bias, broadcast to a row and then down the rows, is read at the column alone. -/
theorem idx_v56 (r : Fin 10000) (q : Fin 256) :
    idx_main_v5 (idx_main_v6 (ValueIdx.ix2 r q)) = ValueIdx.ix1 q :=
  funext fun a => Fin.ext (by match a with | ⟨0, _⟩ => rfl)

section Stages

variable (x0 : (⟨S10000x256, .f32⟩ : BufTy).Contents (Elt Ideal)) (x1 : (⟨S10000x10000, .f32⟩ : BufTy).Contents (Elt Ideal))

/-! ## The three products -/

/-- Z₁ = A X. -/
theorem v0_apply (r : Fin 10000) (j : Fin 256) :
    val_main_v0 (F := Ideal) x0 x1 (ValueIdx.ix2 r j)
      = Cert.Spec.AX (fun r k => x1 (ValueIdx.ix2 r k)) (fun r j => x0 (ValueIdx.ix2 r j)) r j := by
  rw [val_main_v0_apply]
  unfold Cert.Spec.AX
  refine Finset.sum_congr rfl fun k _ => ?_
  rw [lidx_v0, ridx_v0]

/-- Z₂ = A Z₁. -/
theorem v1_apply (r : Fin 10000) (j : Fin 256) :
    val_main_v1 (F := Ideal) x0 x1 (ValueIdx.ix2 r j)
      = Cert.Spec.A2X (fun r k => x1 (ValueIdx.ix2 r k)) (fun r j => x0 (ValueIdx.ix2 r j)) r j := by
  rw [val_main_v1_apply]
  unfold Cert.Spec.A2X
  refine Finset.sum_congr rfl fun k _ => ?_
  rw [lidx_v1, ridx_v1, v0_apply]

/-- Z₃ = A Z₂. -/
theorem v2_apply (r : Fin 10000) (j : Fin 256) :
    val_main_v2 (F := Ideal) x0 x1 (ValueIdx.ix2 r j)
      = Cert.Spec.A3X (fun r k => x1 (ValueIdx.ix2 r k)) (fun r j => x0 (ValueIdx.ix2 r j)) r j := by
  rw [val_main_v2_apply]
  unfold Cert.Spec.A3X
  refine Finset.sum_congr rfl fun k _ => ?_
  rw [lidx_v2, ridx_v2, v1_apply]

end Stages

/-! ## Four n × d parts side by side -/

/-- An entry of the joined matrix: column k lies in part k / 256, at that part's column k % 256. The part is found
    from the extents before it (0, 256, 512, 768); off the joined axis the coordinates are unchanged. -/
theorem concat4_apply {α : Type} (y0 y1 y2 y3 : S10000x256.Idx → α)
    (h : Shape.Concatenates [S10000x256, S10000x256, S10000x256, S10000x256] S10000x1024 1)
    (r : Fin 10000) (k : Fin 1024) :
    concatenate S10000x1024 1 [⟨S10000x256, y0⟩, ⟨S10000x256, y1⟩, ⟨S10000x256, y2⟩, ⟨S10000x256, y3⟩] h (ValueIdx.ix2 r k)
      = if k.val < 256 then y0 (ValueIdx.ix2 r ⟨k.val % 256, Nat.mod_lt _ (by decide)⟩)
        else if k.val < 512 then y1 (ValueIdx.ix2 r ⟨k.val % 256, Nat.mod_lt _ (by decide)⟩)
        else if k.val < 768 then y2 (ValueIdx.ix2 r ⟨k.val % 256, Nat.mod_lt _ (by decide)⟩)
        else y3 (ValueIdx.ix2 r ⟨k.val % 256, Nat.mod_lt _ (by decide)⟩) := by
  have hk := k.isLt
  have hoff : ∀ b : Fin S10000x256.rank, b.cast (rfl : S10000x256.rank = S10000x1024.rank) ≠ (1 : Fin S10000x1024.rank) →
      ((ValueIdx.ix2 r (⟨k.val % 256, Nat.mod_lt _ (by decide)⟩ : Fin 256) : S10000x256.Idx) b).val
        = ((ValueIdx.ix2 r k : S10000x1024.Idx) (b.cast rfl)).val := fun b hb => by
    match b with
    | ⟨0, _⟩ => rfl
    | ⟨1, _⟩ => exact absurd rfl hb
  split_ifs with h0 h1 h2
  · exact concatenate_apply_piece (t := S10000x1024) 1 [⟨S10000x256, y0⟩, ⟨S10000x256, y1⟩, ⟨S10000x256, y2⟩, ⟨S10000x256, y3⟩] h
      (ValueIdx.ix2 r k) 0 (show (0 : Nat) < 4 by decide) S10000x256 y0 rfl rfl 0 rfl _ hoff
      (by show 0 + k.val % 256 = k.val; omega)
  · exact concatenate_apply_piece (t := S10000x1024) 1 [⟨S10000x256, y0⟩, ⟨S10000x256, y1⟩, ⟨S10000x256, y2⟩, ⟨S10000x256, y3⟩] h
      (ValueIdx.ix2 r k) 1 (show (1 : Nat) < 4 by decide) S10000x256 y1 rfl rfl 256 rfl _ hoff
      (by show 256 + k.val % 256 = k.val; omega)
  · exact concatenate_apply_piece (t := S10000x1024) 1 [⟨S10000x256, y0⟩, ⟨S10000x256, y1⟩, ⟨S10000x256, y2⟩, ⟨S10000x256, y3⟩] h
      (ValueIdx.ix2 r k) 2 (show (2 : Nat) < 4 by decide) S10000x256 y2 rfl rfl 512 rfl _ hoff
      (by show 512 + k.val % 256 = k.val; omega)
  · exact concatenate_apply_piece (t := S10000x1024) 1 [⟨S10000x256, y0⟩, ⟨S10000x256, y1⟩, ⟨S10000x256, y2⟩, ⟨S10000x256, y3⟩] h
      (ValueIdx.ix2 r k) 3 (show (3 : Nat) < 4 by decide) S10000x256 y3 rfl rfl 768 rfl _ hoff
      (by show 768 + k.val % 256 = k.val; omega)

/-- The joined matrix is H. -/
theorem v3_apply (x0 : (⟨S10000x256, .f32⟩ : BufTy).Contents (Elt Ideal)) (x1 : (⟨S10000x10000, .f32⟩ : BufTy).Contents (Elt Ideal))
    (r : Fin 10000) (k : Fin 1024) :
    val_main_v3 (F := Ideal) x0 x1 (ValueIdx.ix2 r k)
      = Cert.Spec.H (fun r k => x1 (ValueIdx.ix2 r k)) (fun r j => x0 (ValueIdx.ix2 r j)) r k := by
  unfold val_main_v3
  rw [concat4_apply, v0_apply, v1_apply, v2_apply]
  rfl

/-! ## The reference's result -/

/-- The reference at (r, q) is the stacked form: the sum over the 1024 joined columns of H times W, plus b at q. -/
theorem ref_apply (x0 : (⟨S10000x256, .f32⟩ : BufTy).Contents (Elt Ideal)) (x1 : (⟨S10000x10000, .f32⟩ : BufTy).Contents (Elt Ideal))
    (x2 : (⟨S1024x256, .f32⟩ : BufTy).Contents (Elt Ideal)) (x3 : (⟨S256, .f32⟩ : BufTy).Contents (Elt Ideal))
    (r : Fin 10000) (q : Fin 256) :
    Cert.ReferenceIdeal.Read.val_main_v7 (F := Ideal) x0 x1 x2 x3 (ValueIdx.ix2 r q)
      = Cert.Spec.refOut (fun r k => x1 (ValueIdx.ix2 r k)) (fun r j => x0 (ValueIdx.ix2 r j))
          (fun k q => x2 (ValueIdx.ix2 k q)) (fun q => x3 (ValueIdx.ix1 q)) r q := by
  rw [val_main_v7_apply, val_main_v4_apply, val_main_v6_apply, val_main_v5_apply, idx_v56, Ideal.addf_def]
  unfold Cert.Spec.refOut
  congr 1
  refine Finset.sum_congr rfl fun k _ => ?_
  rw [lidx_v4, ridx_v4, v3_apply]

end Cert.ReferenceIdeal.RefValue

end
-- ==== Proof.lean ====
/-
  The certificate of a three-hop graph propagation fused with a linear layer,

      out = [X, A X, A² X, A³ X] W + b        (A: 10000 × 10000, X: 10000 × 256, W: 1024 × 256 stacking W₀ … W₃, b: 256),

  computed by the kernel in Horner form, out = A (A ((A X) W₃ + X W₂) + X W₁) + X W₀ + b, in three sweeps over the
  400-row panels of A: a first call computes U₁ = (A X) W₃ + X W₂, C₁ = X W₁, C₀ = X W₀ + b and a copy of A in a
  narrower float format, panel by panel; a second call makes two passes, U₂ = A U₁ + C₁ into a buffer it keeps
  between grid points, then out = A U₂ + C₀.

  The frames: both kernel programs run to the end from any memory, faulting nowhere, and leave the four argument
  arrays as launched — one argument for both, written over an arbitrary float instance; the reference's frame is its
  run with the result dropped. No operation of the kernel was rewritten when it was idealized, so there is nothing to
  preserve. The value claim: on the extended reals a change of float format is the identity and a matrix product
  into a zero accumulator is the exact sum, so the kernel's result array is, entry by entry, the Horner form of the
  four argument arrays, and the reference's result the stacked form; for finite entries — which the precondition
  gives — the two agree by associativity of the matrix product and distributivity over finite sums.
-/
import proofs.«104507_g34883724378360_cont_8to1_b_1789_9_alg».proof.Defs
import proofs.«104507_g34883724378360_cont_8to1_b_1789_9_alg».proof.Proof.Gen.Kernel
import proofs.«104507_g34883724378360_cont_8to1_b_1789_9_alg».proof.Proof.Gen.KernelIdeal
import proofs.«104507_g34883724378360_cont_8to1_b_1789_9_alg».proof.Proof.Gen.ReferenceIdeal
import proofs.«104507_g34883724378360_cont_8to1_b_1789_9_alg».proof.Proof.Gen.ReferenceIdeal.Run
import proofs.«104507_g34883724378360_cont_8to1_b_1789_9_alg».proof.Proof.Gen.ReferenceIdeal.Read
import proofs.«104507_g34883724378360_cont_8to1_b_1789_9_alg».proof.Proof.Gen.Pre_finite_inputs
import proofs.«104507_g34883724378360_cont_8to1_b_1789_9_alg».proof.Proof.Kernel.Run
import proofs.«104507_g34883724378360_cont_8to1_b_1789_9_alg».proof.Proof.KernelIdeal.Run
import proofs.«104507_g34883724378360_cont_8to1_b_1789_9_alg».proof.Proof.KernelIdeal.Arrays
import proofs.«104507_g34883724378360_cont_8to1_b_1789_9_alg».proof.Proof.Bridge
import proofs.«104507_g34883724378360_cont_8to1_b_1789_9_alg».proof.Proof.HostReads
import proofs.«104507_g34883724378360_cont_8to1_b_1789_9_alg».proof.Proof.Finite
import proofs.«104507_g34883724378360_cont_8to1_b_1789_9_alg».proof.Proof.RefValue
import proofs.«104507_g34883724378360_cont_8to1_b_1789_9_alg».proof.Proof.Spec
import Idealize.ShloMosaic.Lib.ValueIdx

noncomputable section

namespace Cert.Proof

open Idealize.ShloMosaic Idealize.ShloMosaic.TcCoe Idealize.SL.Sem Idealize.ShloMosaic.ValueIdx

/-! ## The kernel's result array is the Horner form of the argument arrays -/

section KernelValue

open Cert.KernelIdeal Cert.KernelIdeal.Gen Cert.KernelIdeal.Sweep

variable (m : (ℓ : Loc nD τ sig) → Buf (Elt Ideal) ℓ) (ρ : Dev nD → PrngReg) (c : Dev nD)

/-- The four argument arrays on core c as functions of their coordinates. -/
abbrev Af : Fin 10000 → Fin 10000 → EReal := fun r k => (m ((c.tc : Thread nD τ).loc main_arg1) : S10000x10000.Idx → EReal) (ix2 r k)
abbrev Xf : Fin 10000 → Fin 256 → EReal := fun r j => (m ((c.tc : Thread nD τ).loc main_arg0) : S10000x256.Idx → EReal) (ix2 r j)
abbrev Wf : Fin 1024 → Fin 256 → EReal := fun k q => (m ((c.tc : Thread nD τ).loc main_arg2) : S1024x256.Idx → EReal) (ix2 k q)
abbrev bf : Fin 256 → EReal := fun q => (m ((c.tc : Thread nD τ).loc main_arg3) : S256.Idx → EReal) (ix1 q)

/-- Entry (r, q) of the result array after the run: the second call's output array is assembled from its panels,
    each panel's block is A_i · U₂ + C₀,i of the arrays the first call left, and those are the first sweep's blocks of
    the argument arrays (X and W read through the format change and the cut into four slices). -/
theorem out_apply (r : Fin 10000) (q : Fin 256) :
    (W3 m ρ c (Proc.devRef .tc main_v5) : S10000x256.Idx → EReal) (ix2 r q)
      = Cert.Spec.kerOut (Af m c) (Xf m c) (Wf m c) (bf m c) r q := by
  rw [W3_main_v5 m ρ c, final1_4 (V2 m ρ) c]
  exact Cert.KernelIdeal.Bridge.out_arr (V1 m ρ) (V2 m ρ) c (Af m c) (Xf m c) (Wf m c) (bf m c)
    (fun r k => congrFun (V1_main_arg1 m ρ c) (ix2 r k))
    (fun l j => (congrFun (V1_main_v0 m ρ c) (ix2 l j)).trans (Cert.KernelIdeal.HostReads.x16_apply _ l j))
    (fun s j q => (congrFun (V1_main_v2 m ρ c) (ix3 s j q)).trans (Cert.KernelIdeal.HostReads.w16_apply _ s j q))
    (fun q => (congrFun (V1_main_v3 m ρ c) (ix2 (0 : Fin 1) q)).trans (Cert.KernelIdeal.HostReads.b2_apply _ q))
    ((V2_arr m ρ c 5).trans (final0_5 (V1 m ρ) c))
    ((V2_arr m ρ c 4).trans (final0_4 (V1 m ρ) c))
    ((V2_arr m ρ c 6).trans (final0_6 (V1 m ρ) c))
    ((V2_arr m ρ c 7).trans (final0_7 (V1 m ρ) c))
    r q

end KernelValue

/-! ## The claims -/

/-- The word-level kernel runs and leaves its arguments as launched: its run with the result dropped. -/
theorem frame_k : Cert.frame_Kernel := fun m ρ _ =>
  (θ_run Cert.Kernel.defs _ _).mono (fun _ h c => (h c).2) (Cert.Kernel.Sweep.run_main (F := Bits) m ρ)

/-- The idealized kernel likewise. -/
theorem frame_ki : Cert.frame_KernelIdeal := fun m ρ _ =>
  (θ_run Cert.KernelIdeal.defs _ _).mono (fun _ h c => (h c).2) (Cert.KernelIdeal.Sweep.run_main (F := Ideal) m ρ)

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On finite inputs the idealized kernel's result (the Horner form) and the reference's (the stacked form) are one
    function of the arguments, entry by entry. -/
theorem algebraic : Cert.algebraic_KernelIdeal_ReferenceIdeal := by
  intro m ρ m' ρ' hpre hagree
  refine ⟨fun c => Cert.KernelIdeal.Sweep.W3 m ρ c (Proc.devRef .tc Cert.KernelIdeal.main_v5),
    Cert.KernelIdeal.Sweep.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, (hagree c).1, (hagree c).2.1, (hagree c).2.2.1, (hagree c).2.2.2]
  obtain ⟨h0, h1, h2, h3⟩ := Cert.Finite.finite_of_pre _ _ _ _ (hpre c)
  funext i
  obtain ⟨r, q, rfl⟩ : ∃ (r : Fin 10000) (q : Fin 256), i = ix2 r q := ⟨i 0, i 1, eq_ix2 i⟩
  rw [Cert.ReferenceIdeal.RefValue.ref_apply]
  refine (Cert.Spec.ker_eq_ref _ _ _ _ (fun r k => h1 _) (fun r j => h0 _) (fun k q => h2 _) (fun q => h3 _) r q).symm.trans ?_
  exact (out_apply m ρ c r q).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
